-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_arg1 : IVec S2x600000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : IVec S1x600000 32 := (extractStridedSlice S1x600000 ![0, 0] · slices_S2x600000_S1x600000_0_0) main_arg1
  let main_v55 : IVec S600000 32 := shapeCast S600000 main_v54 shapeCasts_S1x600000_S600000
  let main_c_20 : IVec S_ 32 := constantI S_ 32 0#32
  let main_v56 : IVec S600000 32 := broadcastInDim S600000 ![] bcast_S_S600000 main_c_20
  let main_v57 : IVec S600000 1 := cmpi .sge main_v55 main_v56
  let main_v58 : IVec S1x600000 32 := (extractStridedSlice S1x600000 ![0, 0] · slices_S2x600000_S1x600000_0_0) main_arg1
  let main_v59 : IVec S600000 32 := shapeCast S600000 main_v58 shapeCasts_S1x600000_S600000
  let main_c_21 : IVec S_ 32 := constantI S_ 32 50000#32
  let main_v60 : IVec S600000 32 := broadcastInDim S600000 ![] bcast_S_S600000 main_c_21
  let main_v61 : IVec S600000 1 := cmpi .slt main_v59 main_v60
  let main_v62 : IVec S600000 1 := andi main_v57 main_v61
  let main_c_22 : IVec S_ 1 := constantI S_ 1 1#1
  let main_v63 : IVec S_ 1 := (fun x v => Host.reduce IntOp.andi x v reducesTo_S600000_S_d0 h_S_) main_v62 main_c_22
  let main_v64 : IVec S_ 1 := andi main_v53 main_v63
  main_v64

def fn_part2 {F : FTy → Type} [FloatOps F] (main_arg1 : IVec S2x600000 32) (main_arg9 : FVec F S128x128 .f32) (main_arg10 : FVec F S128 .f32) (main_arg11 : FVec F S128x64 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x600000 32) (main_arg6 : FVec F S4x128 .f32) (main_arg7 : FVec F S4x128 .f32) (main_arg8 : FVec F S4x128 .f32) (main_arg9 : FVec F S128x128 .f32) (main_arg10 : FVec F S128 .f32) (main_arg11 : FVec F S128x64 .f32) (main_arg12 : FVec F S64 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S50000x128 .f32) (main_arg1 : IVec S2x600000 32) (main_arg2 : IVec S50000 32) (main_arg3 : FVec F S4x128x128 .f32) (main_arg4 : FVec F S4x128 .f32) (main_arg5 : FVec F S4x128x128 .f32) (main_arg6 : FVec F S4x128 .f32) (main_arg7 : FVec F S4x128 .f32) (main_arg8 : FVec F S4x128 .f32) (main_arg9 : FVec F S128x128 .f32) (main_arg10 : FVec F S128 .f32) (main_arg11 : FVec F S128x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg1 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x128x128 : Shape := ⟨3, ![1, 128, 128]⟩
abbrev S1x128 : Shape := ⟨2, ![1, 128]⟩
abbrev S5000x128 : Shape := ⟨2, ![5000, 128]⟩
abbrev S50000x1 : Shape := ⟨2, ![50000, 1]⟩
abbrev S1x64 : Shape := ⟨2, ![1, 64]⟩

abbrev nBuf : Space → Nat
  | .hbm => 270
  | .vmem => 80
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S4x128, .f32⟩
  | 8 => ⟨S4x128, .f32⟩
  | 9 => ⟨S128x128, .f32⟩
  | 10 => ⟨S128, .f32⟩
  | 11 => ⟨S128x64, .f32⟩
  | 12 => ⟨S64, .f32⟩
  | 13 => ⟨S1x600000, .i32⟩
  | 14 => ⟨S600000, .i32⟩
  | 15 => ⟨S1x600000, .i32⟩
  | 16 => ⟨S600000, .i32⟩
  | 17 => ⟨S4x128x128, .bf16⟩
  | 18 => ⟨S4x128x128, .bf16⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S1, .i32⟩
  | 28 => ⟨S_, .i32⟩
  | 29 => ⟨S600000x1, .i32⟩
  | 30 => ⟨S600000x1, .i1⟩
  | 31 => ⟨S1x1, .i32⟩
  | 32 => ⟨S600000x1, .i32⟩
  | 33 => ⟨S600000x1, .i1⟩
  | 34 => ⟨S600000x1, .i1⟩
  | 35 => ⟨S_, .i1⟩
  | 36 => ⟨S600000, .i1⟩
  | 37 => ⟨S600000x128, .f32⟩
  | 38 => ⟨S600000x128, .i1⟩
  | 39 => ⟨S_, .f32⟩
  | 40 => ⟨S600000x128, .f32⟩
  | 41 => ⟨S600000x128, .f32⟩
  | 42 => ⟨S_, .f32⟩
  | 43 => ⟨S50000x128, .f32⟩
  | 44 => ⟨S600000x1, .i32⟩
  | 45 => ⟨S50000x128, .f32⟩
  | 46 => ⟨S1x128x128, .bf16⟩
  | 47 => ⟨S128x128, .bf16⟩
  | 48 => ⟨S1x128, .f32⟩
  | 49 => ⟨S128, .f32⟩
  | 50 => ⟨S1x128x128, .bf16⟩
  | 51 => ⟨S128x128, .bf16⟩
  | 52 => ⟨S1x128, .f32⟩
  | 53 => ⟨S128, .f32⟩
  | 54 => ⟨S1x128, .f32⟩
  | 55 => ⟨S1x128, .f32⟩
  | 56 => ⟨S50000x128, .f32⟩
  | 57 => ⟨S1x128, .f32⟩
  | 58 => ⟨S1x128, .f32⟩
  | 59 => ⟨S128, .f32⟩
  | 60 => ⟨S_, .f32⟩
  | 61 => ⟨S128, .f32⟩
  | 62 => ⟨S128, .f32⟩
  | 63 => ⟨S128, .f32⟩
  | 64 => ⟨S_, .f32⟩
  | 65 => ⟨S128, .f32⟩
  | 66 => ⟨S128, .f32⟩
  | 67 => ⟨S128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S1x128, .f32⟩
  | 75 => ⟨S1x128, .f32⟩
  | 76 => ⟨S1x128, .f32⟩
  | 77 => ⟨S50000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S1, .i32⟩
  | 87 => ⟨S_, .i32⟩
  | 88 => ⟨S600000x1, .i32⟩
  | 89 => ⟨S600000x1, .i1⟩
  | 90 => ⟨S1x1, .i32⟩
  | 91 => ⟨S600000x1, .i32⟩
  | 92 => ⟨S600000x1, .i1⟩
  | 93 => ⟨S600000x1, .i1⟩
  | 94 => ⟨S_, .i1⟩
  | 95 => ⟨S600000, .i1⟩
  | 96 => ⟨S600000x128, .f32⟩
  | 97 => ⟨S600000x128, .i1⟩
  | 98 => ⟨S_, .f32⟩
  | 99 => ⟨S600000x128, .f32⟩
  | 100 => ⟨S600000x128, .f32⟩
  | 101 => ⟨S_, .f32⟩
  | 102 => ⟨S50000x128, .f32⟩
  | 103 => ⟨S600000x1, .i32⟩
  | 104 => ⟨S50000x128, .f32⟩
  | 105 => ⟨S1x128x128, .bf16⟩
  | 106 => ⟨S128x128, .bf16⟩
  | 107 => ⟨S1x128, .f32⟩
  | 108 => ⟨S128, .f32⟩
  | 109 => ⟨S1x128x128, .bf16⟩
  | 110 => ⟨S128x128, .bf16⟩
  | 111 => ⟨S1x128, .f32⟩
  | 112 => ⟨S128, .f32⟩
  | 113 => ⟨S1x128, .f32⟩
  | 114 => ⟨S1x128, .f32⟩
  | 115 => ⟨S50000x128, .f32⟩
  | 116 => ⟨S1x128, .f32⟩
  | 117 => ⟨S1x128, .f32⟩
  | 118 => ⟨S128, .f32⟩
  | 119 => ⟨S_, .f32⟩
  | 120 => ⟨S128, .f32⟩
  | 121 => ⟨S128, .f32⟩
  | 122 => ⟨S128, .f32⟩
  | 123 => ⟨S_, .f32⟩
  | 124 => ⟨S128, .f32⟩
  | 125 => ⟨S128, .f32⟩
  | 126 => ⟨S128, .f32⟩
  | 127 => ⟨S128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S1x128, .f32⟩
  | 6 => ⟨S1x128, .f32⟩
  | 7 => ⟨S1x128, .f32⟩
  | 8 => ⟨S50000x128, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S1, .i32⟩
  | 18 => ⟨S_, .i32⟩
  | 19 => ⟨S600000x1, .i32⟩
  | 20 => ⟨S600000x1, .i1⟩
  | 21 => ⟨S1x1, .i32⟩
  | 22 => ⟨S600000x1, .i32⟩
  | 23 => ⟨S600000x1, .i1⟩
  | 24 => ⟨S600000x1, .i1⟩
  | 25 => ⟨S_, .i1⟩
  | 26 => ⟨S600000, .i1⟩
  | 27 => ⟨S600000x128, .f32⟩
  | 28 => ⟨S600000x128, .i1⟩
  | 29 => ⟨S_, .f32⟩
  | 30 => ⟨S600000x128, .f32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S1x128x128, .bf16⟩
  | 37 => ⟨S128x128, .bf16⟩
  | 38 => ⟨S1x128, .f32⟩
  | 39 => ⟨S128, .f32⟩
  | 40 => ⟨S1x128x128, .bf16⟩
  | 41 => ⟨S128x128, .bf16⟩
  | 42 => ⟨S1x128, .f32⟩
  | 43 => ⟨S128, .f32⟩
  | 44 => ⟨S1x128, .f32⟩
  | 45 => ⟨S1x128, .f32⟩
  | 46 => ⟨S50000x128, .f32⟩
  | 47 => ⟨S1x128, .f32⟩
  | 48 => ⟨S1x128, .f32⟩
  | 49 => ⟨S128, .f32⟩
  | 50 => ⟨S_, .f32⟩
  | 51 => ⟨S128, .f32⟩
  | 52 => ⟨S128, .f32⟩
  | 53 => ⟨S128, .f32⟩
  | 54 => ⟨S_, .f32⟩
  | 55 => ⟨S128, .f32⟩
  | 56 => ⟨S128, .f32⟩
  | 57 => ⟨S128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S1x128, .f32⟩
  | 65 => ⟨S1x128, .f32⟩
  | 66 => ⟨S1x128, .f32⟩
  | 67 => ⟨S50000x128, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S1, .i32⟩
  | 77 => ⟨S_, .i32⟩
  | 78 => ⟨S600000x1, .i32⟩
  | 79 => ⟨S600000x1, .i1⟩
  | 80 => ⟨S1x1, .i32⟩
  | 81 => ⟨S600000x1, .i32⟩
  | 82 => ⟨S600000x1, .i1⟩
  | 83 => ⟨S600000x1, .i1⟩
  | 84 => ⟨S_, .i1⟩
  | 85 => ⟨S600000, .i1⟩
  | 86 => ⟨S600000x128, .f32⟩
  | 87 => ⟨S600000x128, .i1⟩
  | 88 => ⟨S_, .f32⟩
  | 89 => ⟨S600000x128, .f32⟩
  | 90 => ⟨S600000x128, .f32⟩
  | 91 => ⟨S_, .f32⟩
  | 92 => ⟨S50000x128, .f32⟩
  | 93 => ⟨S600000x1, .i32⟩
  | 94 => ⟨S50000x128, .f32⟩
  | 95 => ⟨S1x128x128, .bf16⟩
  | 96 => ⟨S128x128, .bf16⟩
  | 97 => ⟨S1x128, .f32⟩
  | 98 => ⟨S128, .f32⟩
  | 99 => ⟨S1x128x128, .bf16⟩
  | 100 => ⟨S128x128, .bf16⟩
  | 101 => ⟨S1x128, .f32⟩
  | 102 => ⟨S128, .f32⟩
  | 103 => ⟨S1x128, .f32⟩
  | 104 => ⟨S1x128, .f32⟩
  | 105 => ⟨S50000x128, .f32⟩
  | 106 => ⟨S1x128, .f32⟩
  | 107 => ⟨S1x128, .f32⟩
  | 108 => ⟨S128, .f32⟩
  | 109 => ⟨S_, .f32⟩
  | 110 => ⟨S128, .f32⟩
  | 111 => ⟨S128, .f32⟩
  | 112 => ⟨S128, .f32⟩
  | 113 => ⟨S_, .f32⟩
  | 114 => ⟨S128, .f32⟩
  | 115 => ⟨S128, .f32⟩
  | 116 => ⟨S128, .f32⟩
  | 117 => ⟨S128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S1x128, .f32⟩
  | 124 => ⟨S1x128, .f32⟩
  | 125 => ⟨S1x128, .f32⟩
  | 126 => ⟨S50000x128, .f32⟩
  | 127 => ⟨S_, .f32⟩
  | _ => ⟨S50000x128, .f32⟩

abbrev hbmTy0_2 (i : Nat) : BufTy := match i % 128 with
  | 0 => ⟨S128x128, .f32⟩
  | 1 => ⟨S50000x1, .i32⟩
  | 2 => ⟨S128x128, .f32⟩
  | 3 => ⟨S128x128, .f32⟩
  | 4 => ⟨S1x128, .f32⟩
  | 5 => ⟨S128x128, .f32⟩
  | 6 => ⟨S128x128, .f32⟩
  | 7 => ⟨S_, .f32⟩
  | 8 => ⟨S128x128, .f32⟩
  | 9 => ⟨S128x128, .f32⟩
  | 10 => ⟨S128x64, .f32⟩
  | 11 => ⟨S1x64, .f32⟩
  | 12 => ⟨S128x64, .f32⟩
  | 13 => ⟨S128x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .bf16⟩
  | .local _ .vmem, ⟨45, _⟩ => ⟨S1x128, .f32⟩
  | .local _ .vmem, ⟨46, _⟩ => ⟨S128x128, .bf16⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .bf16⟩
  | .local _ .vmem, ⟨65, _⟩ => ⟨S1x128, .f32⟩
  | .local _ .vmem, ⟨66, _⟩ => ⟨S128x128, .bf16⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20_0 : Ref sig .tc := ⟨.hbm, 56, rfl⟩
abbrev main_v20_1 : Ref sig .tc := ⟨.hbm, 57, rfl⟩
abbrev main_v20_2 : Ref sig .tc := ⟨.hbm, 58, rfl⟩
abbrev main_v21 : Ref sig .tc := ⟨.hbm, 59, rfl⟩
abbrev main_cst_0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_1 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v38 : Ref sig .tc := ⟨.hbm, 100, rfl⟩
abbrev main_cst_2 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52_0 : Ref sig .tc := ⟨.hbm, 115, rfl⟩
abbrev main_v52_1 : Ref sig .tc := ⟨.hbm, 116, rfl⟩
abbrev main_v52_2 : Ref sig .tc := ⟨.hbm, 117, rfl⟩
abbrev main_v53 : Ref sig .tc := ⟨.hbm, 118, rfl⟩
abbrev main_cst_3 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_cst_4 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_call2_c : Ref sig .tc := ⟨.hbm, 137, rfl⟩
abbrev main_call2_v0 : Ref sig .tc := ⟨.hbm, 138, rfl⟩
abbrev main_call2_v1 : Ref sig .tc := ⟨.hbm, 139, rfl⟩
abbrev main_call2_c_0 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_c_1 : Ref sig .tc := ⟨.hbm, 145, rfl⟩
abbrev main_call2_c_2 : Ref sig .tc := ⟨.hbm, 146, rfl⟩
abbrev main_call2_v6 : Ref sig .tc := ⟨.hbm, 147, rfl⟩
abbrev main_call2_v7 : Ref sig .tc := ⟨.hbm, 148, rfl⟩
abbrev main_call2_v8 : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_c_3 : Ref sig .tc := ⟨.hbm, 153, rfl⟩
abbrev main_call2_v12 : Ref sig .tc := ⟨.hbm, 154, rfl⟩
abbrev main_call2_v13 : Ref sig .tc := ⟨.hbm, 155, rfl⟩
abbrev main_call2_v14 : Ref sig .tc := ⟨.hbm, 156, rfl⟩
abbrev main_call2_cst : Ref sig .tc := ⟨.hbm, 157, rfl⟩
abbrev main_call2_v15 : Ref sig .tc := ⟨.hbm, 158, rfl⟩
abbrev main_v70 : Ref sig .tc := ⟨.hbm, 159, rfl⟩
abbrev main_cst_5 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84_0 : Ref sig .tc := ⟨.hbm, 174, rfl⟩
abbrev main_v84_1 : Ref sig .tc := ⟨.hbm, 175, rfl⟩
abbrev main_v84_2 : Ref sig .tc := ⟨.hbm, 176, rfl⟩
abbrev main_v85 : Ref sig .tc := ⟨.hbm, 177, rfl⟩
abbrev main_cst_6 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_cst_7 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_call3_c : Ref sig .tc := ⟨.hbm, 196, rfl⟩
abbrev main_call3_v0 : Ref sig .tc := ⟨.hbm, 197, rfl⟩
abbrev main_call3_v1 : Ref sig .tc := ⟨.hbm, 198, rfl⟩
abbrev main_call3_c_0 : Ref sig .tc := ⟨.hbm, 199, rfl⟩
abbrev main_call3_v2 : Ref sig .tc := ⟨.hbm, 200, rfl⟩
abbrev main_call3_v3 : Ref sig .tc := ⟨.hbm, 201, rfl⟩
abbrev main_call3_v4 : Ref sig .tc := ⟨.hbm, 202, rfl⟩
abbrev main_call3_v5 : Ref sig .tc := ⟨.hbm, 203, rfl⟩
abbrev main_call3_c_1 : Ref sig .tc := ⟨.hbm, 204, rfl⟩
abbrev main_call3_c_2 : Ref sig .tc := ⟨.hbm, 205, rfl⟩
abbrev main_call3_v6 : Ref sig .tc := ⟨.hbm, 206, rfl⟩
abbrev main_call3_v7 : Ref sig .tc := ⟨.hbm, 207, rfl⟩
abbrev main_call3_v8 : Ref sig .tc := ⟨.hbm, 208, rfl⟩
abbrev main_call3_v9 : Ref sig .tc := ⟨.hbm, 209, rfl⟩
abbrev main_call3_v10 : Ref sig .tc := ⟨.hbm, 210, rfl⟩
abbrev main_call3_v11 : Ref sig .tc := ⟨.hbm, 211, rfl⟩
abbrev main_call3_c_3 : Ref sig .tc := ⟨.hbm, 212, rfl⟩
abbrev main_call3_v12 : Ref sig .tc := ⟨.hbm, 213, rfl⟩
abbrev main_call3_v13 : Ref sig .tc := ⟨.hbm, 214, rfl⟩
abbrev main_call3_v14 : Ref sig .tc := ⟨.hbm, 215, rfl⟩
abbrev main_call3_cst : Ref sig .tc := ⟨.hbm, 216, rfl⟩
abbrev main_call3_v15 : Ref sig .tc := ⟨.hbm, 217, rfl⟩
abbrev main_v102 : Ref sig .tc := ⟨.hbm, 218, rfl⟩
abbrev main_cst_8 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116_0 : Ref sig .tc := ⟨.hbm, 233, rfl⟩
abbrev main_v116_1 : Ref sig .tc := ⟨.hbm, 234, rfl⟩
abbrev main_v116_2 : Ref sig .tc := ⟨.hbm, 235, rfl⟩
abbrev main_v117 : Ref sig .tc := ⟨.hbm, 236, rfl⟩
abbrev main_cst_9 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_cst_10 : Ref sig .tc := ⟨.hbm, 241, rfl⟩
abbrev main_v121 : Ref sig .tc := ⟨.hbm, 242, rfl⟩
abbrev main_v122 : Ref sig .tc := ⟨.hbm, 243, rfl⟩
abbrev main_v123 : Ref sig .tc := ⟨.hbm, 244, rfl⟩
abbrev main_v124 : Ref sig .tc := ⟨.hbm, 245, rfl⟩
abbrev main_v125 : Ref sig .tc := ⟨.hbm, 246, rfl⟩
abbrev main_v126 : Ref sig .tc := ⟨.hbm, 247, rfl⟩
abbrev main_v127 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_cst_11 : Ref sig .tc := ⟨.hbm, 255, rfl⟩
abbrev main_v134 : Ref sig .tc := ⟨.hbm, 256, rfl⟩
abbrev main_v135 : Ref sig .tc := ⟨.hbm, 257, rfl⟩
abbrev main_v136 : Ref sig .tc := ⟨.hbm, 258, rfl⟩
abbrev main_v137 : Ref sig .tc := ⟨.hbm, 259, rfl⟩
abbrev main_v138 : Ref sig .tc := ⟨.hbm, 260, rfl⟩
abbrev main_v139 : Ref sig .tc := ⟨.hbm, 261, rfl⟩
abbrev main_v140 : Ref sig .tc := ⟨.hbm, 262, rfl⟩
abbrev main_call4_cst : Ref sig .tc := ⟨.hbm, 263, rfl⟩
abbrev main_call4_v0 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg6_0 : Ref sig .tc := ⟨.vmem, 68, rfl⟩
abbrev cc6_stg6_1 : Ref sig .tc := ⟨.vmem, 69, rfl⟩
abbrev cc6_stg7_0 : Ref sig .tc := ⟨.vmem, 70, rfl⟩
abbrev cc6_stg8_0 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc6_sem7_0 : DmaSem sig := 70
abbrev cc6_sem8_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .bf16 = 32 ∨ (Rect.block (s := S128x128) S128x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .bf16 = 32 ∨ (Rect.block (s := S128x128) S128x128.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v52_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v52_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v52_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v83) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v84_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v84_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v84_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v84_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v100) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v101) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v101) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v105) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v107) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v114) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v115) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v116_0) S5000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v116_1) S1x128.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v116_2) S1x128.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v116_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v130) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v131) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v132) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v133) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S50000x1 : Shape := ⟨2, ![50000, 1]⟩
abbrev S1x64 : Shape := ⟨2, ![1, 64]⟩

abbrev nBuf : Space → Nat
  | .hbm => 368
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S4x128, .f32⟩
  | 8 => ⟨S4x128, .f32⟩
  | 9 => ⟨S128x128, .f32⟩
  | 10 => ⟨S128, .f32⟩
  | 11 => ⟨S128x64, .f32⟩
  | 12 => ⟨S64, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S50000x128, .f32⟩
  | 31 => ⟨S1x128x128, .f32⟩
  | 32 => ⟨S128x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S1x128x128, .f32⟩
  | 43 => ⟨S128x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S50000x128, .f32⟩
  | 63 => ⟨S50000x128, .f32⟩
  | 64 => ⟨S50000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .f32⟩
  | 111 => ⟨S50000x128, .f32⟩
  | 112 => ⟨S600000x1, .i32⟩
  | 113 => ⟨S50000x128, .f32⟩
  | 114 => ⟨S50000x128, .f32⟩
  | 115 => ⟨S1x128x128, .f32⟩
  | 116 => ⟨S128x128, .f32⟩
  | 117 => ⟨S50000x128, .f32⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S1x128x128, .f32⟩
  | 127 => ⟨S128x128, .f32⟩
  | _ => ⟨S50000x128, .f32⟩

abbrev hbmTy0_1 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S_, .f32⟩
  | 9 => ⟨S128, .f32⟩
  | 10 => ⟨S128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S50000x128, .f32⟩
  | 19 => ⟨S50000x128, .f32⟩
  | 20 => ⟨S50000x128, .f32⟩
  | 21 => ⟨S_, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .i1⟩
  | 30 => ⟨S_, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x128x128, .f32⟩
  | 83 => ⟨S128x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000x128, .f32⟩
  | 22 => ⟨S_, .f32⟩
  | 23 => ⟨S50000x128, .f32⟩
  | 24 => ⟨S600000x1, .i32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S128x128, .f32⟩
  | 99 => ⟨S50000x1, .i32⟩
  | 100 => ⟨S128x128, .f32⟩
  | 101 => ⟨S128x128, .f32⟩
  | 102 => ⟨S1x128, .f32⟩
  | 103 => ⟨S128x128, .f32⟩
  | 104 => ⟨S128x128, .f32⟩
  | 105 => ⟨S_, .f32⟩
  | 106 => ⟨S128x128, .f32⟩
  | 107 => ⟨S128x128, .f32⟩
  | 108 => ⟨S128x64, .f32⟩
  | 109 => ⟨S1x64, .f32⟩
  | 110 => ⟨S128x64, .f32⟩
  | 111 => ⟨S128x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_c_3 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_cst_2 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_cst_3 : Ref sig .tc := ⟨.hbm, 72, rfl⟩
abbrev main_call1_v12 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_4 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call2_cst : Ref sig .tc := ⟨.hbm, 98, rfl⟩
abbrev main_call2_v0 : Ref sig .tc := ⟨.hbm, 99, rfl⟩
abbrev main_v55 : Ref sig .tc := ⟨.hbm, 100, rfl⟩
abbrev main_c_5 : Ref sig .tc := ⟨.hbm, 101, rfl⟩
abbrev main_v56 : Ref sig .tc := ⟨.hbm, 102, rfl⟩
abbrev main_v57 : Ref sig .tc := ⟨.hbm, 103, rfl⟩
abbrev main_c_6 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_7 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_call3_cst : Ref sig .tc := ⟨.hbm, 123, rfl⟩
abbrev main_call3_v0 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_8 : Ref sig .tc := ⟨.hbm, 134, rfl⟩
abbrev main_v84 : Ref sig .tc := ⟨.hbm, 135, rfl⟩
abbrev main_cst_9 : Ref sig .tc := ⟨.hbm, 136, rfl⟩
abbrev main_v85 : Ref sig .tc := ⟨.hbm, 137, rfl⟩
abbrev main_v86 : Ref sig .tc := ⟨.hbm, 138, rfl⟩
abbrev main_c_10 : Ref sig .tc := ⟨.hbm, 139, rfl⟩
abbrev main_call4_cst : Ref sig .tc := ⟨.hbm, 140, rfl⟩
abbrev main_call4_v0 : Ref sig .tc := ⟨.hbm, 141, rfl⟩
abbrev main_call4_v1 : Ref sig .tc := ⟨.hbm, 142, rfl⟩
abbrev main_call4_cst_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_cst_1 : Ref sig .tc := ⟨.hbm, 150, rfl⟩
abbrev main_call4_v8 : Ref sig .tc := ⟨.hbm, 151, rfl⟩
abbrev main_call4_cst_2 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_cst_3 : Ref sig .tc := ⟨.hbm, 156, rfl⟩
abbrev main_call4_v12 : Ref sig .tc := ⟨.hbm, 157, rfl⟩
abbrev main_call4_cst_4 : Ref sig .tc := ⟨.hbm, 158, rfl⟩
abbrev main_call4_call0_v0 : Ref sig .tc := ⟨.hbm, 159, rfl⟩
abbrev main_call4_call0_v1 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_11 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_call5_cst : Ref sig .tc := ⟨.hbm, 182, rfl⟩
abbrev main_call5_v0 : Ref sig .tc := ⟨.hbm, 183, rfl⟩
abbrev main_v107 : Ref sig .tc := ⟨.hbm, 184, rfl⟩
abbrev main_c_12 : Ref sig .tc := ⟨.hbm, 185, rfl⟩
abbrev main_v108 : Ref sig .tc := ⟨.hbm, 186, rfl⟩
abbrev main_v109 : Ref sig .tc := ⟨.hbm, 187, rfl⟩
abbrev main_c_13 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_14 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_call6_cst : Ref sig .tc := ⟨.hbm, 207, rfl⟩
abbrev main_call6_v0 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_cst_15 : Ref sig .tc := ⟨.hbm, 218, rfl⟩
abbrev main_v136 : Ref sig .tc := ⟨.hbm, 219, rfl⟩
abbrev main_cst_16 : Ref sig .tc := ⟨.hbm, 220, rfl⟩
abbrev main_v137 : Ref sig .tc := ⟨.hbm, 221, rfl⟩
abbrev main_v138 : Ref sig .tc := ⟨.hbm, 222, rfl⟩
abbrev main_c_17 : Ref sig .tc := ⟨.hbm, 223, rfl⟩
abbrev main_call7_cst : Ref sig .tc := ⟨.hbm, 224, rfl⟩
abbrev main_call7_v0 : Ref sig .tc := ⟨.hbm, 225, rfl⟩
abbrev main_call7_v1 : Ref sig .tc := ⟨.hbm, 226, rfl⟩
abbrev main_call7_cst_0 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_call7_v5 : Ref sig .tc := ⟨.hbm, 231, rfl⟩
abbrev main_call7_v6 : Ref sig .tc := ⟨.hbm, 232, rfl⟩
abbrev main_call7_v7 : Ref sig .tc := ⟨.hbm, 233, rfl⟩
abbrev main_call7_cst_1 : Ref sig .tc := ⟨.hbm, 234, rfl⟩
abbrev main_call7_v8 : Ref sig .tc := ⟨.hbm, 235, rfl⟩
abbrev main_call7_cst_2 : Ref sig .tc := ⟨.hbm, 236, rfl⟩
abbrev main_call7_v9 : Ref sig .tc := ⟨.hbm, 237, rfl⟩
abbrev main_call7_v10 : Ref sig .tc := ⟨.hbm, 238, rfl⟩
abbrev main_call7_v11 : Ref sig .tc := ⟨.hbm, 239, rfl⟩
abbrev main_call7_cst_3 : Ref sig .tc := ⟨.hbm, 240, rfl⟩
abbrev main_call7_v12 : Ref sig .tc := ⟨.hbm, 241, rfl⟩
abbrev main_call7_cst_4 : Ref sig .tc := ⟨.hbm, 242, rfl⟩
abbrev main_call7_call0_v0 : Ref sig .tc := ⟨.hbm, 243, rfl⟩
abbrev main_call7_call0_v1 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_cst_18 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_call8_cst : Ref sig .tc := ⟨.hbm, 266, rfl⟩
abbrev main_call8_v0 : Ref sig .tc := ⟨.hbm, 267, rfl⟩
abbrev main_v159 : Ref sig .tc := ⟨.hbm, 268, rfl⟩
abbrev main_c_19 : Ref sig .tc := ⟨.hbm, 269, rfl⟩
abbrev main_v160 : Ref sig .tc := ⟨.hbm, 270, rfl⟩
abbrev main_v161 : Ref sig .tc := ⟨.hbm, 271, rfl⟩
abbrev main_c_20 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_cst_21 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_call9_cst : Ref sig .tc := ⟨.hbm, 291, rfl⟩
abbrev main_call9_v0 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_cst_22 : Ref sig .tc := ⟨.hbm, 302, rfl⟩
abbrev main_v188 : Ref sig .tc := ⟨.hbm, 303, rfl⟩
abbrev main_cst_23 : Ref sig .tc := ⟨.hbm, 304, rfl⟩
abbrev main_v189 : Ref sig .tc := ⟨.hbm, 305, rfl⟩
abbrev main_v190 : Ref sig .tc := ⟨.hbm, 306, rfl⟩
abbrev main_c_24 : Ref sig .tc := ⟨.hbm, 307, rfl⟩
abbrev main_call10_cst : Ref sig .tc := ⟨.hbm, 308, rfl⟩
abbrev main_call10_v0 : Ref sig .tc := ⟨.hbm, 309, rfl⟩
abbrev main_call10_v1 : Ref sig .tc := ⟨.hbm, 310, rfl⟩
abbrev main_call10_cst_0 : Ref sig .tc := ⟨.hbm, 311, rfl⟩
abbrev main_call10_v2 : Ref sig .tc := ⟨.hbm, 312, rfl⟩
abbrev main_call10_v3 : Ref sig .tc := ⟨.hbm, 313, rfl⟩
abbrev main_call10_v4 : Ref sig .tc := ⟨.hbm, 314, rfl⟩
abbrev main_call10_v5 : Ref sig .tc := ⟨.hbm, 315, rfl⟩
abbrev main_call10_v6 : Ref sig .tc := ⟨.hbm, 316, rfl⟩
abbrev main_call10_v7 : Ref sig .tc := ⟨.hbm, 317, rfl⟩
abbrev main_call10_cst_1 : Ref sig .tc := ⟨.hbm, 318, rfl⟩
abbrev main_call10_v8 : Ref sig .tc := ⟨.hbm, 319, rfl⟩
abbrev main_call10_cst_2 : Ref sig .tc := ⟨.hbm, 320, rfl⟩
abbrev main_call10_v9 : Ref sig .tc := ⟨.hbm, 321, rfl⟩
abbrev main_call10_v10 : Ref sig .tc := ⟨.hbm, 322, rfl⟩
abbrev main_call10_v11 : Ref sig .tc := ⟨.hbm, 323, rfl⟩
abbrev main_call10_cst_3 : Ref sig .tc := ⟨.hbm, 324, rfl⟩
abbrev main_call10_v12 : Ref sig .tc := ⟨.hbm, 325, rfl⟩
abbrev main_call10_cst_4 : Ref sig .tc := ⟨.hbm, 326, rfl⟩
abbrev main_call10_call0_v0 : Ref sig .tc := ⟨.hbm, 327, rfl⟩
abbrev main_call10_call0_v1 : Ref sig .tc := ⟨.hbm, 328, rfl⟩
abbrev main_v191 : Ref sig .tc := ⟨.hbm, 329, rfl⟩
abbrev main_v192 : Ref sig .tc := ⟨.hbm, 330, rfl⟩
abbrev main_v193 : Ref sig .tc := ⟨.hbm, 331, rfl⟩
abbrev main_v194 : Ref sig .tc := ⟨.hbm, 332, rfl⟩
abbrev main_cst_25 : Ref sig .tc := ⟨.hbm, 333, rfl⟩
abbrev main_v195 : Ref sig .tc := ⟨.hbm, 334, rfl⟩
abbrev main_v196 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_v200 : Ref sig .tc := ⟨.hbm, 339, rfl⟩
abbrev main_v201 : Ref sig .tc := ⟨.hbm, 340, rfl⟩
abbrev main_v202 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_call11_cst : Ref sig .tc := ⟨.hbm, 350, rfl⟩
abbrev main_call11_v0 : Ref sig .tc := ⟨.hbm, 351, rfl⟩
abbrev main_v211 : Ref sig .tc := ⟨.hbm, 352, rfl⟩
abbrev main_cst_26 : Ref sig .tc := ⟨.hbm, 353, rfl⟩
abbrev main_v212 : Ref sig .tc := ⟨.hbm, 354, rfl⟩
abbrev main_v213 : Ref sig .tc := ⟨.hbm, 355, rfl⟩
abbrev main_v214 : Ref sig .tc := ⟨.hbm, 356, rfl⟩
abbrev main_v215 : Ref sig .tc := ⟨.hbm, 357, rfl⟩
abbrev main_v216 : Ref sig .tc := ⟨.hbm, 358, rfl⟩
abbrev main_v217 : Ref sig .tc := ⟨.hbm, 359, rfl⟩
abbrev main_v218 : Ref sig .tc := ⟨.hbm, 360, rfl⟩
abbrev main_call12_cst : Ref sig .tc := ⟨.hbm, 361, rfl⟩
abbrev main_call12_v0 : Ref sig .tc := ⟨.hbm, 362, rfl⟩
abbrev main_v219 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  bcast_S1x128_S128x128_0_1 : S1x128.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x64_S128x64_1_0_0_1_n_n_wf : DotDims.WF S128x128 S128x64 S128x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

class Facts : Prop extends Facts₀ where

variable [Facts]
-- ==== Proof.LibTakeFill.lean ====
/-
  General facts about a row gather that fills out-of-range rows (`jnp.take` in its default mode), for indices that are
  in range.

  Such a take lowers to: wrap negative indices (`select (w < 0) (w + n) w`), gather with the wrapped indices, and select
  between the gathered rows and a fill row by the mask "0 ≤ wrapped index ≤ n − 1", reduced by `and` over the index
  vector's one component and broadcast along the row. When every index is in range the wrap is the identity, every mask
  bit is one, and the select returns the gathered rows.
-/
import Idealize.ShloMosaic.Lib.Pipeline.Value
import Idealize.ShloMosaic.Lib.ValueIdx
import Idealize.ShloMosaic.Lib.Affine
import Idealize.ShloMosaic.PureOps.Reduce

noncomputable section

namespace Cert.LibTakeFill

open Idealize.ShloMosaic Idealize.ShloMosaic.ValueIdx

/-- A left fold by `and` from 1 over bits that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_of_all f l fun n hn => h n (List.mem_cons_of_mem _ hn)

/-- A reduction by `and` from 1 of a mask whose bits are all 1 is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_of_all x _ fun n _ => hx n

/-- A select whose mask is 1 everywhere is its first branch. -/
theorem select_of_all_one {S : Shape} {α : Type} (M : IVec S 1) (G Fill : S.Idx → α) (hM : ∀ i, M i = 1#1) :
    select M G Fill = G :=
  funext fun i => by rw [select_apply, hM i, select_one]

/-- THE FILLING SELECT: with every index between its bounds, the rows gathered are what the select returns. -/
theorem take_fill_eq {n d : Nat} {α : Type} (idx lo hi : IVec ⟨2, ![n, 1]⟩ 32) (one : IVec ⟨0, ![]⟩ 1)
    (hred : (⟨2, ![n, 1]⟩ : Shape).ReducesTo ([1] : List (Fin 2)) ⟨1, ![n]⟩) (hu : 0 < (⟨0, ![]⟩ : Shape).numel)
    (hb : (⟨1, ![n]⟩ : Shape).BroadcastsInDim ⟨2, ![n, d]⟩ ![0]) (G Fill : (⟨2, ![n, d]⟩ : Shape).Idx → α)
    (hlo : ∀ i, IntOp.cmpi .sge (idx i) (lo i) = 1#1) (hhi : ∀ i, IntOp.cmpi .sle (idx i) (hi i) = 1#1)
    (hone : one (Shape.Idx.first hu) = 1#1) :
    select (broadcastInDim ⟨2, ![n, d]⟩ ![0] hb
      (Host.reduce IntOp.andi (andi (cmpi .sge idx lo) (cmpi .sle idx hi)) one hred hu)) G Fill = G := by
  refine select_of_all_one _ _ _ fun i => ?_
  refine (broadcastInDim_apply _ hb _ i (ix1 (i 0)) (fun a => by
    match a with
    | ⟨0, _⟩ =>
      show (i 0).val = if n = 1 then 0 else (i 0).val
      have hi0 : (i 0).val < n := (i 0).isLt
      split
      · omega
      · rfl)).trans ?_
  refine reduce_andi_of_all _ _ hred hu (fun i' => ?_) hone _
  show IntOp.andi (IntOp.cmpi .sge (idx i') (lo i')) (IntOp.cmpi .sle (idx i') (hi i')) = 1#1
  rw [hlo i', hhi i']
  decide

/-- The wrap of negative indices leaves a nonnegative index alone. -/
theorem wrap_of_nonneg (w n : BitVec 32) (h : IntOp.cmpi .sge w 0#32 = 1#1) :
    Scalar.select (IntOp.cmpi .slt w 0#32) (IntOp.addi w n) w = w := by
  have h0 : IntOp.cmpi .slt w 0#32 = 0#1 := by
    refine eq_zero_of_ne_one fun e => ?_
    have h1 := IntOp.cmpi_sge.1 h
    have h2 := IntOp.cmpi_slt.1 e
    omega
  rw [h0, select_zero]

/-- Below `n` is at most `n − 1`, read signed. -/
theorem sle_pred_of_slt (w n p : BitVec 32) (h : IntOp.cmpi .slt w n = 1#1) (hp : n.toInt = p.toInt + 1) :
    IntOp.cmpi .sle w p = 1#1 := by
  rw [IntOp.cmpi_sle]
  have h1 := IntOp.cmpi_slt.1 h
  omega

end Cert.LibTakeFill

end
-- ==== Proof.KHostA0.lean ====
/-
  The kernel program's host operations before its first kernel launch, read as values.

  Three stretches of host operations run before the first layer's kernel. The first cuts the edge list into its source
  and destination rows and rounds the two stacked weight arrays to the matmul's format. The second is a row take
  h[src] in its filling form: negative indices wrapped by the row count, the rows gathered, and a select between the
  gathered rows and a fill row by the mask "0 ≤ wrapped index ≤ 49999". The third is the segment sum (a scatter-add
  of the taken rows into zeros at the destination rows) and the layer's own slices of the stacked parameters.

  For ANY contents V of the device's buffers, each buffer the kernel then reads is stated as an explicit term of the
  buffers the stretch reads. When every source index lies in [0, 50000) the filling select of the take is the plain
  gather: the wrap is the identity, every mask bit is one. Every buffer a stretch does not write keeps its contents.
-/
import proofs.«414384_j72937134621131_1_alg».proof.Proof.Gen.KernelIdeal.Launch
import proofs.«414384_j72937134621131_1_alg».proof.Proof.LibTakeFill
import Idealize.ShloMosaic.Lib.StableHlo.Run
import Idealize.ShloMosaic.Lib.StableHlo.Predicate
import Idealize.ShloMosaic.Lib.ValueIdx

noncomputable section

namespace Cert.KernelIdeal.KHostA0

open Cert.KernelIdeal Cert.KernelIdeal.Gen Idealize.ShloMosaic Idealize.ShloMosaic.TcCoe Idealize.ShloMosaic.StableHlo
open Idealize.ShloMosaic.ValueIdx

variable (V : Valuation τ sig (Elt Ideal))

/-- A written buffer lies in the list of the buffers written. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The first layer only: the edge rows and the weights in the matmul's format -/

section EdgesAndWeights

/-- The source row of the edge list: row 0 of the [2, 600000] array, as a vector. -/
theorem src_eq :
    (StableHlo.after (hostOps0 (F := Ideal)) V (Proc.devRef .tc main_v1) : IVec S600000 32)
      = shapeCast S600000 (extractStridedSlice S1x600000 ![0, 0] (V (Proc.devRef .tc main_arg1) : IVec S2x600000 32)
          slices_S2x600000_S1x600000_0_0) shapeCasts_S1x600000_S600000 := by
  after_results; rfl

/-- The destination row of the edge list: row 1 of the [2, 600000] array, as a vector. -/
theorem dst_eq :
    (StableHlo.after (hostOps0 (F := Ideal)) V (Proc.devRef .tc main_v3) : IVec S600000 32)
      = shapeCast S600000 (extractStridedSlice S1x600000 ![1, 0] (V (Proc.devRef .tc main_arg1) : IVec S2x600000 32)
          slices_S2x600000_S1x600000_1_0) shapeCasts_S1x600000_S600000 := by
  after_results; rfl

/-- The first weights of the four layers, in the matmul's format. -/
theorem w1_stack_eq :
    StableHlo.after (hostOps0 (F := Ideal)) V (Proc.devRef .tc main_v4)
      = (truncf (F := Ideal) (s := S4x128x128) (φ := .f32) .bf16 (V (Proc.devRef .tc main_arg3)) bitsLt_bf16_f32
          : FVec Ideal S4x128x128 .bf16) := by
  after_results

/-- The second weights of the four layers, in the matmul's format. -/
theorem w2_stack_eq :
    StableHlo.after (hostOps0 (F := Ideal)) V (Proc.devRef .tc main_v5)
      = (truncf (F := Ideal) (s := S4x128x128) (φ := .f32) .bf16 (V (Proc.devRef .tc main_arg5)) bitsLt_bf16_f32
          : FVec Ideal S4x128x128 .bf16) := by
  after_results

/-- The buffers this stretch writes. -/
abbrev written0 : List (Ref sig .tc) := [main_v0, main_v1, main_v2, main_v3, main_v4, main_v5]

/-- Every other buffer keeps its contents. -/
theorem hostOps0_frame (r : Ref sig .tc) (hr : r ∉ written0) :
    StableHlo.after (hostOps0 (F := Ideal)) V (Proc.devRef .tc r) = V (Proc.devRef .tc r) :=
  StableHlo.after_of_writes_sub (W := written0) _ V (by
    simp only [hostOps0, List.Forall, StableHlo.nullary_writes, StableHlo.unary_writes, StableHlo.binary_writes,
      StableHlo.ternary_writes, StableHlo.reshape_writes]
    repeat' apply And.intro
    all_goals exact single_sub_of_mem (by decide)) hr

end EdgesAndWeights

/-! ## The row take -/

section Take

/-- The index column a take gathers with: a negative index wrapped by the row count, laid as a [600000, 1] column. -/
local notation "takeIdx(" s ")" =>
  broadcastInDim S600000x1 ![0] bcast_S600000_S600000x1_0
    (select (cmpi CmpIPredicate.slt s (broadcastInDim S600000 ![] bcast_S_S600000 (constantI S_ 32 0#32)))
      (addi s (broadcastInDim S600000 ![] bcast_S_S600000 (constantI S_ 32 50000#32))) s)

/-- The wrap of negative indices is the identity on a vector with no negative index. -/
theorem wrap_eq (src : IVec S600000 32) (hnn : ∀ e : S600000.Idx, IntOp.cmpi .sge (src e) 0#32 = 1#1) :
    select (cmpi CmpIPredicate.slt src (broadcastInDim S600000 ![] bcast_S_S600000 (constantI S_ 32 0#32)))
      (addi src (broadcastInDim S600000 ![] bcast_S_S600000 (constantI S_ 32 50000#32))) src = src :=
  funext fun e => by
    rw [select_apply]
    exact Cert.LibTakeFill.wrap_of_nonneg (src e) 50000#32 (hnn e)

/-- An entry of a vector laid as a [600000, 1] column is an entry of the vector. -/
theorem col_entry (src : IVec S600000 32) (i : S600000x1.Idx) :
    ∃ e : S600000.Idx, broadcastInDim S600000x1 ![0] bcast_S600000_S600000x1_0 src i = src e := ⟨_, rfl⟩

/-- The lower mask bit: with no index negative, every entry of the index column is at least 0. -/
theorem takeIdx_ge_zero (src : IVec S600000 32)
    (hsrc : ∀ e : S600000.Idx, IntOp.cmpi .sge (src e) 0#32 = 1#1 ∧ IntOp.cmpi .slt (src e) 50000#32 = 1#1)
    (i : S600000x1.Idx) :
    IntOp.cmpi .sge (takeIdx(src) i) (broadcastInDim S600000x1 ![] bcast_S_S600000x1 (constantI S_ 32 0#32) i) = 1#1 := by
  rw [wrap_eq src fun e => (hsrc e).1]
  obtain ⟨e, he⟩ := col_entry src i
  rw [he]
  exact (hsrc e).1

/-- The upper mask bit: with every index below 50000, every entry of the index column is at most 49999. -/
theorem takeIdx_le_last (src : IVec S600000 32)
    (hsrc : ∀ e : S600000.Idx, IntOp.cmpi .sge (src e) 0#32 = 1#1 ∧ IntOp.cmpi .slt (src e) 50000#32 = 1#1)
    (i : S600000x1.Idx) :
    IntOp.cmpi .sle (takeIdx(src) i)
      (broadcastInDim S600000x1 ![0, 1] bcast_S1x1_S600000x1_0_1
        (broadcastInDim S1x1 ![1] bcast_S1_S1x1_1 (constantI S1 32 49999#32)) i) = 1#1 := by
  rw [wrap_eq src fun e => (hsrc e).1]
  obtain ⟨e, he⟩ := col_entry src i
  rw [he]
  exact Cert.LibTakeFill.sle_pred_of_slt (src e) 50000#32 49999#32 (hsrc e).2 (by decide)

/-- THE TAKE IN RANGE: with every index in [0, 50000) each mask bit 0 ≤ index ≤ 49999 is one, and the select between
    the gathered rows and the fill row returns the gathered rows. -/
theorem take_select_eq (x : FVec Ideal S50000x128 .f32) (src : IVec S600000 32)
    (hsrc : ∀ e : S600000.Idx, IntOp.cmpi .sge (src e) 0#32 = 1#1 ∧ IntOp.cmpi .slt (src e) 50000#32 = 1#1) :
    select
        (broadcastInDim S600000x128 ![0] bcast_S600000_S600000x128_0
          (Host.reduce IntOp.andi
            (andi
              (cmpi CmpIPredicate.sge takeIdx(src) (broadcastInDim S600000x1 ![] bcast_S_S600000x1 (constantI S_ 32 0#32)))
              (cmpi CmpIPredicate.sle takeIdx(src)
                (broadcastInDim S600000x1 ![0, 1] bcast_S1x1_S600000x1_0_1
                  (broadcastInDim S1x1 ![1] bcast_S1_S1x1_1 (constantI S1 32 49999#32)))))
            (constantI S_ 1 1#1) reducesTo_S600000x1_S600000_d1 h_S_))
        (Host.gather gather_S50000x128_S600000x1_S600000x128_1_0_n_n_0_1_1128 x takeIdx(src))
        (broadcastInDim S600000x128 ![] bcast_S_S600000x128 (constant (F := Ideal) S_ .f32 0x7FC00000#32))
      = Host.gather gather_S50000x128_S600000x1_S600000x128_1_0_n_n_0_1_1128 x takeIdx(src) := by
  -- the law holds for any index column between its bounds: name the column, the gathered rows, the fill row and the bounds
  generalize hI : takeIdx(src) = idx
  generalize (Host.gather gather_S50000x128_S600000x1_S600000x128_1_0_n_n_0_1_1128 x idx) = G
  generalize (broadcastInDim S600000x128 ![] bcast_S_S600000x128 (constant (F := Ideal) S_ .f32 0x7FC00000#32)) = Fill
  generalize hL : (broadcastInDim S600000x1 ![] bcast_S_S600000x1 (constantI S_ 32 0#32)) = lo
  generalize hH : (broadcastInDim S600000x1 ![0, 1] bcast_S1x1_S600000x1_0_1
                  (broadcastInDim S1x1 ![1] bcast_S1_S1x1_1 (constantI S1 32 49999#32))) = hi
  exact Cert.LibTakeFill.take_fill_eq (n := 600000) (d := 128) idx lo hi (constantI S_ 1 1#1)
    reducesTo_S600000x1_S600000_d1 h_S_ bcast_S600000_S600000x128_0 G Fill
    (fun i => by subst hI hL; exact takeIdx_ge_zero src hsrc i)
    (fun i => by subst hI hH; exact takeIdx_le_last src hsrc i)
    rfl

/-- The take's result for any contents: the filling select over the rows gathered from the feature buffer. -/
theorem take_term :
    (StableHlo.after (hostOps0_1 (F := Ideal)) V (Proc.devRef .tc main_v6) : FVec Ideal S600000x128 .f32)
      = select
          (broadcastInDim S600000x128 ![0] bcast_S600000_S600000x128_0
            (Host.reduce IntOp.andi
              (andi
                (cmpi CmpIPredicate.sge takeIdx((V (Proc.devRef .tc main_v1) : IVec S600000 32))
                  (broadcastInDim S600000x1 ![] bcast_S_S600000x1 (constantI S_ 32 0#32)))
                (cmpi CmpIPredicate.sle takeIdx((V (Proc.devRef .tc main_v1) : IVec S600000 32))
                  (broadcastInDim S600000x1 ![0, 1] bcast_S1x1_S600000x1_0_1
                    (broadcastInDim S1x1 ![1] bcast_S1_S1x1_1 (constantI S1 32 49999#32)))))
              (constantI S_ 1 1#1) reducesTo_S600000x1_S600000_d1 h_S_))
          (Host.gather gather_S50000x128_S600000x1_S600000x128_1_0_n_n_0_1_1128
            (V (Proc.devRef .tc main_arg0) : FVec Ideal S50000x128 .f32) takeIdx((V (Proc.devRef .tc main_v1) : IVec S600000 32)))
          (broadcastInDim S600000x128 ![] bcast_S_S600000x128 (constant (F := Ideal) S_ .f32 0x7FC00000#32)) := by
  after_results_simp
  simp only [TRef.ofBuf, TRef.toBuf, cast_eq]

/-- THE TAKE IS THE GATHER: with every source index in [0, 50000) the take's result is the rows of the feature buffer
    gathered at the (wrapped) source indices. -/
theorem take_eq
    (hsrc : ∀ e : S600000.Idx, IntOp.cmpi .sge ((V (Proc.devRef .tc main_v1) : IVec S600000 32) e) 0#32 = 1#1
      ∧ IntOp.cmpi .slt ((V (Proc.devRef .tc main_v1) : IVec S600000 32) e) 50000#32 = 1#1) :
    (StableHlo.after (hostOps0_1 (F := Ideal)) V (Proc.devRef .tc main_v6) : FVec Ideal S600000x128 .f32)
      = Host.gather gather_S50000x128_S600000x1_S600000x128_1_0_n_n_0_1_1128
          (V (Proc.devRef .tc main_arg0) : FVec Ideal S50000x128 .f32) takeIdx((V (Proc.devRef .tc main_v1) : IVec S600000 32)) :=
  (take_term V).trans (take_select_eq _ _ hsrc)

/-- The buffers this stretch writes. -/
abbrev written0_1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10,
   main_call0_v11, main_call0_c_3, main_call0_v12, main_call0_v13, main_call0_v14, main_call0_cst, main_call0_v15, main_v6]

/-- Every other buffer keeps its contents. -/
theorem hostOps0_1_frame (r : Ref sig .tc) (hr : r ∉ written0_1) :
    StableHlo.after (hostOps0_1 (F := Ideal)) V (Proc.devRef .tc r) = V (Proc.devRef .tc r) :=
  StableHlo.after_of_writes_sub (W := written0_1) _ V (by
    simp only [hostOps0_1, List.Forall, StableHlo.nullary_writes, StableHlo.unary_writes, StableHlo.binary_writes,
      StableHlo.ternary_writes, StableHlo.reshape_writes]
    repeat' apply And.intro
    all_goals exact single_sub_of_mem (by decide)) hr

end Take

/-! ## The segment sum and the layer's parameters -/

section SegmentSumAndParameters

/-- The segment sum: the taken rows added into zeros at the destination rows. -/
theorem agg_eq :
    (StableHlo.after (hostOps0_2 (F := Ideal)) V (Proc.devRef .tc main_v9) : FVec Ideal S50000x128 .f32)
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (V (Proc.devRef .tc main_v3) : IVec S600000 32))
          (V (Proc.devRef .tc main_v6) : FVec Ideal S600000x128 .f32) := by
  after_results

/-- The layer's first weight: its [128, 128] block of the stacked array. -/
theorem w1_eq :
    (StableHlo.after (hostOps0_2 (F := Ideal)) V (Proc.devRef .tc main_v11) : FVec Ideal S128x128 .bf16)
      = shapeCast S128x128
          (extractStridedSlice S1x128x128 ![0, 0, 0] (V (Proc.devRef .tc main_v4) : FVec Ideal S4x128x128 .bf16) -- layer row
            slices_S4x128x128_S1x128x128_0_0_0) -- layer row
          shapeCasts_S1x128x128_S128x128 := by
  after_results; rfl

/-- The layer's second weight: its [128, 128] block of the stacked array. -/
theorem w2_eq :
    (StableHlo.after (hostOps0_2 (F := Ideal)) V (Proc.devRef .tc main_v15) : FVec Ideal S128x128 .bf16)
      = shapeCast S128x128
          (extractStridedSlice S1x128x128 ![0, 0, 0] (V (Proc.devRef .tc main_v5) : FVec Ideal S4x128x128 .bf16) -- layer row
            slices_S4x128x128_S1x128x128_0_0_0) -- layer row
          shapeCasts_S1x128x128_S128x128 := by
  after_results; rfl

/-- The layer's first bias as a [1, 128] row: its row of the stacked array, flattened and laid as a row again. -/
theorem b1_eq :
    (StableHlo.after (hostOps0_2 (F := Ideal)) V (Proc.devRef .tc main_v18) : FVec Ideal S1x128 .f32)
      = shapeCast S1x128
          (shapeCast S128
            (extractStridedSlice S1x128 ![0, 0] (V (Proc.devRef .tc main_arg4) : FVec Ideal S4x128 .f32) -- layer row
              slices_S4x128_S1x128_0_0) -- layer row
            shapeCasts_S1x128_S128)
          shapeCasts_S128_S1x128 := by
  after_results; rfl

/-- The layer's second bias as a [1, 128] row: its row of the stacked array, flattened and laid as a row again. -/
theorem b2_eq :
    (StableHlo.after (hostOps0_2 (F := Ideal)) V (Proc.devRef .tc main_v19) : FVec Ideal S1x128 .f32)
      = shapeCast S1x128
          (shapeCast S128
            (extractStridedSlice S1x128 ![0, 0] (V (Proc.devRef .tc main_arg6) : FVec Ideal S4x128 .f32) -- layer row
              slices_S4x128_S1x128_0_0) -- layer row
            shapeCasts_S1x128_S128)
          shapeCasts_S128_S1x128 := by
  after_results; rfl

/-- The buffers this stretch writes. -/
abbrev written0_2 : List (Ref sig .tc) :=
  [main_cst, main_v7, main_v8, main_v9, main_v10, main_v11, main_v12, main_v13, main_v14, main_v15, main_v16, main_v17,
   main_v18, main_v19]

/-- Every other buffer keeps its contents. -/
theorem hostOps0_2_frame (r : Ref sig .tc) (hr : r ∉ written0_2) :
    StableHlo.after (hostOps0_2 (F := Ideal)) V (Proc.devRef .tc r) = V (Proc.devRef .tc r) :=
  StableHlo.after_of_writes_sub (W := written0_2) _ V (by
    simp only [hostOps0_2, List.Forall, StableHlo.nullary_writes, StableHlo.unary_writes, StableHlo.binary_writes,
      StableHlo.ternary_writes, StableHlo.reshape_writes]
    repeat' apply And.intro
    all_goals exact single_sub_of_mem (by decide)) hr

end SegmentSumAndParameters

end Cert.KernelIdeal.KHostA0

end
-- ==== Proof.KSlices.lean ====
/-
  The per-layer pieces of the stacked parameters, read at an entry.

  The weights of the four layers are stacked in one [4,128,128] array and the biases in one [4,128] array.  A layer
  takes its weight block by a slice at row offset l and a reshape that drops the leading unit axis, and its bias row
  by a slice at row offset l, a reshape to [128] and a reshape back to [1,128].  None of these moves an entry: the
  block at (k, j) is the stack at (l, k, j), and the row at (0, j) is the stack at (l, j).  A change to the narrow
  float format is the identity on the extended reals.
-/
import proofs.«414384_j72937134621131_1_alg».proof.Proof.Gen.KernelIdeal.Launch
import Idealize.ShloMosaic.Lib.ValueIdx
import Idealize.ShloMosaic.Lib.ValueLayout
import Idealize.ShloMosaic.Lib.Pipeline.Value

noncomputable section

namespace Cert.KernelIdeal.KSlices

open Cert.KernelIdeal Cert.KernelIdeal.Gen
open Idealize.ShloMosaic Idealize.ShloMosaic.ValueIdx

/-- A rank-3 array cut along axis 0 from `o` reads, at (i, a, b), the source at (k, a, b) with k = o + i. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (i : Fin m) (a : Fin n1) (b : Fin n2) (k : Fin n0) (hk : k.val = o + i.val) :
    extractStridedSlice ⟨3, ![m, n1, n2]⟩ ![o, 0, 0] X h (ix3 i a b) = X (ix3 k a b) :=
  extractStridedSlice_apply _ _ _ _ _ (fun ax => by
    match ax with
    | ⟨0, _⟩ => exact hk
    | ⟨1, _⟩ => exact (Nat.zero_add _).symm
    | ⟨2, _⟩ => exact (Nat.zero_add _).symm)

/-! ### The four layers' weight blocks and bias rows -/

/-- Layer 0's weight block: entry (k, j) of the block is entry (0, k, j) of the stack. -/
theorem wblock0_apply (x : FVec Ideal S4x128x128 .bf16) (k j : Fin 128) :
    shapeCast S128x128 (extractStridedSlice S1x128x128 ![0, 0, 0] x slices_S4x128x128_S1x128x128_0_0_0)
        shapeCasts_S1x128x128_S128x128 (ix2 k j)
      = x (ix3 (0 : Fin 4) k j) := by
  rw [shapeCast_1ab_ab_apply]
  exact slice3_axis0_apply 0 x slices_S4x128x128_S1x128x128_0_0_0 (0 : Fin 1) k j (0 : Fin 4) rfl

/-- Layer 0's bias row: entry (0, j) of the row is entry (0, j) of the stack. -/
theorem brow0_apply (b : FVec Ideal S4x128 .f32) (j : Fin 128) :
    shapeCast S1x128
        (shapeCast S128 (extractStridedSlice S1x128 ![0, 0] b slices_S4x128_S1x128_0_0) shapeCasts_S1x128_S128)
        shapeCasts_S128_S1x128 (ix2 (0 : Fin 1) j)
      = b (ix2 (0 : Fin 4) j) := by
  rw [shapeCast_a_1a_apply, shapeCast_1a_a_apply]
  exact slice2_axis0_apply 0 b slices_S4x128_S1x128_0_0 (0 : Fin 1) j (0 : Fin 4) rfl

/-- Layer 1's weight block: entry (k, j) of the block is entry (1, k, j) of the stack. -/
theorem wblock1_apply (x : FVec Ideal S4x128x128 .bf16) (k j : Fin 128) :
    shapeCast S128x128 (extractStridedSlice S1x128x128 ![1, 0, 0] x slices_S4x128x128_S1x128x128_1_0_0)
        shapeCasts_S1x128x128_S128x128 (ix2 k j)
      = x (ix3 (1 : Fin 4) k j) := by
  rw [shapeCast_1ab_ab_apply]
  exact slice3_axis0_apply 1 x slices_S4x128x128_S1x128x128_1_0_0 (0 : Fin 1) k j (1 : Fin 4) rfl

/-- Layer 1's bias row: entry (0, j) of the row is entry (1, j) of the stack. -/
theorem brow1_apply (b : FVec Ideal S4x128 .f32) (j : Fin 128) :
    shapeCast S1x128
        (shapeCast S128 (extractStridedSlice S1x128 ![1, 0] b slices_S4x128_S1x128_1_0) shapeCasts_S1x128_S128)
        shapeCasts_S128_S1x128 (ix2 (0 : Fin 1) j)
      = b (ix2 (1 : Fin 4) j) := by
  rw [shapeCast_a_1a_apply, shapeCast_1a_a_apply]
  exact slice2_axis0_apply 1 b slices_S4x128_S1x128_1_0 (0 : Fin 1) j (1 : Fin 4) rfl

/-- Layer 2's weight block: entry (k, j) of the block is entry (2, k, j) of the stack. -/
theorem wblock2_apply (x : FVec Ideal S4x128x128 .bf16) (k j : Fin 128) :
    shapeCast S128x128 (extractStridedSlice S1x128x128 ![2, 0, 0] x slices_S4x128x128_S1x128x128_2_0_0)
        shapeCasts_S1x128x128_S128x128 (ix2 k j)
      = x (ix3 (2 : Fin 4) k j) := by
  rw [shapeCast_1ab_ab_apply]
  exact slice3_axis0_apply 2 x slices_S4x128x128_S1x128x128_2_0_0 (0 : Fin 1) k j (2 : Fin 4) rfl

/-- Layer 2's bias row: entry (0, j) of the row is entry (2, j) of the stack. -/
theorem brow2_apply (b : FVec Ideal S4x128 .f32) (j : Fin 128) :
    shapeCast S1x128
        (shapeCast S128 (extractStridedSlice S1x128 ![2, 0] b slices_S4x128_S1x128_2_0) shapeCasts_S1x128_S128)
        shapeCasts_S128_S1x128 (ix2 (0 : Fin 1) j)
      = b (ix2 (2 : Fin 4) j) := by
  rw [shapeCast_a_1a_apply, shapeCast_1a_a_apply]
  exact slice2_axis0_apply 2 b slices_S4x128_S1x128_2_0 (0 : Fin 1) j (2 : Fin 4) rfl

/-- Layer 3's weight block: entry (k, j) of the block is entry (3, k, j) of the stack. -/
theorem wblock3_apply (x : FVec Ideal S4x128x128 .bf16) (k j : Fin 128) :
    shapeCast S128x128 (extractStridedSlice S1x128x128 ![3, 0, 0] x slices_S4x128x128_S1x128x128_3_0_0)
        shapeCasts_S1x128x128_S128x128 (ix2 k j)
      = x (ix3 (3 : Fin 4) k j) := by
  rw [shapeCast_1ab_ab_apply]
  exact slice3_axis0_apply 3 x slices_S4x128x128_S1x128x128_3_0_0 (0 : Fin 1) k j (3 : Fin 4) rfl

/-- Layer 3's bias row: entry (0, j) of the row is entry (3, j) of the stack. -/
theorem brow3_apply (b : FVec Ideal S4x128 .f32) (j : Fin 128) :
    shapeCast S1x128
        (shapeCast S128 (extractStridedSlice S1x128 ![3, 0] b slices_S4x128_S1x128_3_0) shapeCasts_S1x128_S128)
        shapeCasts_S128_S1x128 (ix2 (0 : Fin 1) j)
      = b (ix2 (3 : Fin 4) j) := by
  rw [shapeCast_a_1a_apply, shapeCast_1a_a_apply]
  exact slice2_axis0_apply 3 b slices_S4x128_S1x128_3_0 (0 : Fin 1) j (3 : Fin 4) rfl

/-! ### The narrow format -/

/-- Truncation to the narrow format keeps every entry. -/
theorem trunc_apply (w : FVec Ideal S4x128x128 .f32) (i : S4x128x128.Idx) :
    (truncf (F := Ideal) (φ := .f32) .bf16 w bitsLt_bf16_f32 : FVec Ideal S4x128x128 .bf16) i = w i := rfl

end Cert.KernelIdeal.KSlices

end
-- ==== Proof.LibRealVariance.lean ====
/-
  The calculus of "this extended real is a real number", and the variance law.

  A float is read as an extended real; the sum, difference and product of two extended reals that
  are real numbers are the real sum, difference and product, and a quotient by a nonzero real is the
  real quotient. So a column of real numbers has a real mean, and its variance computed as
  E[a²] − E[a]² equals the variance computed as E[(a − E a)²]: the identity is the textbook one in ℝ,
  carried back along the embedding ℝ → [-∞, +∞]. (At an infinity the two differ; that is why every
  entry is assumed real.)
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

/-- An extended real that is a real number. -/
def IsReal (x : EReal) : Prop := ∃ r : ℝ, x = (r : EReal)

namespace IsReal

/-- A real number, embedded, is a real number. -/
theorem coe (r : ℝ) : IsReal (r : EReal) := ⟨r, rfl⟩

theorem zero : IsReal 0 := ⟨0, rfl⟩

theorem one : IsReal 1 := ⟨1, rfl⟩

/-- The sum of two reals is the real sum. -/
theorem add {x y : EReal} (hx : IsReal x) (hy : IsReal y) : IsReal (x + y) := by
  obtain ⟨a, rfl⟩ := hx
  obtain ⟨b, rfl⟩ := hy
  exact ⟨a + b, (EReal.coe_add a b).symm⟩

/-- The negation of a real is the real negation. -/
theorem neg {x : EReal} (hx : IsReal x) : IsReal (-x) := by
  obtain ⟨a, rfl⟩ := hx
  exact ⟨-a, (EReal.coe_neg a).symm⟩

/-- The difference of two reals is the real difference. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is the real product. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is one of them. -/
theorem max {x y : EReal} (hx : IsReal x) (hy : IsReal y) : IsReal (max x y) := by
  rcases max_choice x y with h | h <;> rw [h] <;> assumption

/-- The lesser of two reals is one of them. -/
theorem min {x y : EReal} (hx : IsReal x) (hy : IsReal y) : IsReal (min x y) := by
  rcases min_choice x y with h | h <;> rw [h] <;> assumption

/-- A finite sum of reals is a real: by induction on the index set. -/
theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

/-- The sum of a whole finite family of reals is a real. -/
theorem sum {ι : Type*} [Fintype ι] (a : ι → EReal) (h : ∀ i, IsReal (a i)) : IsReal (∑ i, a i) :=
  finset_sum Finset.univ a fun i _ => h i

/-- The quotient of a real by a nonzero real is the real quotient (the product with the reciprocal). -/
theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

/-- The reciprocal square root of a positive real r is the real (√r)⁻¹. -/
theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

/-- A real number is an extended real that is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value, max x (-x), is below +∞ is a real number: at ⊤ the
    first argument is ⊤, at ⊥ the second is. -/
theorem isReal_of_abs_lt_top {x : EReal} (h : max x (-x) < ⊤) : IsReal x := by
  rw [isReal_iff]
  constructor
  · rintro rfl
    exact absurd h (by simp)
  · rintro rfl
    exact absurd h (by simp)

/-! ### The four literals -/

/-- The pattern of 200000.0 denotes the real 200000. -/
theorem ofBits_N : Ideal.ofBits .f32 0x48435000#32 = ((200000 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The pattern of 1.0 denotes the real 1. -/
theorem ofBits_one : Ideal.ofBits .f32 0x3F800000#32 = ((1 : ℝ) : EReal) := by
  simp [Ideal.ofBits, Ideal.ieee, -EReal.coe_mul]; norm_num

/-- The pattern 0x3727C5AC (the float nearest 1e-5) denotes a positive real, 10995116 · 2⁻⁴⁰.
    Only its sign and finiteness are used. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Sums of reals -/

/-- The embedding of the reals carries a finite sum to the sum of the embedded terms. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

/-- The mean of a column of embedded reals over a nonzero real count is the embedded real mean. -/
theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

/-! ### The variance law in ℝ -/

/-- The sum of squared deviations from any m, expanded. -/
theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

/-- E[r²] − E[r]² = E[(r − E r)²] over N ≠ 0 real entries. -/
theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

/-- The mean of squared deviations is a nonnegative real: a sum of squares times 1 / N, N a count. -/
theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

/-! ### The variance law at the extended reals -/

/-- The mean of squared deviations of a column of embedded reals is the embedded real one. -/
theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

/-- THE LAW: for a column of N ≠ 0 real entries, the variance as E[a²] − E[a]² is the variance as
    E[(a − E a)²]. -/
theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

/-- The variance of a column of N ≠ 0 real entries is a nonnegative real. -/
theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

/-- The mean of a column of real entries over a nonzero real count is a real. -/
theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

/-! ### The same, with each sum written from an initial zero

A float sum on the host is "the initial value plus the sum"; with the initial value 0 that is the sum. -/

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

/-! ### Regrouping a sum into blocks -/

/-- A sum over γ is the iterated sum over α then β along any bijection α × β ≃ γ. -/
theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

/-- The 200000 rows as 20 blocks of 10000: (b, r) ↦ 10000 · b + r. -/
def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

/-- A sum over the 200000 rows is the sum over the 20 blocks of the sums over each block's 10000 rows. -/
theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.Spec.lean ====
/-
  One graph-isomorphism layer with batch normalisation, entry by entry over the extended reals.

  A layer takes the node features h (50000 nodes, 128 features each) and the neighbour sums agg and forms
  z = relu((h + agg)·W₁ + b₁)·W₂ + b₂, then the mean E z and the variance of every column of z over the nodes, and
  returns relu((z − E z)·(Var z + ε)^(−1/2)·γ + β).  The variance is written in two ways: E z² − (E z)², from the column
  sums of z and of z², and E (z − E z)², from the centred entries.  On columns of real numbers the two agree, so the two
  layers agree wherever z is real; and a layer of real inputs returns real entries.
-/
import Idealize.ShloMosaic.PureOps.Ideal
import Idealize.ShloMosaic.PureOps.Ideal.Laws
import proofs.«414384_j72937134621131_1_alg».proof.Proof.LibRealVariance

noncomputable section

namespace Cert.Gnn

open Idealize.ShloMosaic Cert.Alg
open scoped BigOperators

/-- A matrix and a row of extended reals, by explicit coordinates. -/
abbrev Mat (a b : ℕ) : Type := Fin a → Fin b → EReal
abbrev Row (b : ℕ) : Type := Fin b → EReal

/-- Every entry is a real number. -/
def MatReal {a b : ℕ} (x : Mat a b) : Prop := ∀ i j, IsReal (x i j)
def RowReal {b : ℕ} (x : Row b) : Prop := ∀ j, IsReal (x j)

/-- The number of nodes. -/
def cnt : EReal := ((50000 : ℝ) : EReal)
/-- The literal 1e-5 added to the variance. -/
def eps : EReal := Ideal.ofBits .f32 0x3727C5AC#32

/-- x·W + b at an entry: the sum over the 128 contracted features, then the bias. -/
def lin {n : ℕ} (x : Mat n 128) (W : Mat 128 128) (b : Row 128) : Mat n 128 :=
  fun i d => (∑ k : Fin 128, x i k * W k d) + b d
/-- The positive part. -/
def relu {a b : ℕ} (x : Mat a b) : Mat a b := fun i j => max (x i j) 0
/-- relu(x·W₁ + b₁)·W₂ + b₂. -/
def mlp {n : ℕ} (x : Mat n 128) (W1 : Mat 128 128) (b1 : Row 128) (W2 : Mat 128 128) (b2 : Row 128) : Mat n 128 :=
  lin (relu (lin x W1 b1)) W2 b2
/-- h + agg. -/
def plus {a b : ℕ} (h agg : Mat a b) : Mat a b := fun i j => h i j + agg i j

/-- The column sums of z and of z². -/
def colSum (z : Mat 50000 128) : Row 128 := fun d => ∑ i : Fin 50000, z i d
def colSumSq (z : Mat 50000 128) : Row 128 := fun d => ∑ i : Fin 50000, z i d * z i d
/-- The column means. -/
def mean (z : Mat 50000 128) : Row 128 := fun d => Ideal.div (colSum z d) cnt
/-- The variance as E z² − (E z)². -/
def varSq (z : Mat 50000 128) : Row 128 := fun d => Ideal.div (colSumSq z d) cnt - mean z d * mean z d
/-- The variance as E (z − E z)². -/
def varDev (z : Mat 50000 128) : Row 128 :=
  fun d => Ideal.div (∑ i : Fin 50000, (z i d - mean z d) * (z i d - mean z d)) cnt
/-- relu((z − μ)·(v + ε)^(−1/2)·γ + β). -/
def norm (z : Mat 50000 128) (mu v g b : Row 128) : Mat 50000 128 :=
  fun i d => max ((z i d - mu d) * Ideal.rsqrt (v d + eps) * g d + b d) 0

/-- The layer with the variance from the column sums of z and z². -/
def layerSq (h agg : Mat 50000 128) (W1 : Mat 128 128) (b1 : Row 128) (W2 : Mat 128 128) (b2 g b : Row 128) : Mat 50000 128 :=
  norm (mlp (plus h agg) W1 b1 W2 b2) (mean (mlp (plus h agg) W1 b1 W2 b2)) (varSq (mlp (plus h agg) W1 b1 W2 b2)) g b
/-- The layer with the variance from the centred entries. -/
def layerDev (h agg : Mat 50000 128) (W1 : Mat 128 128) (b1 : Row 128) (W2 : Mat 128 128) (b2 g b : Row 128) : Mat 50000 128 :=
  norm (mlp (plus h agg) W1 b1 W2 b2) (mean (mlp (plus h agg) W1 b1 W2 b2)) (varDev (mlp (plus h agg) W1 b1 W2 b2)) g b

theorem cnt_ne : (50000 : ℝ) ≠ 0 := by norm_num
theorem card_cnt : (Fintype.card (Fin 50000) : ℝ) = 50000 := by simp

/-! ### Real entries stay real -/

theorem lin_real {n : ℕ} {x : Mat n 128} {W : Mat 128 128} {b : Row 128} (hx : MatReal x) (hW : MatReal W) (hb : RowReal b) :
    MatReal (lin x W b) := fun i d => (IsReal.sum _ fun k => (hx i k).mul (hW k d)).add (hb d)
theorem relu_real {a b : ℕ} {x : Mat a b} (hx : MatReal x) : MatReal (relu x) := fun i j => (hx i j).max IsReal.zero
theorem mlp_real {n : ℕ} {x : Mat n 128} {W1 W2 : Mat 128 128} {b1 b2 : Row 128} (hx : MatReal x) (hW1 : MatReal W1)
    (hb1 : RowReal b1) (hW2 : MatReal W2) (hb2 : RowReal b2) : MatReal (mlp x W1 b1 W2 b2) :=
  lin_real (relu_real (lin_real hx hW1 hb1)) hW2 hb2
theorem plus_real {a b : ℕ} {h agg : Mat a b} (hh : MatReal h) (ha : MatReal agg) : MatReal (plus h agg) :=
  fun i j => (hh i j).add (ha i j)

/-- THE LAW between the two layers: on a real z the two variances are one. -/
theorem varSq_eq_varDev {z : Mat 50000 128} (hz : MatReal z) : varSq z = varDev z :=
  funext fun d => variance_eq (fun i => z i d) (fun i => hz i d) 50000 card_cnt cnt_ne

theorem layerSq_eq_layerDev {h agg : Mat 50000 128} {W1 W2 : Mat 128 128} {b1 b2 : Row 128} (g b : Row 128)
    (hh : MatReal h) (ha : MatReal agg) (hW1 : MatReal W1) (hb1 : RowReal b1) (hW2 : MatReal W2) (hb2 : RowReal b2) :
    layerSq h agg W1 b1 W2 b2 g b = layerDev h agg W1 b1 W2 b2 g b := by
  unfold layerSq layerDev
  rw [varSq_eq_varDev (mlp_real (plus_real hh ha) hW1 hb1 hW2 hb2)]

/-- The column means of a real z are real, and (Var z + ε)^(−1/2) is real. -/
theorem mean_real {z : Mat 50000 128} (hz : MatReal z) : RowReal (mean z) :=
  fun d => mean_isReal (fun i => z i d) (fun i => hz i d) 50000 cnt_ne

theorem rsqrt_varDev_real {z : Mat 50000 128} (hz : MatReal z) (d : Fin 128) : IsReal (Ideal.rsqrt (varDev z d + eps)) := by
  obtain ⟨v, hv, h⟩ := variance_nonneg (fun i => z i d) (fun i => hz i d) 50000 card_cnt cnt_ne
  obtain ⟨e, he, hE⟩ := ofBits_eps_pos
  have hsum : varDev z d + eps = ((v + e : ℝ) : EReal) := by
    show Ideal.div _ cnt + eps = _
    unfold eps cnt
    rw [hE, EReal.coe_add]
    exact congrArg (· + (e : EReal)) h
  rw [hsum]
  exact IsReal.rsqrt_of_pos (IsReal.coe _) (EReal.coe_pos.mpr (by linarith))

theorem norm_real {z : Mat 50000 128} {mu g b : Row 128} {r : Row 128} (hz : MatReal z) (hmu : RowReal mu)
    (hr : ∀ d, IsReal (Ideal.rsqrt (r d + eps))) (hg : RowReal g) (hb : RowReal b) : MatReal (norm z mu r g b) :=
  fun i d => ((((hz i d).sub (hmu d)).mul (hr d)).mul (hg d)).add (hb d) |>.max IsReal.zero

/-- A layer of real inputs returns real entries. -/
theorem layerDev_real {h agg : Mat 50000 128} {W1 W2 : Mat 128 128} {b1 b2 g b : Row 128}
    (hh : MatReal h) (ha : MatReal agg) (hW1 : MatReal W1) (hb1 : RowReal b1) (hW2 : MatReal W2) (hb2 : RowReal b2)
    (hg : RowReal g) (hb : RowReal b) : MatReal (layerDev h agg W1 b1 W2 b2 g b) :=
  norm_real (mlp_real (plus_real hh ha) hW1 hb1 hW2 hb2) (mean_real (mlp_real (plus_real hh ha) hW1 hb1 hW2 hb2))
    (rsqrt_varDev_real (mlp_real (plus_real hh ha) hW1 hb1 hW2 hb2)) hg hb

end Cert.Gnn

end
-- ==== Proof.LibMatmulMixed.lean ====
/-
  A matrix product with ONE contracted axis, into the zero accumulator, read at an entry of a rank-two result, for
  operands of ANY two float formats and any contraction precision (over the extended reals neither the formats nor the
  precision enter the value).

  At entry (p, n) the product is the sum over the contracted coordinate k of the left operand at L k times the right
  operand at R k, once the operand indices at the contraction position whose one coordinate is k are known to be
  L k and R k.
-/
import Idealize.ShloMosaic.Lib.Pipeline.Value
import Idealize.ShloMosaic.Lib.ValueIdx
import Idealize.ShloMosaic.PureOps.Ideal.Laws

noncomputable section

namespace Cert.LibMatmulMixed

open Idealize.ShloMosaic Idealize.ShloMosaic.ValueIdx
open scoped BigOperators

/-- A product of a `φ₁` operand and a `φ₂` operand with one contracted axis of extent K, into the zero accumulator,
    at entry (p, n): the sum over k of the left operand at L k times the right at R k. -/
theorem matmul_zero_entry {sl sr : Shape} {φ₁ φ₂ : FTy} {M N K : ℕ} (D : DotDims sl sr ⟨2, ![M, N]⟩)
    (prec : Option ContractPrecision) (hr : D.contr.rank = 1) (hs : D.contr.size ⟨0, by omega⟩ = K)
    (l : FVec Ideal sl φ₁) (r : FVec Ideal sr φ₂) (p : Fin M) (n : Fin N) (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D prec l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

end Cert.LibMatmulMixed

end
-- ==== Proof.KPay0.lean ====
/-
  The arithmetic of one row block of the first layer's map, entry by entry over the extended reals.

  A block holds 5000 nodes.  From the blocks h and agg of the node features and the neighbour sums, the two weight
  matrices W₁, W₂ and the two bias rows b₁, b₂, the body forms z = relu((h + agg)·W₁ + b₁)·W₂ + b₂ on the block: each
  product is taken into the zero accumulator, so at an entry it is the sum over the 128 contracted features; a bias is
  one row read at every row of the block; the change of format before a product is the identity on extended reals.
  Beside z the body keeps two running rows: the column sums of z and of z², each the row the block before left plus
  the sum over this block's 5000 rows; at the first block both rows are reset to zero.
-/
import proofs.«414384_j72937134621131_1_alg».proof.Proof.Gen.KernelIdeal.Skeleton
import proofs.«414384_j72937134621131_1_alg».proof.Proof.Spec
import proofs.«414384_j72937134621131_1_alg».proof.Proof.LibMatmulMixed
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay0

open Idealize.ShloMosaic Idealize.ShloMosaic.ValueIdx Cert.KernelIdeal Cert.KernelIdeal.Gen
open scoped BigOperators

/-! ## The matrix product of the body, at an entry -/

/-- The dimension numbers of both products of the body: rows times the contracted features, features times columns. -/
abbrev D0 : DotDims S5000x128 S128x128 S5000x128 := dot_S5000x128_S128x128_S5000x128_1_0_0_1_n_n

theorem D0_rank : D0.contr.rank = 1 := rfl
theorem D0_size : D0.contr.size ⟨0, by decide⟩ = 128 := rfl

/-- The left operand is read at the result's row … -/
theorem lhs_ax0 (p : Fin 5000) (n : Fin 128) (q : D0.contr.Idx) : (D0.lhsIdx (ix2 p n) q (0 : Fin 2)).val = p.val := by
  unfold DotDims.lhsIdx
  rw [dif_neg (show ¬(0 : Fin S5000x128.rank) ∈ D0.lhsBatch by decide), dif_pos (show (0 : Fin S5000x128.rank) ∈ D0.lhsNonContracting by decide)]
  rfl
/-- … and the contracted feature; -/
theorem lhs_ax1 (p : Fin 5000) (n : Fin 128) (q : D0.contr.Idx) : (D0.lhsIdx (ix2 p n) q (1 : Fin 2)).val = (q ⟨0, by decide⟩).val :=
  D0.lhsIdx_val_of_single (cl := (1 : Fin 2)) rfl (ix2 p n) q
/-- the right operand at the contracted feature … -/
theorem rhs_ax0 (p : Fin 5000) (n : Fin 128) (q : D0.contr.Idx) : (D0.rhsIdx (ix2 p n) q (0 : Fin 2)).val = (q ⟨0, by decide⟩).val :=
  D0.rhsIdx_val_of_single (cr := (0 : Fin 2)) rfl (ix2 p n) q
/-- … and the result's column. -/
theorem rhs_ax1 (p : Fin 5000) (n : Fin 128) (q : D0.contr.Idx) : (D0.rhsIdx (ix2 p n) q (1 : Fin 2)).val = n.val := by
  unfold DotDims.rhsIdx
  rw [dif_neg (show ¬(1 : Fin S128x128.rank) ∈ D0.rhsBatch by decide), dif_pos (show (1 : Fin S128x128.rank) ∈ D0.rhsNonContracting by decide)]
  rfl

/-- A product into the zero accumulator at entry (p, n): the sum over the 128 features k of x[p, k] · w[k, n]. -/
theorem matmul_entry {φ₁ φ₂ : FTy} (x : FVec Ideal S5000x128 φ₁) (w : FVec Ideal S128x128 φ₂) (p : Fin 5000) (n : Fin 128) :
    matmul D0 none x w (constant (F := Ideal) S5000x128 .f32 0x00000000#32) (ix2 p n) = ∑ k : Fin 128, x (ix2 p k) * w (ix2 k n) :=
  Cert.LibMatmulMixed.matmul_zero_entry D0 none D0_rank D0_size x w p n (fun k => ix2 p k) (fun k => ix2 k n)
    (fun k q hq => funext fun a => Fin.ext (by
      match a with
      | ⟨0, _⟩ => exact lhs_ax0 p n q
      | ⟨1, _⟩ => exact (lhs_ax1 p n q).trans hq))
    (fun k q hq => funext fun a => Fin.ext (by
      match a with
      | ⟨0, _⟩ => exact (rhs_ax0 p n q).trans hq
      | ⟨1, _⟩ => exact rhs_ax1 p n q))

/-- One linear map of the body at entry (r, d): the product into zero, then the bias row broadcast over the rows. -/
theorem lin_entry {φ₁ φ₂ : FTy} (x : FVec Ideal S5000x128 φ₁) (w : FVec Ideal S128x128 φ₂) (b : FVec Ideal S1x128 .f32)
    (r : Fin 5000) (d : Fin 128) :
    addf (matmul D0 none x w (constant (F := Ideal) S5000x128 .f32 0x00000000#32))
        (broadcastTo S5000x128 b broadcasts_S1x128_S5000x128) (ix2 r d)
      = (∑ k : Fin 128, x (ix2 r k) * w (ix2 k d)) + b (ix2 (0 : Fin 1) d) :=
  (addf_apply _ _ _).trans (congrArg₂ (· + ·) (matmul_entry x w r d) (broadcastTo_1b_ab_apply b _ r d))

/-- The column sum of a block, kept as a one-row block: at (0, d) the sum over the 5000 rows r of x[r, d]. -/
theorem colsum_entry (x : FVec Ideal S5000x128 .f32) (d : Fin 128) :
    shapeCast S1x128 (multiReduction (F := Ideal) .add [0] S128 x 0x00000000#32 reduces_S5000x128_S128 (.inl rfl) rfl)
        shapeCasts_S128_S1x128 (ix2 (0 : Fin 1) d) = ∑ r : Fin 5000, x (ix2 r d) := by
  refine (shapeCast_a_1a_apply _ shapeCasts_S128_S1x128 (0 : Fin 1) d).trans ?_
  refine (Ideal.multiReduction_add_single x _ reduces_S5000x128_S128 (.inl rfl) rfl (ix1 d)).trans ?_
  refine Finset.sum_congr rfl fun k _ => congrArg x ?_
  funext a
  apply Fin.ext
  match a with
  | ⟨0, _⟩ => rfl
  | ⟨1, _⟩ => rfl

/-! ## The payloads at an entry -/

section Payloads
variable (v3 v4 : Vec Ideal S5000x128 .f32) (v8 : Vec Ideal S128x128 .bf16) (v11 : Vec Ideal S1x128 .f32)
  (v18 : Vec Ideal S128x128 .bf16) (v21 : Vec Ideal S1x128 .f32) (v26 : Vec Ideal S1x128 .f32)

/-- The block of z the body stores: relu((h + agg)·W₁ + b₁)·W₂ + b₂ of the loaded blocks, entry by entry. -/
theorem pay4_apply (r : Fin 5000) (d : Fin 128) :
    k0_pay4 (F := Ideal) v3 v4 v8 v11 v18 v21 (ix2 r d)
      = Cert.Gnn.mlp (n := 5000) (fun i k => v3 (ix2 i k) + v4 (ix2 i k)) (fun k j => v8 (ix2 k j)) (fun j => v11 (ix2 (0 : Fin 1) j))
          (fun k j => v18 (ix2 k j)) (fun j => v21 (ix2 (0 : Fin 1) j)) r d := by
  unfold k0_pay4
  simp only [shapeCast_self]
  refine (lin_entry (φ₁ := .bf16) (φ₂ := .bf16) _ v18 v21 r d).trans ?_
  unfold Cert.Gnn.mlp Cert.Gnn.lin Cert.Gnn.relu
  refine congrArg₂ (· + ·) (Finset.sum_congr rfl fun k _ => congrArg (· * v18 (ix2 k d)) ?_) rfl
  refine (truncf_apply (φ := .f32) (ψ := .bf16) _ bitsLt_bf16_f32 _).trans ((maximumf_apply (φ := .f32) _ _ _).trans ?_)
  refine congrArg₂ max ((lin_entry (φ₁ := .bf16) (φ₂ := .bf16) _ v8 v11 r k).trans ?_) ?_
  · rfl
  · exact Ideal.ofBits_zero_f32

/-- The running column sum of z: what the block before left, plus this block's column sums. -/
theorem pay5_apply (d : Fin 128) :
    k0_pay5 (F := Ideal) v3 v4 v8 v11 v18 v21 v26 (ix2 (0 : Fin 1) d)
      = v26 (ix2 (0 : Fin 1) d) + ∑ r : Fin 5000, k0_pay4 (F := Ideal) v3 v4 v8 v11 v18 v21 (ix2 r d) := by
  unfold k0_pay5
  simp only [shapeCast_self]
  exact (addf_apply (φ := .f32) _ _ _).trans (congrArg (v26 (ix2 (0 : Fin 1) d) + ·) (colsum_entry _ d))

/-- The running column sum of z²: what the block before left, plus this block's column sums of squares. -/
theorem pay1_apply (v24 : FVec Ideal S5000x128 .f32) (v32 : Vec Ideal S1x128 .f32) (d : Fin 128) :
    k0_pay1 (F := Ideal) v24 v32 (ix2 (0 : Fin 1) d)
      = v32 (ix2 (0 : Fin 1) d) + ∑ r : Fin 5000, v24 (ix2 r d) * v24 (ix2 r d) := by
  unfold k0_pay1
  simp only [shapeCast_self]
  exact (addf_apply (φ := .f32) _ _ _).trans (congrArg (v32 (ix2 (0 : Fin 1) d) + ·) (colsum_entry _ d))

/-- The two resets store zero at every entry. -/
theorem pay2_apply (j : S1x128.Idx) : k0_pay2 (F := Ideal) j = 0 := Ideal.ofBits_zero_f32
theorem pay3_apply (j : S1x128.Idx) : k0_pay3 (F := Ideal) j = 0 := Ideal.ofBits_zero_f32

end Payloads

end Cert.KernelIdeal.KPay0
end
-- ==== Proof.KZ0.lean ====
/-
  The array z = relu((h + agg)·W₁ + b₁)·W₂ + b₂ after the first region, entry by entry over the extended reals.

  The region walks the 50000 nodes in ten row blocks of 5000.  At every point the body stores, over the whole staging
  block of z, the map of the six blocks it loaded; that block does not read the two running rows of column sums, so it
  is the same function of the loaded blocks at the first point and at the later ones.  Block t of the node features
  and of the neighbour sums is rows 5000·t … 5000·t + 4999 of their arrays, while the weights and biases are loaded
  whole; and a row of the map depends only on that row of h + agg.  So what point t writes back is block t of one
  array, z of the whole operand arrays.  Every point writes its block back and the ten blocks tile the rows (row n lies
  in block n / 5000), so after the region the array holds z.
-/
import proofs.«414384_j72937134621131_1_alg».proof.Proof.Gen.KernelIdeal.Frame
import proofs.«414384_j72937134621131_1_alg».proof.Proof.KPay0
import proofs.«414384_j72937134621131_1_alg».proof.Proof.Spec
import Idealize.ShloMosaic.Lib.Pipeline.Value
import Idealize.ShloMosaic.Lib.ValueIdx
import Idealize.ShloMosaic.Lib.Tactic

noncomputable section

namespace Cert.KernelIdeal.KZ0

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ## What one run of the body leaves in the block of z -/

section Pieces
variable {F : FTy → Type} [FloatOps F]

theorem hz : (![0, 0] : Fin 2 → Nat) = fun _ => 0 := funext fun a => by fin_cases a <;> rfl

/-- At the first point the body leaves, in the staging block of z, the map of the six loaded blocks: one store over the
    whole block, whose operands are the blocks as loaded. -/
theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .bf16) (x3 : Vec F S1x128 .f32) (x4 : Vec F S128x128 .bf16) (x5 : Vec F S1x128 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

/-- At every later point the same: the block of z does not read the two running rows. -/
theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .bf16) (x3 : Vec F S1x128 .f32) (x4 : Vec F S128x128 .bf16) (x5 : Vec F S1x128 .f32) (xo7 : Vec F S1x128 .f32) (xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

end Pieces

/-! ## The six operand arrays and the array of z -/

section Array
variable (V : (c : Dev nD) → (b : Ref sig .tc) → Buf (Elt Ideal) ((c : Thread nD τ).loc b))

/-- The six operand arrays as the region finds them: the node features, the neighbour sums, the two weight matrices
    and the two bias rows. -/
abbrev featArr (c : Dev nD) : Vec Ideal S50000x128 .f32 := V c (Pipeline.arrRef spec0 0)
abbrev aggArr (c : Dev nD) : Vec Ideal S50000x128 .f32 := V c (Pipeline.arrRef spec0 1)
abbrev w1Arr (c : Dev nD) : Vec Ideal S128x128 .bf16 := V c (Pipeline.arrRef spec0 2)
abbrev b1Arr (c : Dev nD) : Vec Ideal S1x128 .f32 := V c (Pipeline.arrRef spec0 3)
abbrev w2Arr (c : Dev nD) : Vec Ideal S128x128 .bf16 := V c (Pipeline.arrRef spec0 4)
abbrev b2Arr (c : Dev nD) : Vec Ideal S1x128 .f32 := V c (Pipeline.arrRef spec0 5)

/-- The same six by explicit coordinates. -/
abbrev feat (c : Dev nD) : Cert.Gnn.Mat 50000 128 := fun i k => featArr V c (ix2 i k)
abbrev agg (c : Dev nD) : Cert.Gnn.Mat 50000 128 := fun i k => aggArr V c (ix2 i k)
abbrev w1 (c : Dev nD) : Cert.Gnn.Mat 128 128 := fun k j => w1Arr V c (ix2 k j)
abbrev b1 (c : Dev nD) : Cert.Gnn.Row 128 := fun j => b1Arr V c (ix2 (0 : Fin 1) j)
abbrev w2 (c : Dev nD) : Cert.Gnn.Mat 128 128 := fun k j => w2Arr V c (ix2 k j)
abbrev b2 (c : Dev nD) : Cert.Gnn.Row 128 := fun j => b2Arr V c (ix2 (0 : Fin 1) j)

/-- z = relu((h + agg)·W₁ + b₁)·W₂ + b₂ over all 50000 nodes, as an array. -/
def zArr (c : Dev nD) : Vec Ideal S50000x128 .f32 :=
  fun i => Cert.Gnn.mlp (Cert.Gnn.plus (feat V c) (agg V c)) (w1 V c) (b1 V c) (w2 V c) (b2 V c)
    ⟨(i 0).val, idx2_lt0 i⟩ ⟨(i 1).val, idx2_lt1 i⟩

theorem zArr_apply (c : Dev nD) (n : Fin 50000) (d : Fin 128) :
    zArr V c (ix2 n d) = Cert.Gnn.mlp (Cert.Gnn.plus (feat V c) (agg V c)) (w1 V c) (b1 V c) (w2 V c) (b2 V c) n d := rfl

end Array

/-! ## A row of the map depends on that row of its argument alone -/

theorem mlp_row {n m : ℕ} (x : Cert.Gnn.Mat n 128) (y : Cert.Gnn.Mat m 128) (W1 : Cert.Gnn.Mat 128 128) (B1 : Cert.Gnn.Row 128)
    (W2 : Cert.Gnn.Mat 128 128) (B2 : Cert.Gnn.Row 128) (i : Fin n) (j : Fin m) (h : ∀ k, x i k = y j k) (d : Fin 128) :
    Cert.Gnn.mlp x W1 B1 W2 B2 i d = Cert.Gnn.mlp y W1 B1 W2 B2 j d := by
  unfold Cert.Gnn.mlp Cert.Gnn.lin Cert.Gnn.relu
  simp only [h]

/-- The block of z at an entry, once each loaded block is known to be its array read at the block's place: row r of
    the block is row n of the arrays, and the weights and biases are read whole. -/
theorem block_entry (x0 x1 : Vec Ideal S5000x128 .f32) (x2 : Vec Ideal S128x128 .bf16) (x3 : Vec Ideal S1x128 .f32)
    (x4 : Vec Ideal S128x128 .bf16) (x5 : Vec Ideal S1x128 .f32)
    (Hm Am : Cert.Gnn.Mat 50000 128) (W1m : Cert.Gnn.Mat 128 128) (B1r : Cert.Gnn.Row 128) (W2m : Cert.Gnn.Mat 128 128)
    (B2r : Cert.Gnn.Row 128) (r : Fin 5000) (d : Fin 128) (n : Fin 50000)
    (e0 : ∀ k, x0 (ix2 r k) = Hm n k) (e1 : ∀ k, x1 (ix2 r k) = Am n k) (e2 : ∀ k j, x2 (ix2 k j) = W1m k j)
    (e3 : ∀ j, x3 (ix2 (0 : Fin 1) j) = B1r j) (e4 : ∀ k j, x4 (ix2 k j) = W2m k j) (e5 : ∀ j, x5 (ix2 (0 : Fin 1) j) = B2r j) :
    k0_pay4 (F := Ideal) x0 x1 x2 x3 x4 x5 (ix2 r d) = Cert.Gnn.mlp (Cert.Gnn.plus Hm Am) W1m B1r W2m B2r n d := by
  refine (KPay0.pay4_apply x0 x1 x2 x3 x4 x5 r d).trans ?_
  have e2' : (fun k j => x2 (ix2 k j)) = W1m := funext fun k => funext fun j => e2 k j
  have e3' : (fun j => x3 (ix2 (0 : Fin 1) j)) = B1r := funext e3
  have e4' : (fun k j => x4 (ix2 k j)) = W2m := funext fun k => funext fun j => e4 k j
  have e5' : (fun j => x5 (ix2 (0 : Fin 1) j)) = B2r := funext e5
  rw [e2', e3', e4', e5']
  exact mlp_row _ _ W1m B1r W2m B2r r n (fun k => by show x0 (ix2 r k) + x1 (ix2 r k) = Hm n k + Am n k; rw [e0, e1]) d

/-! ## The block of z after each point, and the array after the region -/

section Region
variable (V : (c : Dev nD) → (b : Ref sig .tc) → Buf (Elt Ideal) ((c : Thread nD τ).loc b))

/-- The block index of every window at a point: the two row-blocked inputs and the output z sit at block (t, 0), the
    weights and biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- After every point the staging block of z holds the map of the six input blocks at that point. -/
theorem after6_eq (c : Dev nD) (t : Fin cfg0.N) :
    (dat0 V c).after 6 t = k0_pay4 (F := Ideal) (iblk0 V c 0 t) (iblk0 V c 1 t) (iblk0 V c 2 t) (iblk0 V c 3 t) (iblk0 V c 4 t) (iblk0 V c 5 t) := by
  rw [after0_6]
  by_cases h0 : t.val % 10 = 0
  · rw [outsAt0_A V c t h0]
    dsimp only
    exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- Row r of block t of a row-blocked input is row 5000·t + r of its array. -/
theorem feat_block (c : Dev nD) (t : Fin cfg0.N) (r : Fin 5000) (k : Fin 128) (hn : t.val * 5000 + r.val < 50000) :
    (iblk0 V c 0 t : Vec Ideal S5000x128 .f32) (ix2 r k) = featArr V c (ix2 ⟨t.val * 5000 + r.val, hn⟩ k) := by
  obtain ⟨e0, e1, -⟩ := idx_facts t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

theorem agg_block (c : Dev nD) (t : Fin cfg0.N) (r : Fin 5000) (k : Fin 128) (hn : t.val * 5000 + r.val < 50000) :
    (iblk0 V c 1 t : Vec Ideal S5000x128 .f32) (ix2 r k) = aggArr V c (ix2 ⟨t.val * 5000 + r.val, hn⟩ k) := by
  obtain ⟨-, -, e0, e1, -⟩ := idx_facts t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 5000 + 1 * r.val = t.val * 5000 + r.val; rw [e0]; omega
  | ⟨1, _⟩ => show win0_1.index t (1 : Fin 2) * 128 + 1 * k.val = k.val; rw [e1]; omega

/-- A weight or bias block is its whole array. -/
theorem w1_block (c : Dev nD) (t : Fin cfg0.N) (k j : Fin 128) :
    (iblk0 V c 2 t : Vec Ideal S128x128 .bf16) (ix2 k j) = w1Arr V c (ix2 k j) := by
  obtain ⟨-, -, -, -, e0, e1, -⟩ := idx_facts t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

theorem b1_block (c : Dev nD) (t : Fin cfg0.N) (j : Fin 128) :
    (iblk0 V c 3 t : Vec Ideal S1x128 .f32) (ix2 (0 : Fin 1) j) = b1Arr V c (ix2 (0 : Fin 1) j) := by
  obtain ⟨-, -, -, -, -, -, e0, e1, -⟩ := idx_facts t
  unfold iblk0
  rw [View.read_apply]
  show V c (Pipeline.arrRef spec0 3) _ = V c (Pipeline.arrRef spec0 3) _
  refine congrArg _ (funext fun a => Fin.ext ?_)
  match a with
  | ⟨0, _⟩ => show win0_3.index t (0 : Fin 2) * 1 + 1 * 0 = 0; rw [e0]
  | ⟨1, _⟩ => show win0_3.index t (1 : Fin 2) * 128 + 1 * j.val = j.val; rw [e1]; omega

theorem w2_block (c : Dev nD) (t : Fin cfg0.N) (k j : Fin 128) :
    (iblk0 V c 4 t : Vec Ideal S128x128 .bf16) (ix2 k j) = w2Arr V c (ix2 k j) := by
  obtain ⟨-, -, -, -, -, -, -, -, e0, e1, -⟩ := idx_facts t
  unfold iblk0
  rw [View.read_apply]
  show V c (Pipeline.arrRef spec0 4) _ = V c (Pipeline.arrRef spec0 4) _
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

theorem b2_block (c : Dev nD) (t : Fin cfg0.N) (j : Fin 128) :
    (iblk0 V c 5 t : Vec Ideal S1x128 .f32) (ix2 (0 : Fin 1) j) = b2Arr V c (ix2 (0 : Fin 1) j) := by
  obtain ⟨-, -, -, -, -, -, -, -, -, -, e0, e1, -⟩ := idx_facts t
  unfold iblk0
  rw [View.read_apply]
  show V c (Pipeline.arrRef spec0 5) _ = V c (Pipeline.arrRef spec0 5) _
  refine congrArg _ (funext fun a => Fin.ext ?_)
  match a with
  | ⟨0, _⟩ => show win0_5.index t (0 : Fin 2) * 1 + 1 * 0 = 0; rw [e0]
  | ⟨1, _⟩ => show win0_5.index t (1 : Fin 2) * 128 + 1 * j.val = j.val; rw [e1]; omega

/-- So the block of z after point t, at (r, d), is z at row 5000·t + r. -/
theorem zblock_entry (c : Dev nD) (t : Fin cfg0.N) (r : Fin 5000) (d : Fin 128) (hn : t.val * 5000 + r.val < 50000) :
    k0_pay4 (F := Ideal) (iblk0 V c 0 t) (iblk0 V c 1 t) (iblk0 V c 2 t) (iblk0 V c 3 t) (iblk0 V c 4 t) (iblk0 V c 5 t) (ix2 r d) = zArr V c (ix2 ⟨t.val * 5000 + r.val, hn⟩ d) :=
  block_entry (iblk0 V c 0 t) (iblk0 V c 1 t) (iblk0 V c 2 t) (iblk0 V c 3 t) (iblk0 V c 4 t) (iblk0 V c 5 t)
    (feat V c) (agg V c) (w1 V c) (b1 V c) (w2 V c) (b2 V c) r d ⟨t.val * 5000 + r.val, hn⟩
    (fun k => feat_block V c t r k hn) (fun k => agg_block V c t r k hn) (fun k j => w1_block V c t k j)
    (fun j => b1_block V c t j) (fun k j => w2_block V c t k j) (fun j => b2_block V c t j)

/-- What point t writes back is block t of z. -/
theorem flushed_eq (c : Dev nD) (t : Fin cfg0.N) :
    (dat0 V c).flushed 6 t = ((cfg0.win 6).blk t).view.read (Elt Ideal) (zArr V c) := by
  show (cfg0.win 6).cut (grid0.coords t) ((dat0 V c).after 6 t) = _
  rw [after6_eq]
  obtain ⟨-, -, -, -, -, -, -, -, -, -, -, -, e0, e1⟩ := idx_facts t
  have hN : t.val < 10 := lt_of_lt_of_eq t.isLt (show cfg0.N = 10 from N_0)
  funext j
  have hj0 : (j 0).val < 5000 := (j 0).isLt
  have hj1 : (j 1).val < 128 := (j 1).isLt
  have hn : t.val * 5000 + (j 0).val < 50000 := by omega
  rw [View.read_apply]
  have ex : (cfg0.win 6).xinj (grid0.coords t) j = ix2 (⟨(j 0).val, hj0⟩ : Fin 5000) (⟨(j 1).val, hj1⟩ : Fin 128) := by
    funext a
    match a with
    | ⟨0, _⟩ => rfl
    | ⟨1, _⟩ => rfl
  have ey : ((cfg0.win 6).blk t).view.emb j = ix2 (⟨t.val * 5000 + (j 0).val, hn⟩ : Fin 50000) (⟨(j 1).val, hj1⟩ : Fin 128) := by
    funext a
    apply Fin.ext
    match a with
    | ⟨0, _⟩ => show win0_6.index t (0 : Fin 2) * 5000 + 1 * (j 0).val = t.val * 5000 + (j 0).val; rw [e0]; omega
    | ⟨1, _⟩ => show win0_6.index t (1 : Fin 2) * 128 + 1 * (j 1).val = (j 1).val; rw [e1]; omega
  show k0_pay4 (F := Ideal) (iblk0 V c 0 t) (iblk0 V c 1 t) (iblk0 V c 2 t) (iblk0 V c 3 t) (iblk0 V c 4 t) (iblk0 V c 5 t) ((cfg0.win 6).xinj (grid0.coords t) j) = zArr V c (((cfg0.win 6).blk t).view.emb j)
  rw [ex, ey]
  exact zblock_entry V c t ⟨(j 0).val, hj0⟩ ⟨(j 1).val, hj1⟩ hn

/-- An index of the array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v20_0).slice (win0_6.rect t)).set ↔ _
  rw [View.set_slice_whole, Rect.mem_set_unit]
  exact Iff.rfl

/-- THE ARRAY OF z AFTER THE REGION: the ten blocks tile the 50000 rows (row n is in block n / 5000), every point
    writes its block back, so the array ends holding z. -/
theorem z_final (c : Dev nD) : (dat0 V c).arrAt 6 cfg0.N = zArr V c :=
  (dat0 V c).arrAt_eq_of_cover 6 (zArr V c) (fun t _ => flushed_eq V c t) fun i => by
    have hi0 : (i 0).val < 50000 := (i 0).isLt
    have hi1 : (i 1).val < 128 := (i 1).isLt
    have hN : cfg0.N = 10 := N_0
    let t : Fin cfg0.N := ⟨(i 0).val / 5000, by rw [hN]; omega⟩
    obtain ⟨-, -, -, -, -, -, -, -, -, -, -, -, e0, e1⟩ := idx_facts t
    refine ⟨t, flush0_6 t, ?_⟩
    rw [mem_blk]
    intro a
    match a with
    | ⟨0, _⟩ =>
      show win0_6.index t (0 : Fin 2) * 5000 ≤ (i 0).val ∧ (i 0).val < win0_6.index t (0 : Fin 2) * 5000 + 5000
      rw [e0]; show (i 0).val / 5000 * 5000 ≤ (i 0).val ∧ (i 0).val < (i 0).val / 5000 * 5000 + 5000; omega
    | ⟨1, _⟩ =>
      show win0_6.index t (1 : Fin 2) * 128 ≤ (i 1).val ∧ (i 1).val < win0_6.index t (1 : Fin 2) * 128 + 128
      rw [e1]; omega

/-- z after the region, entry by entry. -/
theorem z_array (c : Dev nD) (n : Fin 50000) (d : Fin 128) :
    ((dat0 V c).arrAt 6 cfg0.N : Vec Ideal S50000x128 .f32) (ix2 n d)
      = Cert.Gnn.mlp (Cert.Gnn.plus (feat V c) (agg V c)) (w1 V c) (b1 V c) (w2 V c) (b2 V c) n d := by
  rw [z_final]
  rfl

end Region

end Cert.KernelIdeal.KZ0
end
-- ==== Proof.LibBlockSum.lean ====
/-
  Regrouping a finite sum into consecutive blocks. A sum of `a * b` terms, taken `b` at a time, is the sum of the `a`
  block sums; accumulated block after block from zero — the way a running sum over a row of column blocks is formed —
  the accumulator ends at the whole sum. Stated for any commutative additive monoid (the extended reals are one, so
  nothing about finiteness is asked), over the naturals (`Finset.range`) and over `Fin (a * b)`.
-/
import Mathlib.Algebra.BigOperators.Fin
import Mathlib.Data.Fintype.BigOperators

open scoped BigOperators

namespace Cert.LibBlockSum

variable {M : Type*} [AddCommMonoid M]

/-- Position `q` of block `j`, blocks of `b`, lies below `a * b` when `j < a` and `q < b`. -/
theorem block_lt {a b j q : ℕ} (hj : j < a) (hq : q < b) : b * j + q < a * b :=
  calc b * j + q < b * j + b := Nat.add_lt_add_left hq _
    _ = b * (j + 1) := (Nat.mul_succ b j).symm
    _ ≤ b * a := Nat.mul_le_mul_left b hj
    _ = a * b := Nat.mul_comm b a

/-- One more block: the sum of the first `b * (j + 1)` terms is the sum of the first `b * j` plus block `j`'s sum. -/
theorem sum_range_block_succ (b j : ℕ) (f : ℕ → M) :
    ∑ k ∈ Finset.range (b * (j + 1)), f k
      = ∑ k ∈ Finset.range (b * j), f k + ∑ q ∈ Finset.range b, f (b * j + q) := by
  rw [Nat.mul_succ, Finset.sum_range_add]

/-- A sum of the first `a * b` terms is the sum over the `a` blocks of the block sums. -/
theorem sum_range_mul (a b : ℕ) (f : ℕ → M) :
    ∑ k ∈ Finset.range (a * b), f k = ∑ j ∈ Finset.range a, ∑ q ∈ Finset.range b, f (b * j + q) := by
  induction a with
  | zero => simp
  | succ a ih =>
    rw [Finset.sum_range_succ, ← ih, Nat.mul_comm (a + 1) b, sum_range_block_succ, Nat.mul_comm b a]

/-- The same over `Fin (a * b)`: the double sum over the block and the position inside it. -/
theorem sum_fin_mul (a b : ℕ) (f : Fin (a * b) → M) :
    ∑ k : Fin (a * b), f k
      = ∑ j : Fin a, ∑ q : Fin b, f ⟨b * j.val + q.val, block_lt j.isLt q.isLt⟩ := by
  let g : ℕ → M := fun k => if h : k < a * b then f ⟨k, h⟩ else 0
  have hg : ∀ k : Fin (a * b), f k = g k.val := fun k => by simp only [g, dif_pos k.isLt, Fin.eta]
  calc ∑ k : Fin (a * b), f k = ∑ k : Fin (a * b), g k.val := Finset.sum_congr rfl fun k _ => hg k
    _ = ∑ k ∈ Finset.range (a * b), g k := Fin.sum_univ_eq_sum_range g (a * b)
    _ = ∑ j ∈ Finset.range a, ∑ q ∈ Finset.range b, g (b * j + q) := sum_range_mul a b g
    _ = ∑ j : Fin a, ∑ q ∈ Finset.range b, g (b * j.val + q) :=
        (Fin.sum_univ_eq_sum_range (fun j => ∑ q ∈ Finset.range b, g (b * j + q)) a).symm
    _ = ∑ j : Fin a, ∑ q : Fin b, g (b * j.val + q.val) :=
        Finset.sum_congr rfl fun j _ => (Fin.sum_univ_eq_sum_range (fun q => g (b * j.val + q)) b).symm
    _ = _ := Finset.sum_congr rfl fun j _ => Finset.sum_congr rfl fun q _ => by simp only [g, dif_pos (block_lt j.isLt q.isLt)]

/-- A sum over `Fin (a * b)` is the left fold over the `a` blocks of the block sums from 0: an accumulator that starts
    at zero and at block `j` takes that block's sum ends, after the `a` blocks, at the whole sum. -/
theorem sum_fin_mul_eq_fold (a b : ℕ) (f : Fin (a * b) → M) (acc : ℕ → M) (h0 : acc 0 = 0)
    (hs : ∀ j (hj : j < a), acc (j + 1) = acc j + ∑ q : Fin b, f ⟨b * j + q.val, block_lt hj q.isLt⟩) :
    ∑ k : Fin (a * b), f k = acc a := by
  let B : ℕ → M := fun j => if hj : j < a then ∑ q : Fin b, f ⟨b * j + q.val, block_lt hj q.isLt⟩ else 0
  have hacc : ∀ n, n ≤ a → acc n = ∑ j ∈ Finset.range n, B j := by
    intro n
    induction n with
    | zero => intro _; rw [h0, Finset.range_zero, Finset.sum_empty]
    | succ n ih =>
      intro hn
      have hlt : n < a := hn
      rw [hs n hlt, ih (Nat.le_of_lt hlt), Finset.sum_range_succ]
      simp only [B, dif_pos hlt]
  rw [hacc a le_rfl, sum_fin_mul, ← Fin.sum_univ_eq_sum_range B a]
  exact Finset.sum_congr rfl fun j _ => by simp only [B, dif_pos j.isLt]

end Cert.LibBlockSum
-- ==== Proof.KStat0.lean ====
/-
  Region 0's two statistics arrays: the column sums of z and of z².

  The region runs ten points, one per block of 5000 rows of the 50000. At each point it forms the block's rows of
  z = relu((h + agg)·W₁ + b₁)·W₂ + b₂ and adds the block's column sums of z and of z·z into two [1,128] running
  sums, which the first point first resets to 0. A row of z depends on that row of h + agg only, and row r of block t
  is row 5000·t + r of the arrays; so after the tenth point the running sums hold 0 plus the ten block sums, which is
  the sum over all 50000 rows regrouped into consecutive blocks. The two running sums are written back once, after the
  last point, and each is its whole array.
-/
import proofs.«414384_j72937134621131_1_alg».proof.Proof.Gen.KernelIdeal.Frame
import proofs.«414384_j72937134621131_1_alg».proof.Proof.KPay0
import proofs.«414384_j72937134621131_1_alg».proof.Proof.Spec
import proofs.«414384_j72937134621131_1_alg».proof.Proof.LibBlockSum
import Idealize.ShloMosaic.Lib.Pipeline.Value
import Idealize.ShloMosaic.Lib.ValueIdx
import Idealize.ShloMosaic.Lib.Tactic

noncomputable section

namespace Cert.KernelIdeal.KStat0

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- The zero offsets of a whole-buffer load or store, as the constant function. -/
theorem hz : (![0, 0] : Fin 2 → Nat) = fun _ => 0 := funext fun a => by fin_cases a <;> rfl

/-! ### What each case of the body leaves in the two running sums -/

section Pieces

variable {F : FTy → Type} [FloatOps F]

/-- After a point that is not the first, the running column sum of z holds what it held before, updated by the
    point's block: the one store that covers it, its loads reading whole buffers. -/
theorem out7_B (c : Dev nD) (i : grid0.Coords) (a1 : Memref sig .tc .vmem S5000x128 .f32) (h1 : a1.IsWhole)
    (a2 : Memref sig .tc .vmem S5000x128 .f32) (h2 : a2.IsWhole) (a3 : Memref sig .tc .vmem S128x128 .bf16) (h3 : a3.IsWhole)
    (a4 : Memref sig .tc .vmem S1x128 .f32) (h4 : a4.IsWhole) (a5 : Memref sig .tc .vmem S128x128 .bf16) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole)
    (hc : ¬cond0_0 i) (x0 x1 : Vec F S5000x128 .f32) (x2 : Vec F S128x128 .bf16) (x3 : Vec F S1x128 .f32)
    (x4 : Vec F S128x128 .bf16) (x5 : Vec F S1x128 .f32) (xo7 xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x128) hz, View.ld_unit_zero (S := S128x128) hz,
    View.ld_unit_zero (S := S1x128) hz]

/-- After a point that is not the first, the running column sum of z² likewise, over the point's block of z. -/
theorem out8_B (c : Dev nD) (i : grid0.Coords) (a1 : Memref sig .tc .vmem S5000x128 .f32) (h1 : a1.IsWhole)
    (a2 : Memref sig .tc .vmem S5000x128 .f32) (h2 : a2.IsWhole) (a3 : Memref sig .tc .vmem S128x128 .bf16) (h3 : a3.IsWhole)
    (a4 : Memref sig .tc .vmem S1x128 .f32) (h4 : a4.IsWhole) (a5 : Memref sig .tc .vmem S128x128 .bf16) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole)
    (hc : ¬cond0_0 i) (x0 x1 : Vec F S5000x128 .f32) (x2 : Vec F S128x128 .bf16) (x3 : Vec F S1x128 .f32)
    (x4 : Vec F S128x128 .bf16) (x5 : Vec F S1x128 .f32) (xo7 xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x128) hz, View.ld_unit_zero (S := S128x128) hz,
    View.ld_unit_zero (S := S1x128) hz]

/-- After the first point the running column sum of z is the reset value updated by the first block: the reset is
    stored, read back, and the update stored over it. -/
theorem out7_A (c : Dev nD) (i : grid0.Coords) (a1 : Memref sig .tc .vmem S5000x128 .f32) (h1 : a1.IsWhole)
    (a2 : Memref sig .tc .vmem S5000x128 .f32) (h2 : a2.IsWhole) (a3 : Memref sig .tc .vmem S128x128 .bf16) (h3 : a3.IsWhole)
    (a4 : Memref sig .tc .vmem S1x128 .f32) (h4 : a4.IsWhole) (a5 : Memref sig .tc .vmem S128x128 .bf16) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole)
    (hc : cond0_0 i) (x0 x1 : Vec F S5000x128 .f32) (x2 : Vec F S128x128 .bf16) (x3 : Vec F S1x128 .f32)
    (x4 : Vec F S128x128 .bf16) (x5 : Vec F S1x128 .f32) :
    out0_A_7 c i a1 h1 a2 h2 a3 h3 a4 h4 a5 h5 a6 h6 a7 h7 a8 h8 a9 h9 hc x0 x1 x2 x3 x4 x5 = k0_pay5 x0 x1 x2 x3 x4 x5 (k0_pay2 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, h8.read_unread, h9.read_unread, View.ld_unit_zero (S := S5000x128) hz, View.ld_unit_zero (S := S128x128) hz,
    View.ld_unit_zero (S := S1x128) hz]

/-- After the first point the running column sum of z² is the reset value updated by the first block of z. -/
theorem out8_A (c : Dev nD) (i : grid0.Coords) (a1 : Memref sig .tc .vmem S5000x128 .f32) (h1 : a1.IsWhole)
    (a2 : Memref sig .tc .vmem S5000x128 .f32) (h2 : a2.IsWhole) (a3 : Memref sig .tc .vmem S128x128 .bf16) (h3 : a3.IsWhole)
    (a4 : Memref sig .tc .vmem S1x128 .f32) (h4 : a4.IsWhole) (a5 : Memref sig .tc .vmem S128x128 .bf16) (h5 : a5.IsWhole)
    (a6 : Memref sig .tc .vmem S1x128 .f32) (h6 : a6.IsWhole) (a7 : Memref sig .tc .vmem S5000x128 .f32) (h7 : a7.IsWhole)
    (a8 : Memref sig .tc .vmem S1x128 .f32) (h8 : a8.IsWhole) (a9 : Memref sig .tc .vmem S1x128 .f32) (h9 : a9.IsWhole)
    (hc : cond0_0 i) (x0 x1 : Vec F S5000x128 .f32) (x2 : Vec F S128x128 .bf16) (x3 : Vec F S1x128 .f32)
    (x4 : Vec F S128x128 .bf16) (x5 : Vec F S1x128 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) (k0_pay3 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, h8.read_unread, h9.read_unread, View.ld_unit_zero (S := S5000x128) hz, View.ld_unit_zero (S := S128x128) hz,
    View.ld_unit_zero (S := S1x128) hz]

end Pieces

/-! ### The input blocks read at an entry -/

section Blocks

variable {F : FTy → Type} [FloatOps F]

variable (V : (c : Dev nD) → (b : Ref sig .tc) → Buf (Elt F) ((c : Thread nD τ).loc b))

/-- The six input arrays of the region as the region finds them: h, agg, W₁, b₁, W₂, b₂. -/
abbrev arrH (c : Dev nD) : Vec F S50000x128 .f32 := V c (Pipeline.arrRef spec0 0)
abbrev arrA (c : Dev nD) : Vec F S50000x128 .f32 := V c (Pipeline.arrRef spec0 1)
abbrev arrW1 (c : Dev nD) : Vec F S128x128 .bf16 := V c (Pipeline.arrRef spec0 2)
abbrev arrB1 (c : Dev nD) : Vec F S1x128 .f32 := V c (Pipeline.arrRef spec0 3)
abbrev arrW2 (c : Dev nD) : Vec F S128x128 .bf16 := V c (Pipeline.arrRef spec0 4)
abbrev arrB2 (c : Dev nD) : Vec F S1x128 .f32 := V c (Pipeline.arrRef spec0 5)

/-- The six input blocks at a point. -/
abbrev blk0 (c : Dev nD) (t : Fin cfg0.N) : Vec F S5000x128 .f32 := iblk0 V c 0 t
abbrev blk1 (c : Dev nD) (t : Fin cfg0.N) : Vec F S5000x128 .f32 := iblk0 V c 1 t
abbrev blk2 (c : Dev nD) (t : Fin cfg0.N) : Vec F S128x128 .bf16 := iblk0 V c 2 t
abbrev blk3 (c : Dev nD) (t : Fin cfg0.N) : Vec F S1x128 .f32 := iblk0 V c 3 t
abbrev blk4 (c : Dev nD) (t : Fin cfg0.N) : Vec F S128x128 .bf16 := iblk0 V c 4 t
abbrev blk5 (c : Dev nD) (t : Fin cfg0.N) : Vec F S1x128 .f32 := iblk0 V c 5 t

/-- Row r of block t is row 5000·t + r of the array. -/
theorem row_lt {t r : ℕ} (ht : t < 10) (hr : r < 5000) : 5000 * t + r < 50000 := by omega

/-- The row-block windows sit at block index (t, 0); the weight and bias windows at (0, 0) at every point. -/
theorem idx0_0 (t : Fin cfg0.N) : win0_0.index t 0 = t.val ∧ win0_0.index t 1 = 0 := by
  rcases fin_N0 t with rfl | rfl | rfl | rfl | rfl | rfl | rfl | rfl | rfl | rfl <;> decide
theorem idx0_1 (t : Fin cfg0.N) : win0_1.index t 0 = t.val ∧ win0_1.index t 1 = 0 := by
  rcases fin_N0 t with rfl | rfl | rfl | rfl | rfl | rfl | rfl | rfl | rfl | rfl <;> decide
theorem idx0_2 (t : Fin cfg0.N) : win0_2.index t 0 = 0 ∧ win0_2.index t 1 = 0 := by
  rcases fin_N0 t with rfl | rfl | rfl | rfl | rfl | rfl | rfl | rfl | rfl | rfl <;> decide
theorem idx0_3 (t : Fin cfg0.N) : win0_3.index t 0 = 0 ∧ win0_3.index t 1 = 0 := by
  rcases fin_N0 t with rfl | rfl | rfl | rfl | rfl | rfl | rfl | rfl | rfl | rfl <;> decide
theorem idx0_4 (t : Fin cfg0.N) : win0_4.index t 0 = 0 ∧ win0_4.index t 1 = 0 := by
  rcases fin_N0 t with rfl | rfl | rfl | rfl | rfl | rfl | rfl | rfl | rfl | rfl <;> decide
theorem idx0_5 (t : Fin cfg0.N) : win0_5.index t 0 = 0 ∧ win0_5.index t 1 = 0 := by
  rcases fin_N0 t with rfl | rfl | rfl | rfl | rfl | rfl | rfl | rfl | rfl | rfl <;> decide

/-- Block t of h read at (r, k) is h at (5000·t + r, k). -/
theorem blkH (c : Dev nD) (t : Fin cfg0.N) (r : Fin 5000) (k : Fin 128) :
    blk0 V c t (ix2 r k) = arrH V c (ix2 ⟨5000 * t.val + r.val, row_lt (lt_of_lt_of_eq t.isLt N_0) r.isLt⟩ k) := by
  have hi := idx0_0 t
  unfold blk0 iblk0
  rw [View.read_apply]
  show V c (Pipeline.arrRef spec0 0) _ = V c (Pipeline.arrRef spec0 0) _
  congr 1
  funext a
  apply Fin.ext
  match a with
  | ⟨0, _⟩ => show win0_0.index t 0 * 5000 + 1 * r.val = 5000 * t.val + r.val; rw [hi.1]; omega
  | ⟨1, _⟩ => show win0_0.index t 1 * 128 + 1 * k.val = k.val; rw [hi.2]; omega

/-- Block t of agg read at (r, k) is agg at (5000·t + r, k). -/
theorem blkA (c : Dev nD) (t : Fin cfg0.N) (r : Fin 5000) (k : Fin 128) :
    blk1 V c t (ix2 r k) = arrA V c (ix2 ⟨5000 * t.val + r.val, row_lt (lt_of_lt_of_eq t.isLt N_0) r.isLt⟩ k) := by
  have hi := idx0_1 t
  unfold blk1 iblk0
  rw [View.read_apply]
  show V c (Pipeline.arrRef spec0 1) _ = V c (Pipeline.arrRef spec0 1) _
  congr 1
  funext a
  apply Fin.ext
  match a with
  | ⟨0, _⟩ => show win0_1.index t 0 * 5000 + 1 * r.val = 5000 * t.val + r.val; rw [hi.1]; omega
  | ⟨1, _⟩ => show win0_1.index t 1 * 128 + 1 * k.val = k.val; rw [hi.2]; omega

/-- The weight and bias blocks are their arrays at every point. -/
theorem blkW1 (c : Dev nD) (t : Fin cfg0.N) (k j : Fin 128) : blk2 V c t (ix2 k j) = arrW1 V c (ix2 k j) := by
  have hi := idx0_2 t
  unfold blk2 iblk0
  rw [View.read_apply]
  show V c (Pipeline.arrRef spec0 2) _ = V c (Pipeline.arrRef spec0 2) _
  congr 1
  funext a
  apply Fin.ext
  match a with
  | ⟨0, _⟩ => show win0_2.index t 0 * 128 + 1 * k.val = k.val; rw [hi.1]; omega
  | ⟨1, _⟩ => show win0_2.index t 1 * 128 + 1 * j.val = j.val; rw [hi.2]; omega
theorem blkB1 (c : Dev nD) (t : Fin cfg0.N) (j : Fin 128) : blk3 V c t (ix2 0 j) = arrB1 V c (ix2 0 j) := by
  have hi := idx0_3 t
  unfold blk3 iblk0
  rw [View.read_apply]
  show V c (Pipeline.arrRef spec0 3) _ = V c (Pipeline.arrRef spec0 3) _
  congr 1
  funext a
  apply Fin.ext
  match a with
  | ⟨0, _⟩ => show win0_3.index t 0 * 1 + 1 * 0 = 0; rw [hi.1]
  | ⟨1, _⟩ => show win0_3.index t 1 * 128 + 1 * j.val = j.val; rw [hi.2]; omega
theorem blkW2 (c : Dev nD) (t : Fin cfg0.N) (k j : Fin 128) : blk4 V c t (ix2 k j) = arrW2 V c (ix2 k j) := by
  have hi := idx0_4 t
  unfold blk4 iblk0
  rw [View.read_apply]
  show V c (Pipeline.arrRef spec0 4) _ = V c (Pipeline.arrRef spec0 4) _
  congr 1
  funext a
  apply Fin.ext
  match a with
  | ⟨0, _⟩ => show win0_4.index t 0 * 128 + 1 * k.val = k.val; rw [hi.1]; omega
  | ⟨1, _⟩ => show win0_4.index t 1 * 128 + 1 * j.val = j.val; rw [hi.2]; omega
theorem blkB2 (c : Dev nD) (t : Fin cfg0.N) (j : Fin 128) : blk5 V c t (ix2 0 j) = arrB2 V c (ix2 0 j) := by
  have hi := idx0_5 t
  unfold blk5 iblk0
  rw [View.read_apply]
  show V c (Pipeline.arrRef spec0 5) _ = V c (Pipeline.arrRef spec0 5) _
  congr 1
  funext a
  apply Fin.ext
  match a with
  | ⟨0, _⟩ => show win0_5.index t 0 * 1 + 1 * 0 = 0; rw [hi.1]
  | ⟨1, _⟩ => show win0_5.index t 1 * 128 + 1 * j.val = j.val; rw [hi.2]; omega

end Blocks

/-! ### The accumulation, over the extended reals -/

section AtIdeal

variable (V : (c : Dev nD) → (b : Ref sig .tc) → Buf (Elt Ideal) ((c : Thread nD τ).loc b))

/-- The region's inputs entry by entry, and z = relu((h + agg)·W₁ + b₁)·W₂ + b₂ over all 50000 rows. -/
abbrev H (c : Dev nD) : Cert.Gnn.Mat 50000 128 := fun i k => arrH V c (ix2 i k)
abbrev A (c : Dev nD) : Cert.Gnn.Mat 50000 128 := fun i k => arrA V c (ix2 i k)
abbrev W1 (c : Dev nD) : Cert.Gnn.Mat 128 128 := fun k j => arrW1 V c (ix2 k j)
abbrev B1 (c : Dev nD) : Cert.Gnn.Row 128 := fun j => arrB1 V c (ix2 (0 : Fin 1) j)
abbrev W2 (c : Dev nD) : Cert.Gnn.Mat 128 128 := fun k j => arrW2 V c (ix2 k j)
abbrev B2 (c : Dev nD) : Cert.Gnn.Row 128 := fun j => arrB2 V c (ix2 (0 : Fin 1) j)
abbrev Z (c : Dev nD) : Cert.Gnn.Mat 50000 128 :=
  Cert.Gnn.mlp (Cert.Gnn.plus (H V c) (A V c)) (W1 V c) (B1 V c) (W2 V c) (B2 V c)

/-- A row of relu(x·W₁ + b₁)·W₂ + b₂ depends on that row of x only. -/
theorem mlp_row {n n' : ℕ} (x : Cert.Gnn.Mat n 128) (x' : Cert.Gnn.Mat n' 128) (w1 : Cert.Gnn.Mat 128 128)
    (b1 : Cert.Gnn.Row 128) (w2 : Cert.Gnn.Mat 128 128) (b2 : Cert.Gnn.Row 128) (i : Fin n) (i' : Fin n')
    (h : ∀ k, x i k = x' i' k) (d : Fin 128) :
    Cert.Gnn.mlp x w1 b1 w2 b2 i d = Cert.Gnn.mlp x' w1 b1 w2 b2 i' d := by
  unfold Cert.Gnn.mlp Cert.Gnn.lin Cert.Gnn.relu
  simp only [h]

/-- Row r of the block of z computed at point t is row 5000·t + r of z. -/
theorem pay4_row (c : Dev nD) (t : Fin cfg0.N) (r : Fin 5000) (d : Fin 128) :
    k0_pay4 (F := Ideal) (blk0 V c t) (blk1 V c t) (blk2 V c t) (blk3 V c t) (blk4 V c t) (blk5 V c t) (ix2 r d)
      = Z V c ⟨5000 * t.val + r.val, row_lt (lt_of_lt_of_eq t.isLt N_0) r.isLt⟩ d := by
  refine (Cert.KernelIdeal.KPay0.pay4_apply (blk0 V c t) (blk1 V c t) (blk2 V c t) (blk3 V c t) (blk4 V c t) (blk5 V c t) r d).trans ?_
  have e2 : (fun k j => blk2 V c t (ix2 k j)) = W1 V c := funext fun k => funext fun j => blkW1 V c t k j
  have e3 : (fun j => blk3 V c t (ix2 (0 : Fin 1) j)) = B1 V c := funext fun j => blkB1 V c t j
  have e4 : (fun k j => blk4 V c t (ix2 k j)) = W2 V c := funext fun k => funext fun j => blkW2 V c t k j
  have e5 : (fun j => blk5 V c t (ix2 (0 : Fin 1) j)) = B2 V c := funext fun j => blkB2 V c t j
  rw [e2, e3, e4, e5]
  refine mlp_row _ _ _ _ _ _ r _ (fun k => ?_) d
  show blk0 V c t (ix2 r k) + blk1 V c t (ix2 r k) = _
  rw [blkH, blkA]
  rfl

/-- FIRST POINT: the column sum of z holds 0 plus the first block's column sum. -/
theorem base7 (c : Dev nD) (t : Fin cfg0.N) (hA : t.val % 10 = 0) (d : Fin 128) :
    (outsAt0 V c t.val t.isLt).2.1 (ix2 (0 : Fin 1) d)
      = 0 + ∑ r : Fin 5000, Z V c ⟨5000 * t.val + r.val, row_lt (lt_of_lt_of_eq t.isLt N_0) r.isLt⟩ d := by
  rw [outsAt0_A V c t hA]
  dsimp only
  refine (congrFun (out7_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr hA) (blk0 V c t) (blk1 V c t) (blk2 V c t) (blk3 V c t) (blk4 V c t) (blk5 V c t)) (ix2 (0 : Fin 1) d)).trans ?_
  refine (Cert.KernelIdeal.KPay0.pay5_apply (blk0 V c t) (blk1 V c t) (blk2 V c t) (blk3 V c t) (blk4 V c t) (blk5 V c t) (k0_pay2 (F := Ideal)) d).trans ?_
  rw [Cert.KernelIdeal.KPay0.pay2_apply]
  exact congrArg (0 + ·) (Finset.sum_congr rfl fun r _ => pay4_row V c t r d)

/-- LATER POINTS: the column sum of z holds what the point before left plus this block's column sum. -/
theorem step7 (c : Dev nD) (t : Fin cfg0.N) (hB : ¬t.val % 10 = 0) (d : Fin 128) :
    (outsAt0 V c t.val t.isLt).2.1 (ix2 (0 : Fin 1) d)
      = (outsAt0 V c (t.val - 1) (Nat.lt_of_le_of_lt (Nat.sub_le _ _) t.isLt)).2.1 (ix2 (0 : Fin 1) d)
        + ∑ r : Fin 5000, Z V c ⟨5000 * t.val + r.val, row_lt (lt_of_lt_of_eq t.isLt N_0) r.isLt⟩ d := by
  rw [outsAt0_B V c t hB]
  dsimp only
  refine (congrFun (out7_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => hB ((hcond0_0 t).mp h)) (blk0 V c t) (blk1 V c t) (blk2 V c t) (blk3 V c t) (blk4 V c t) (blk5 V c t)
    (outsAt0 V c (t.val - 1) (Nat.lt_of_le_of_lt (Nat.sub_le _ _) t.isLt)).2.1
    (outsAt0 V c (t.val - 1) (Nat.lt_of_le_of_lt (Nat.sub_le _ _) t.isLt)).2.2) (ix2 (0 : Fin 1) d)).trans ?_
  refine (Cert.KernelIdeal.KPay0.pay5_apply (blk0 V c t) (blk1 V c t) (blk2 V c t) (blk3 V c t) (blk4 V c t) (blk5 V c t) (outsAt0 V c (t.val - 1) (Nat.lt_of_le_of_lt (Nat.sub_le _ _) t.isLt)).2.1 d).trans ?_
  exact congrArg (_ + ·) (Finset.sum_congr rfl fun r _ => pay4_row V c t r d)

/-- FIRST POINT: the column sum of z² holds 0 plus the first block's column sum of squares. -/
theorem base8 (c : Dev nD) (t : Fin cfg0.N) (hA : t.val % 10 = 0) (d : Fin 128) :
    (outsAt0 V c t.val t.isLt).2.2 (ix2 (0 : Fin 1) d)
      = 0 + ∑ r : Fin 5000, Z V c ⟨5000 * t.val + r.val, row_lt (lt_of_lt_of_eq t.isLt N_0) r.isLt⟩ d
          * Z V c ⟨5000 * t.val + r.val, row_lt (lt_of_lt_of_eq t.isLt N_0) r.isLt⟩ d := by
  rw [outsAt0_A V c t hA]
  dsimp only
  refine (congrFun (out8_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr hA) (blk0 V c t) (blk1 V c t) (blk2 V c t) (blk3 V c t) (blk4 V c t) (blk5 V c t)) (ix2 (0 : Fin 1) d)).trans ?_
  refine (Cert.KernelIdeal.KPay0.pay1_apply (k0_pay4 (F := Ideal) (blk0 V c t) (blk1 V c t) (blk2 V c t) (blk3 V c t) (blk4 V c t) (blk5 V c t)) (k0_pay3 (F := Ideal)) d).trans ?_
  rw [Cert.KernelIdeal.KPay0.pay3_apply]
  exact congrArg (0 + ·) (Finset.sum_congr rfl fun r _ => by rw [pay4_row V c t r d])

/-- LATER POINTS: the column sum of z² holds what the point before left plus this block's column sum of squares. -/
theorem step8 (c : Dev nD) (t : Fin cfg0.N) (hB : ¬t.val % 10 = 0) (d : Fin 128) :
    (outsAt0 V c t.val t.isLt).2.2 (ix2 (0 : Fin 1) d)
      = (outsAt0 V c (t.val - 1) (Nat.lt_of_le_of_lt (Nat.sub_le _ _) t.isLt)).2.2 (ix2 (0 : Fin 1) d)
        + ∑ r : Fin 5000, Z V c ⟨5000 * t.val + r.val, row_lt (lt_of_lt_of_eq t.isLt N_0) r.isLt⟩ d
            * Z V c ⟨5000 * t.val + r.val, row_lt (lt_of_lt_of_eq t.isLt N_0) r.isLt⟩ d := by
  rw [outsAt0_B V c t hB]
  dsimp only
  refine (congrFun (out8_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => hB ((hcond0_0 t).mp h)) (blk0 V c t) (blk1 V c t) (blk2 V c t) (blk3 V c t) (blk4 V c t) (blk5 V c t)
    (outsAt0 V c (t.val - 1) (Nat.lt_of_le_of_lt (Nat.sub_le _ _) t.isLt)).2.1
    (outsAt0 V c (t.val - 1) (Nat.lt_of_le_of_lt (Nat.sub_le _ _) t.isLt)).2.2) (ix2 (0 : Fin 1) d)).trans ?_
  refine (Cert.KernelIdeal.KPay0.pay1_apply (k0_pay4 (F := Ideal) (blk0 V c t) (blk1 V c t) (blk2 V c t) (blk3 V c t) (blk4 V c t) (blk5 V c t)) (outsAt0 V c (t.val - 1) (Nat.lt_of_le_of_lt (Nat.sub_le _ _) t.isLt)).2.2 d).trans ?_
  exact congrArg (_ + ·) (Finset.sum_congr rfl fun r _ => by rw [pay4_row V c t r d])

/-- An accumulator that holds 0 plus block 0's sum after the first point and takes one block's sum at each later
    point holds, after the tenth, the sum over all 50000 rows: the sum regrouped into ten blocks of 5000. -/
theorem colsum_fold (f : Fin 50000 → EReal) (out : ℕ → EReal)
    (h0 : out 0 = 0 + ∑ r : Fin 5000, f ⟨5000 * 0 + r.val, row_lt (by decide) r.isLt⟩)
    (hs : ∀ n (hn : n + 1 < 10), out (n + 1) = out n + ∑ r : Fin 5000, f ⟨5000 * (n + 1) + r.val, row_lt hn r.isLt⟩) :
    out 9 = ∑ i : Fin 50000, f i := by
  let acc : ℕ → EReal := fun t => match t with | 0 => 0 | t + 1 => out t
  refine (Cert.LibBlockSum.sum_fin_mul_eq_fold 10 5000 (fun k : Fin (10 * 5000) => f k) acc rfl fun j hj => ?_).symm
  cases j with
  | zero => exact h0
  | succ j => exact hs j hj

end AtIdeal

/-! ### The two statistics arrays after the region -/

section Arrays

variable {F : FTy → Type} [FloatOps F]
variable (V : (c : Dev nD) → (b : Ref sig .tc) → Buf (Elt F) ((c : Thread nD τ).loc b))

theorem nine_lt : 9 < cfg0.N := by rw [show cfg0.N = 10 from N_0]; decide

/-- What the two statistics blocks hold after the last point, as contents of their arrays (each block is its array). -/
abbrev result7 (c : Dev nD) : Buf (Elt F) ((c : Thread nD τ).loc main_v20_1) := (outsAt0 V c 9 nine_lt).2.1
abbrev result8 (c : Dev nD) : Buf (Elt F) ((c : Thread nD τ).loc main_v20_2) := (outsAt0 V c 9 nine_lt).2.2

/-- The one write-back of the column sum of z, at the last point, writes what the last point left: block (0, 0) of
    a [1,128] array read through zero offsets is the array. -/
theorem flushed_eq7 (c : Dev nD) (t : Fin cfg0.N) (hf : (cfg0.win 7).flush t = true) :
    (dat0 V c).flushed 7 t = ((cfg0.win 7).blk t).view.read (Elt F) (result7 V c) := by
  have hN : cfg0.N = 10 := N_0
  have h9 : t.val = 9 := by have := (flush0_7 t).mp hf; have := t.isLt; omega
  obtain rfl : t = t0_9 := Fin.ext h9
  show (cfg0.win 7).cut (grid0.coords t0_9) ((dat0 V c).after 7 t0_9) = _
  rw [after0_7]
  have hz' : (fun a => win0_7.index t0_9 a * main_v20_1.ty.shape.size a) = fun _ => 0 := funext fun a => by fin_cases a <;> decide
  exact (Memref.read_access_unit_zero (Elt F) main_v20_1 hz' (fun a => by rw [congrFun hz' a]; simp) (result7 V c)).symm

/-- The same for the column sum of z². -/
theorem flushed_eq8 (c : Dev nD) (t : Fin cfg0.N) (hf : (cfg0.win 8).flush t = true) :
    (dat0 V c).flushed 8 t = ((cfg0.win 8).blk t).view.read (Elt F) (result8 V c) := by
  have hN : cfg0.N = 10 := N_0
  have h9 : t.val = 9 := by have := (flush0_8 t).mp hf; have := t.isLt; omega
  obtain rfl : t = t0_9 := Fin.ext h9
  show (cfg0.win 8).cut (grid0.coords t0_9) ((dat0 V c).after 8 t0_9) = _
  rw [after0_8]
  have hz' : (fun a => win0_8.index t0_9 a * main_v20_2.ty.shape.size a) = fun _ => 0 := funext fun a => by fin_cases a <;> decide
  exact (Memref.read_access_unit_zero (Elt F) main_v20_2 hz' (fun a => by rw [congrFun hz' a]; simp) (result8 V c)).symm

/-- So the array of column sums of z ends holding what the last point left: the last point's block covers it. -/
theorem final7 (c : Dev nD) : (dat0 V c).arrAt 7 cfg0.N = result7 V c :=
  (dat0 V c).arrAt_eq_of_cover 7 (result7 V c) (flushed_eq7 V c) fun i =>
    ⟨t0_9, (flush0_7 t0_9).mpr rfl, by
      show i ∈ ((View.whole main_v20_1).slice (win0_7.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_7.index t0_9 0 * win0_7.size 0 ≤ (i 0 : Nat) ∧ (i 0 : Nat) < win0_7.index t0_9 0 * win0_7.size 0 + win0_7.xsize (grid0.coords t0_9) 0
                  rw [show win0_7.index t0_9 0 * win0_7.size 0 = 0 from by decide +kernel, show win0_7.xsize (grid0.coords t0_9) 0 = 1 from by decide +kernel]; omega
      | ⟨1, _⟩ => show win0_7.index t0_9 1 * win0_7.size 1 ≤ (i 1 : Nat) ∧ (i 1 : Nat) < win0_7.index t0_9 1 * win0_7.size 1 + win0_7.xsize (grid0.coords t0_9) 1
                  rw [show win0_7.index t0_9 1 * win0_7.size 1 = 0 from by decide +kernel, show win0_7.xsize (grid0.coords t0_9) 1 = 128 from by decide +kernel]; omega⟩

/-- And the array of column sums of z² likewise. -/
theorem final8 (c : Dev nD) : (dat0 V c).arrAt 8 cfg0.N = result8 V c :=
  (dat0 V c).arrAt_eq_of_cover 8 (result8 V c) (flushed_eq8 V c) fun i =>
    ⟨t0_9, (flush0_8 t0_9).mpr rfl, by
      show i ∈ ((View.whole main_v20_2).slice (win0_8.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_8.index t0_9 0 * win0_8.size 0 ≤ (i 0 : Nat) ∧ (i 0 : Nat) < win0_8.index t0_9 0 * win0_8.size 0 + win0_8.xsize (grid0.coords t0_9) 0
                  rw [show win0_8.index t0_9 0 * win0_8.size 0 = 0 from by decide +kernel, show win0_8.xsize (grid0.coords t0_9) 0 = 1 from by decide +kernel]; omega
      | ⟨1, _⟩ => show win0_8.index t0_9 1 * win0_8.size 1 ≤ (i 1 : Nat) ∧ (i 1 : Nat) < win0_8.index t0_9 1 * win0_8.size 1 + win0_8.xsize (grid0.coords t0_9) 1
                  rw [show win0_8.index t0_9 1 * win0_8.size 1 = 0 from by decide +kernel, show win0_8.xsize (grid0.coords t0_9) 1 = 128 from by decide +kernel]; omega⟩

end Arrays

section Interface

variable (V : (c : Dev nD) → (b : Ref sig .tc) → Buf (Elt Ideal) ((c : Thread nD τ).loc b))

/-- What the column-sum block of z holds after point n, as a function of every natural (0 past the grid). -/
def run7 (c : Dev nD) (d : Fin 128) (n : ℕ) : EReal :=
  if h : n < cfg0.N then (outsAt0 V c n h).2.1 (ix2 (0 : Fin 1) d) else 0
/-- What the column-sum block of z² holds after point n. -/
def run8 (c : Dev nD) (d : Fin 128) (n : ℕ) : EReal :=
  if h : n < cfg0.N then (outsAt0 V c n h).2.2 (ix2 (0 : Fin 1) d) else 0

/-- THE COLUMN SUMS OF z. After the region the second output array holds, in column d, the sum of z over all 50000
    rows: reset at the first point, one block of 5000 rows added at each of the ten points. -/
theorem sum_array (c : Dev nD) (d : Fin 128) :
    ((dat0 V c).arrAt 7 cfg0.N : Vec Ideal S1x128 .f32) (ix2 (0 : Fin 1) d) = Cert.Gnn.colSum (Z V c) d := by
  have hN : cfg0.N = 10 := N_0
  rw [final7 V c]
  have h9 : run7 V c d 9 = (result7 V c : Vec Ideal S1x128 .f32) (ix2 (0 : Fin 1) d) := by
    unfold run7; rw [dif_pos nine_lt]
  refine h9.symm.trans ?_
  refine colsum_fold (fun i => Z V c i d) (run7 V c d) ?_ fun n hn => ?_
  · unfold run7
    rw [dif_pos (show 0 < cfg0.N by omega)]
    exact base7 V c ⟨0, by omega⟩ rfl d
  · unfold run7
    rw [dif_pos (show n + 1 < cfg0.N by omega), dif_pos (show n < cfg0.N by omega)]
    exact step7 V c ⟨n + 1, by omega⟩ (by dsimp only; omega) d

/-- THE COLUMN SUMS OF z². After the region the third output array holds, in column d, the sum of z² over all 50000
    rows. -/
theorem sumsq_array (c : Dev nD) (d : Fin 128) :
    ((dat0 V c).arrAt 8 cfg0.N : Vec Ideal S1x128 .f32) (ix2 (0 : Fin 1) d) = Cert.Gnn.colSumSq (Z V c) d := by
  have hN : cfg0.N = 10 := N_0
  rw [final8 V c]
  have h9 : run8 V c d 9 = (result8 V c : Vec Ideal S1x128 .f32) (ix2 (0 : Fin 1) d) := by
    unfold run8; rw [dif_pos nine_lt]
  refine h9.symm.trans ?_
  refine colsum_fold (fun i => Z V c i d * Z V c i d) (run8 V c d) ?_ fun n hn => ?_
  · unfold run8
    rw [dif_pos (show 0 < cfg0.N by omega)]
    exact base8 V c ⟨0, by omega⟩ rfl d
  · unfold run8
    rw [dif_pos (show n + 1 < cfg0.N by omega), dif_pos (show n < cfg0.N by omega)]
    exact step8 V c ⟨n + 1, by omega⟩ (by dsimp only; omega) d

end Interface

end Cert.KernelIdeal.KStat0

end
-- ==== Proof.KHostB0.lean ====
/-
  The batch statistics between the first and the second kernel region, read at an entry.

  From the column sums s₁ (of z) and s₂ (of z·z), each a [1,128] array, the host forms the mean
  μ = s₁ / 50000 and the variance v = s₂ / 50000 − μ·μ, and takes the layer's row of the stacked scale γ and
  shift β, each again as a [1,128] array.  Here every one of the four is read at its entry (0, d): a reshape
  between [1,128] and [128] moves no entry, the scalar 50000 is the same at every entry, and the slice of a
  stacked [4,128] array at a row offset reads that row.  The array z itself is written by none of these
  operations.  With s₁ and s₂ the column sums of a matrix Z, μ and v are the mean and the variance
  E z² − (E z)² of the specification.
-/
import proofs.«414384_j72937134621131_1_alg».proof.Proof.Gen.KernelIdeal.Launch
import proofs.«414384_j72937134621131_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

noncomputable section

namespace Cert.KernelIdeal.KHostB0

open Cert.KernelIdeal Cert.KernelIdeal.Gen
open Idealize.ShloMosaic Idealize.ShloMosaic.TcCoe Idealize.ShloMosaic.ValueIdx

/-! ### The four operands as functions of the arrays they are made from -/

/-- The word 0x47435000 is the number of nodes: (2²³ + 4411392)·2⁻⁸ = 50000. -/
theorem cnt_word : Ideal.ofBits .f32 0x47435000#32 = Cert.Gnn.cnt := by
  unfold Cert.Gnn.cnt
  simp [Ideal.ofBits, Ideal.ieee, -EReal.coe_mul]; norm_num

/-- A [1,128] array of column sums divided entry by entry by 50000, as a [128] array. -/
def quot (s : FVec Ideal S1x128 .f32) : FVec Ideal S128 .f32 :=
  Host.divf (F := Ideal) (shapeCast S128 s shapeCasts_S1x128_S128)
    (broadcastInDim S128 ![] bcast_S_S128 (constant (F := Ideal) S_ .f32 0x47435000#32))

/-- The mean s₁ / 50000 as a [1,128] array. -/
def meanRow (s1 : FVec Ideal S1x128 .f32) : FVec Ideal S1x128 .f32 :=
  shapeCast S1x128 (quot s1) shapeCasts_S128_S1x128

/-- The variance s₂ / 50000 − μ·μ as a [1,128] array. -/
def varRow (s1 s2 : FVec Ideal S1x128 .f32) : FVec Ideal S1x128 .f32 :=
  shapeCast S1x128 (subf (quot s2) (mulf (quot s1) (quot s1))) shapeCasts_S128_S1x128

/-- The layer's row of a stacked [4,128] array, as a [1,128] array. -/
def layerRow (x : FVec Ideal S4x128 .f32) : FVec Ideal S1x128 .f32 :=
  shapeCast S1x128
    (shapeCast S128 (extractStridedSlice S1x128 ![0, 0] x slices_S4x128_S1x128_0_0) shapeCasts_S1x128_S128) -- layer row
    shapeCasts_S128_S1x128

/-- The quotient at d: the sum's entry (0, d) over 50000. -/
theorem quot_apply (s : FVec Ideal S1x128 .f32) (d : Fin 128) :
    quot s (ix1 d) = Ideal.div (s (ix2 (0 : Fin 1) d)) Cert.Gnn.cnt := by
  unfold quot
  rw [hostDivf_apply, shapeCast_1a_a_apply, broadcastInDim_scalar_apply, constant_apply, cnt_word]

theorem meanRow_apply (s1 : FVec Ideal S1x128 .f32) (d : Fin 128) :
    meanRow s1 (ix2 (0 : Fin 1) d) = Ideal.div (s1 (ix2 (0 : Fin 1) d)) Cert.Gnn.cnt := by
  unfold meanRow
  rw [shapeCast_a_1a_apply, quot_apply]

theorem varRow_apply (s1 s2 : FVec Ideal S1x128 .f32) (d : Fin 128) :
    varRow s1 s2 (ix2 (0 : Fin 1) d)
      = Ideal.div (s2 (ix2 (0 : Fin 1) d)) Cert.Gnn.cnt
        - Ideal.div (s1 (ix2 (0 : Fin 1) d)) Cert.Gnn.cnt * Ideal.div (s1 (ix2 (0 : Fin 1) d)) Cert.Gnn.cnt := by
  unfold varRow
  rw [shapeCast_a_1a_apply, subf_apply, mulf_apply, quot_apply, quot_apply]

/-- The layer's row at d is the stacked array's entry (row, d). -/
theorem layerRow_apply (x : FVec Ideal S4x128 .f32) (d : Fin 128) :
    layerRow x (ix2 (0 : Fin 1) d) = x (ix2 (0 : Fin 4) d) := by
  unfold layerRow
  rw [shapeCast_a_1a_apply, shapeCast_1a_a_apply]
  exact slice2_axis0_apply _ x slices_S4x128_S1x128_0_0 (0 : Fin 1) d (0 : Fin 4) rfl -- layer row

/-! ### The host operations' results, for any contents V the operations start from -/

variable (V : Valuation τ sig (Elt Ideal))

/-- The second region's operand 1 is the mean of the first region's column sums. -/
theorem mean_eq :
    StableHlo.after hostOps1 V (Proc.devRef .tc main_v33) = meanRow (V (Proc.devRef .tc main_v20_1)) := by
  show StableHlo.after hostOps1 V (Proc.devRef .tc main_v33) = _
  after_results; rfl

/-- Its operand 2 is the variance from the two column sums. -/
theorem var_eq :
    StableHlo.after hostOps1 V (Proc.devRef .tc main_v34)
      = varRow (V (Proc.devRef .tc main_v20_1)) (V (Proc.devRef .tc main_v20_2)) := by
  show StableHlo.after hostOps1 V (Proc.devRef .tc main_v34) = _
  after_results; rfl

/-- Its operand 3 is the layer's row of the stacked scale. -/
theorem gamma_eq :
    StableHlo.after hostOps1 V (Proc.devRef .tc main_v35) = layerRow (V (Proc.devRef .tc main_arg7)) := by
  show StableHlo.after hostOps1 V (Proc.devRef .tc main_v35) = _
  after_results; rfl

/-- Its operand 4 is the layer's row of the stacked shift. -/
theorem beta_eq :
    StableHlo.after hostOps1 V (Proc.devRef .tc main_v36) = layerRow (V (Proc.devRef .tc main_arg8)) := by
  show StableHlo.after hostOps1 V (Proc.devRef .tc main_v36) = _
  after_results; rfl

/-! ### The same at an entry -/

theorem mean_entry (d : Fin 128) :
    StableHlo.after hostOps1 V (Proc.devRef .tc main_v33) (ix2 (0 : Fin 1) d)
      = Ideal.div (V (Proc.devRef .tc main_v20_1) (ix2 (0 : Fin 1) d)) Cert.Gnn.cnt := by
  rw [mean_eq]; exact meanRow_apply _ d

theorem var_entry (d : Fin 128) :
    StableHlo.after hostOps1 V (Proc.devRef .tc main_v34) (ix2 (0 : Fin 1) d)
      = Ideal.div (V (Proc.devRef .tc main_v20_2) (ix2 (0 : Fin 1) d)) Cert.Gnn.cnt
        - Ideal.div (V (Proc.devRef .tc main_v20_1) (ix2 (0 : Fin 1) d)) Cert.Gnn.cnt
          * Ideal.div (V (Proc.devRef .tc main_v20_1) (ix2 (0 : Fin 1) d)) Cert.Gnn.cnt := by
  rw [var_eq]; exact varRow_apply _ _ d

theorem gamma_entry (d : Fin 128) :
    StableHlo.after hostOps1 V (Proc.devRef .tc main_v35) (ix2 (0 : Fin 1) d)
      = V (Proc.devRef .tc main_arg7) (ix2 (0 : Fin 4) d) := by
  rw [gamma_eq]; exact layerRow_apply _ d

theorem beta_entry (d : Fin 128) :
    StableHlo.after hostOps1 V (Proc.devRef .tc main_v36) (ix2 (0 : Fin 1) d)
      = V (Proc.devRef .tc main_arg8) (ix2 (0 : Fin 4) d) := by
  rw [beta_eq]; exact layerRow_apply _ d

/-- None of these operations writes the array z. -/
theorem z_kept : StableHlo.after hostOps1 V (Proc.devRef .tc main_v20_0) = V (Proc.devRef .tc main_v20_0) :=
  StableHlo.after_of_forall_not_mem (b := Proc.devRef .tc main_v20_0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-! ### With the column sums of a matrix Z: the specification's mean and variance -/

/-- Where s₁ holds the column sums of Z, operand 1 holds the column means of Z. -/
theorem mean_entry_colSum (Z : Cert.Gnn.Mat 50000 128) (d : Fin 128)
    (h1 : V (Proc.devRef .tc main_v20_1) (ix2 (0 : Fin 1) d) = Cert.Gnn.colSum Z d) :
    StableHlo.after hostOps1 V (Proc.devRef .tc main_v33) (ix2 (0 : Fin 1) d) = Cert.Gnn.mean Z d := by
  rw [mean_entry, h1]; rfl

/-- Where moreover s₂ holds the column sums of Z·Z, operand 2 holds E z² − (E z)². -/
theorem var_entry_colSum (Z : Cert.Gnn.Mat 50000 128) (d : Fin 128)
    (h1 : V (Proc.devRef .tc main_v20_1) (ix2 (0 : Fin 1) d) = Cert.Gnn.colSum Z d)
    (h2 : V (Proc.devRef .tc main_v20_2) (ix2 (0 : Fin 1) d) = Cert.Gnn.colSumSq Z d) :
    StableHlo.after hostOps1 V (Proc.devRef .tc main_v34) (ix2 (0 : Fin 1) d) = Cert.Gnn.varSq Z d := by
  rw [var_entry, h1, h2]; rfl

end Cert.KernelIdeal.KHostB0

end
-- ==== Proof.KBn0.lean ====
/-
  The batch-normalisation region of the first layer, read entry by entry over the extended reals.

  The region walks ten row blocks of 5000 rows. At each it loads the block of z and the four rows μ, v, γ, β (each row
  one block, the same at every point), forms relu((z − μ)·(v + ε)^(−1/2)·γ + β) entry by entry with the rows repeated
  down the block, and stores the whole block of the output. Row r of the block at point t is row 5000·t + r of the
  array, for z and for the output alike, so what point t writes back is block t of ONE array: Cert.Gnn.norm of the
  arrays the region read. The ten blocks cover the 50000 rows (row n lies in the block of point n / 5000), so after
  the region the output array is that array.
-/
import proofs.«414384_j72937134621131_1_alg».proof.Proof.Gen.KernelIdeal.Frame
import proofs.«414384_j72937134621131_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KBn0

open Cert.KernelIdeal Cert.KernelIdeal.Gen Idealize.ShloMosaic Idealize.ShloMosaic.TcCoe Idealize.SL.Sem
open Idealize.ShloMosaic.ValueIdx
open Idealize.ShloMosaic.Pipeline (Dat)

/-- The body's arithmetic at row r, feature d of a block. -/
theorem pay_apply (v : Vec Ideal S1x128 .f32) (z : Vec Ideal S5000x128 .f32) (mu g b : Vec Ideal S1x128 .f32)
    (r : Fin 5000) (d : Fin 128) :
    k1_pay1 (F := Ideal) v z mu g b (ix2 r d) =
      max ((z (ix2 r d) - mu (ix2 (0 : Fin 1) d)) * Ideal.rsqrt (v (ix2 (0 : Fin 1) d) + Cert.Gnn.eps)
        * g (ix2 (0 : Fin 1) d) + b (ix2 (0 : Fin 1) d)) 0 := by
  unfold k1_pay1
  simp only [maximumf_apply, addf_apply, mulf_apply, subf_apply, broadcast_apply, shapeCast_self]
  simp only [broadcastTo_1b_ab_apply]
  show max ((z (ix2 r d) - mu (ix2 0 d)) * Ideal.rsqrt (v (ix2 0 d) + Ideal.ofBits .f32 0x3727C5AC#32) * g (ix2 0 d) + b (ix2 0 d))
      (Ideal.ofBits .f32 0x00000000#32) = _
  rw [Ideal.ofBits_zero_f32]
  rfl

variable (V : (c : Dev nD) → (b : Ref sig .tc) → Buf (Elt Ideal) ((c : Thread nD τ).loc b))

/-- The five arrays the region reads, as it finds them. -/
abbrev zArr (c : Dev nD) : Vec Ideal S50000x128 .f32 := V c (Pipeline.arrRef spec1 0)
abbrev muArr (c : Dev nD) : Vec Ideal S1x128 .f32 := V c (Pipeline.arrRef spec1 1)
abbrev varArr (c : Dev nD) : Vec Ideal S1x128 .f32 := V c (Pipeline.arrRef spec1 2)
abbrev gamArr (c : Dev nD) : Vec Ideal S1x128 .f32 := V c (Pipeline.arrRef spec1 3)
abbrev betArr (c : Dev nD) : Vec Ideal S1x128 .f32 := V c (Pipeline.arrRef spec1 4)

/-- The same by coordinates: z a matrix, the other four rows. -/
abbrev Z (c : Dev nD) : Cert.Gnn.Mat 50000 128 := fun i k => zArr V c (ix2 i k)
abbrev Mu (c : Dev nD) : Cert.Gnn.Row 128 := fun j => muArr V c (ix2 (0 : Fin 1) j)
abbrev Vr (c : Dev nD) : Cert.Gnn.Row 128 := fun j => varArr V c (ix2 (0 : Fin 1) j)
abbrev Gm (c : Dev nD) : Cert.Gnn.Row 128 := fun j => gamArr V c (ix2 (0 : Fin 1) j)
abbrev Bt (c : Dev nD) : Cert.Gnn.Row 128 := fun j => betArr V c (ix2 (0 : Fin 1) j)

/-- The normalised array, index by index. -/
def G (c : Dev nD) : Vec Ideal S50000x128 .f32 :=
  fun i => Cert.Gnn.norm (Z V c) (Mu V c) (Vr V c) (Gm V c) (Bt V c) (i 0) (i 1)

theorem hz : (![0, 0] : Fin 2 → Nat) = fun _ => 0 := funext fun a => by fin_cases a <;> rfl

/-- The blocks the body loads at point t. -/
abbrev zBlk (c : Dev nD) (t : Fin cfg1.N) : Vec Ideal S5000x128 .f32 := iblk1 V c 0 t
abbrev muBlk (c : Dev nD) (t : Fin cfg1.N) : Vec Ideal S1x128 .f32 := iblk1 V c 1 t
abbrev varBlk (c : Dev nD) (t : Fin cfg1.N) : Vec Ideal S1x128 .f32 := iblk1 V c 2 t
abbrev gamBlk (c : Dev nD) (t : Fin cfg1.N) : Vec Ideal S1x128 .f32 := iblk1 V c 3 t
abbrev betBlk (c : Dev nD) (t : Fin cfg1.N) : Vec Ideal S1x128 .f32 := iblk1 V c 4 t

/-- The index maps over the ten points: z and the output move down the rows with the point, the four rows stay. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem point_lt (t : Fin cfg1.N) : t.val < 10 := by
  exact lt_of_lt_of_eq t.isLt N_1

/-- Row r of z's block at point t is row 5000·t + r of z. -/
theorem zBlk_apply (c : Dev nD) (t : Fin cfg1.N) (r : Fin 5000) (d : Fin 128) (n : Fin 50000)
    (hn : n.val = 5000 * t.val + r.val) : zBlk V c t (ix2 r d) = zArr V c (ix2 n d) := by
  show V c (Pipeline.arrRef spec1 0) (((cfg1.win 0).blk t).view.emb (ix2 r d)) = V c (Pipeline.arrRef spec1 0) (ix2 n d)
  refine congrArg _ (funext fun a => Fin.ext ?_)
  obtain ⟨e0, e1, -⟩ := idx_facts t
  match a with
  | ⟨0, _⟩ => show win1_0.index t (0 : Fin 2) * 5000 + 1 * r.val = n.val; rw [e0, hn]; omega
  | ⟨1, _⟩ => show win1_0.index t (1 : Fin 2) * 128 + 1 * d.val = d.val; rw [e1]; omega

/-- A row's block at any point is the row. -/
theorem muBlk_apply (c : Dev nD) (t : Fin cfg1.N) (d : Fin 128) :
    muBlk V c t (ix2 (0 : Fin 1) d) = muArr V c (ix2 (0 : Fin 1) d) := by
  show V c (Pipeline.arrRef spec1 1) (((cfg1.win 1).blk t).view.emb (ix2 (0 : Fin 1) d)) = V c (Pipeline.arrRef spec1 1) (ix2 (0 : Fin 1) d)
  refine congrArg _ (funext fun a => Fin.ext ?_)
  obtain ⟨-, -, -, -, e0, e1, -⟩ := idx_facts t
  match a with
  | ⟨0, _⟩ => show win1_1.index t (0 : Fin 2) * 1 + 1 * 0 = 0; rw [e0]
  | ⟨1, _⟩ => show win1_1.index t (1 : Fin 2) * 128 + 1 * d.val = d.val; rw [e1]; omega

theorem varBlk_apply (c : Dev nD) (t : Fin cfg1.N) (d : Fin 128) :
    varBlk V c t (ix2 (0 : Fin 1) d) = varArr V c (ix2 (0 : Fin 1) d) := by
  show V c (Pipeline.arrRef spec1 2) (((cfg1.win 2).blk t).view.emb (ix2 (0 : Fin 1) d)) = V c (Pipeline.arrRef spec1 2) (ix2 (0 : Fin 1) d)
  refine congrArg _ (funext fun a => Fin.ext ?_)
  obtain ⟨-, -, -, -, -, -, e0, e1, -⟩ := idx_facts t
  match a with
  | ⟨0, _⟩ => show win1_2.index t (0 : Fin 2) * 1 + 1 * 0 = 0; rw [e0]
  | ⟨1, _⟩ => show win1_2.index t (1 : Fin 2) * 128 + 1 * d.val = d.val; rw [e1]; omega

theorem gamBlk_apply (c : Dev nD) (t : Fin cfg1.N) (d : Fin 128) :
    gamBlk V c t (ix2 (0 : Fin 1) d) = gamArr V c (ix2 (0 : Fin 1) d) := by
  show V c (Pipeline.arrRef spec1 3) (((cfg1.win 3).blk t).view.emb (ix2 (0 : Fin 1) d)) = V c (Pipeline.arrRef spec1 3) (ix2 (0 : Fin 1) d)
  refine congrArg _ (funext fun a => Fin.ext ?_)
  obtain ⟨-, -, -, -, -, -, -, -, e0, e1, -⟩ := idx_facts t
  match a with
  | ⟨0, _⟩ => show win1_3.index t (0 : Fin 2) * 1 + 1 * 0 = 0; rw [e0]
  | ⟨1, _⟩ => show win1_3.index t (1 : Fin 2) * 128 + 1 * d.val = d.val; rw [e1]; omega

theorem betBlk_apply (c : Dev nD) (t : Fin cfg1.N) (d : Fin 128) :
    betBlk V c t (ix2 (0 : Fin 1) d) = betArr V c (ix2 (0 : Fin 1) d) := by
  show V c (Pipeline.arrRef spec1 4) (((cfg1.win 4).blk t).view.emb (ix2 (0 : Fin 1) d)) = V c (Pipeline.arrRef spec1 4) (ix2 (0 : Fin 1) d)
  refine congrArg _ (funext fun a => Fin.ext ?_)
  obtain ⟨-, -, -, -, -, -, -, -, -, -, e0, e1⟩ := idx_facts t
  match a with
  | ⟨0, _⟩ => show win1_4.index t (0 : Fin 2) * 1 + 1 * 0 = 0; rw [e0]
  | ⟨1, _⟩ => show win1_4.index t (1 : Fin 2) * 128 + 1 * d.val = d.val; rw [e1]; omega

/-- Row r of the output's block at point t sits at row 5000·t + r of the output. -/
theorem out_emb (t : Fin cfg1.N) (r : Fin 5000) (d : Fin 128) (n : Fin 50000) (hn : n.val = 5000 * t.val + r.val) :
    ((cfg1.win 5).blk t).view.emb (ix2 r d) = ix2 n d := by
  refine funext fun a => Fin.ext ?_
  obtain ⟨-, -, e0, e1, -⟩ := idx_facts t
  match a with
  | ⟨0, _⟩ => show win1_5.index t (0 : Fin 2) * 5000 + 1 * r.val = n.val; rw [e0, hn]; omega
  | ⟨1, _⟩ => show win1_5.index t (1 : Fin 2) * 128 + 1 * d.val = d.val; rw [e1]; omega

/-- What point t writes back is block t of the normalised array. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨r, d, rfl⟩ : ∃ (r : Fin 5000) (d : Fin 128), j = ix2 r d := ⟨j 0, j 1, eq_ix2 j⟩
  have ht := point_lt t
  show k1_pay1 (varBlk V c t) (zBlk V c t) (muBlk V c t) (gamBlk V c t) (betBlk V c t) (ix2 r d)
    = G V c (((cfg1.win 5).blk t).view.emb (ix2 r d))
  rw [out_emb t r d ⟨5000 * t.val + r.val, by have := r.isLt; omega⟩ rfl]
  refine (pay_apply (varBlk V c t) (zBlk V c t) (muBlk V c t) (gamBlk V c t) (betBlk V c t) r d).trans ?_
  rw [zBlk_apply V c t r d ⟨5000 * t.val + r.val, by have := r.isLt; omega⟩ rfl, muBlk_apply V c t d, varBlk_apply V c t d,
    gamBlk_apply V c t d, betBlk_apply V c t d]
  rfl

/-- An index of the output is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v37).slice (win1_5.rect t)).set ↔ _
  rw [View.set_slice_whole, Rect.mem_set_unit]
  exact Iff.rfl

/-- The ten row blocks cover the output: row n is in the block of point n / 5000. So after the region the
    output array is the normalised array. -/
theorem out_final (c : Dev nD) : (dat1 V c).arrAt 5 cfg1.N = G V c :=
  (dat1 V c).arrAt_eq_of_cover 5 (G V c) (fun t _ => flushed_eq V c t) fun i => by
    have hi0 : (i 0).val < 50000 := (i 0).isLt
    have hi1 : (i 1).val < 128 := (i 1).isLt
    have hq : (i 0).val / 5000 < cfg1.N := lt_of_lt_of_eq (by omega : (i 0).val / 5000 < 10) N_1.symm
    refine ⟨⟨(i 0).val / 5000, hq⟩, flush1_5 _, ?_⟩
    rw [mem_blk]
    obtain ⟨-, -, e0, e1, -⟩ := idx_facts ⟨(i 0).val / 5000, hq⟩
    intro a
    match a with
    | ⟨0, _⟩ =>
      show win1_5.index ⟨(i 0).val / 5000, hq⟩ (0 : Fin 2) * 5000 ≤ (i 0).val
        ∧ (i 0).val < win1_5.index ⟨(i 0).val / 5000, hq⟩ (0 : Fin 2) * 5000 + 5000
      rw [e0]
      show (i 0).val / 5000 * 5000 ≤ (i 0).val ∧ (i 0).val < (i 0).val / 5000 * 5000 + 5000
      omega
    | ⟨1, _⟩ =>
      show win1_5.index ⟨(i 0).val / 5000, hq⟩ (1 : Fin 2) * 128 ≤ (i 1).val
        ∧ (i 1).val < win1_5.index ⟨(i 0).val / 5000, hq⟩ (1 : Fin 2) * 128 + 128
      rw [e1]
      omega

/-- The output array after the region, entry by entry: relu((z − μ)·(v + ε)^(−1/2)·γ + β) of the arrays the region read. -/
theorem out_array (c : Dev nD) (n : Fin 50000) (d : Fin 128) :
    ((dat1 V c).arrAt 5 cfg1.N : Vec Ideal S50000x128 .f32) (ix2 n d)
      = Cert.Gnn.norm (Z V c) (Mu V c) (Vr V c) (Gm V c) (Bt V c) n d := by
  rw [out_final]
  rfl

end Cert.KernelIdeal.KBn0

end
-- ==== Proof.Glue.lean ====
/-
  Arrays as matrices, and the step from one layer to the next.

  A rank-two array of extended reals is the matrix of its entries; two arrays with the same entries are one array.  If
  the two programs enter a layer with the same real features and the same real neighbour sums, the layer written with
  the variance E z² − (E z)² and the layer written with E (z − E z)² leave the same real features.
-/
import Idealize.ShloMosaic.Lib.ValueIdx
import proofs.«414384_j72937134621131_1_alg».proof.Proof.Spec

noncomputable section

namespace Cert.Gnn

open Idealize.ShloMosaic Idealize.ShloMosaic.ValueIdx Cert.Alg

/-- The matrix of a rank-two array's entries. -/
def toMat {a b : ℕ} (x : (⟨2, ![a, b]⟩ : Shape).Idx → EReal) : Mat a b := fun i j => x (ix2 i j)

/-- Arrays with the same entries are equal. -/
theorem arr_ext {a b : ℕ} {x y : (⟨2, ![a, b]⟩ : Shape).Idx → EReal} (h : ∀ i j, x (ix2 i j) = y (ix2 i j)) : x = y :=
  funext fun i => by rw [eq_ix2 i]; exact h _ _

theorem arr_ext3 {a b c : ℕ} {x y : (⟨3, ![a, b, c]⟩ : Shape).Idx → EReal} (h : ∀ i j k, x (ix3 i j k) = y (ix3 i j k)) :
    x = y :=
  funext fun i => by rw [eq_ix3 i]; exact h _ _ _

theorem toMat_real {a b : ℕ} {x : (⟨2, ![a, b]⟩ : Shape).Idx → EReal} (h : ∀ i, IsReal (x i)) : MatReal (toMat x) :=
  fun i j => h (ix2 i j)

theorem real_of_toMat {a b : ℕ} {x : (⟨2, ![a, b]⟩ : Shape).Idx → EReal} (h : MatReal (toMat x)) : ∀ i, IsReal (x i) :=
  fun i => by rw [eq_ix2 i]; exact h _ _

/-- THE STEP: the same real features and neighbour sums in, the same real features out. -/
theorem layer_step {hK hR aK aR : Mat 50000 128} {W1 W2 : Mat 128 128} {b1 b2 g b : Row 128} (hh : hK = hR) (ha : aK = aR)
    (hhr : MatReal hR) (har : MatReal aR) (hW1 : MatReal W1) (hb1 : RowReal b1) (hW2 : MatReal W2) (hb2 : RowReal b2)
    (hg : RowReal g) (hb : RowReal b) :
    layerSq hK aK W1 b1 W2 b2 g b = layerDev hR aR W1 b1 W2 b2 g b ∧ MatReal (layerDev hR aR W1 b1 W2 b2 g b) := by
  subst hh; subst ha
  exact ⟨layerSq_eq_layerDev g b hhr har hW1 hb1 hW2 hb2, layerDev_real hhr har hW1 hb1 hW2 hb2 hg hb⟩

end Cert.Gnn

end
-- ==== Proof.KLayer0.lean ====
/-
  The kernel program's first layer as a value.

  From the boundary of @main where the layer starts to the exit of its second kernel: the feature buffer the layer
  leaves holds, entry by entry, the layer function (the variance from the column sums of z and z²) of the features, the
  neighbour sums, and the layer's rows of the stacked parameters as they stood at the start.  The neighbour sums are the
  scatter-add of the gathered feature rows; that the take's filling select is the plain gather uses that every source
  index lies in [0, 50000).  The first kernel's three outputs are z, its column sums and the column sums of z² (the
  accumulation over the ten row blocks); the host turns the sums into the mean and the variance; the second kernel
  normalises z with them.
-/
import proofs.«414384_j72937134621131_1_alg».proof.Proof.Gen.KernelIdeal.Frame
import proofs.«414384_j72937134621131_1_alg».proof.Proof.KHostA0
import proofs.«414384_j72937134621131_1_alg».proof.Proof.KSlices
import proofs.«414384_j72937134621131_1_alg».proof.Proof.KZ0
import proofs.«414384_j72937134621131_1_alg».proof.Proof.KStat0
import proofs.«414384_j72937134621131_1_alg».proof.Proof.KHostB0
import proofs.«414384_j72937134621131_1_alg».proof.Proof.KBn0
import proofs.«414384_j72937134621131_1_alg».proof.Proof.Glue

set_option maxRecDepth 16384

noncomputable section

namespace Cert.KernelIdeal.KLayer0

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-! ### What the layer reads, at the boundary where it starts -/

abbrev feat : FVec Ideal S50000x128 .f32 := W1 m ρ c (Proc.devRef .tc main_arg0)
abbrev src : IVec S600000 32 := W1 m ρ c (Proc.devRef .tc main_v1)
abbrev dst : IVec S600000 32 := W1 m ρ c (Proc.devRef .tc main_v3)
abbrev w1s : FVec Ideal S4x128x128 .bf16 := W1 m ρ c (Proc.devRef .tc main_v4)
abbrev w2s : FVec Ideal S4x128x128 .bf16 := W1 m ρ c (Proc.devRef .tc main_v5)
abbrev b1s : FVec Ideal S4x128 .f32 := W1 m ρ c (Proc.devRef .tc main_arg4)
abbrev b2s : FVec Ideal S4x128 .f32 := W1 m ρ c (Proc.devRef .tc main_arg6)
abbrev gs : FVec Ideal S4x128 .f32 := W1 m ρ c (Proc.devRef .tc main_arg7)
abbrev bs : FVec Ideal S4x128 .f32 := W1 m ρ c (Proc.devRef .tc main_arg8)

/-- The neighbour sums of features h along edges (s, d): the rows of h gathered at the (wrapped) sources and added
    into zeros at the targets. -/
def agg (h : FVec Ideal S50000x128 .f32) (s d : IVec S600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 d)
    (Host.gather gather_S50000x128_S600000x1_S600000x128_1_0_n_n_0_1_1128 h
      (broadcastInDim S600000x1 ![0] bcast_S600000_S600000x1_0
        (select (cmpi CmpIPredicate.slt s (broadcastInDim S600000 ![] bcast_S_S600000 (constantI S_ 32 0#32)))
          (addi s (broadcastInDim S600000 ![] bcast_S_S600000 (constantI S_ 32 50000#32))) s)))

/-- The layer's parameters as matrices and rows. -/
abbrev W1m : Cert.Gnn.Mat 128 128 := fun k j => w1s m ρ c (ix3 (0 : Fin 4) k j)
abbrev W2m : Cert.Gnn.Mat 128 128 := fun k j => w2s m ρ c (ix3 (0 : Fin 4) k j)
abbrev b1m : Cert.Gnn.Row 128 := fun j => b1s m ρ c (ix2 (0 : Fin 4) j)
abbrev b2m : Cert.Gnn.Row 128 := fun j => b2s m ρ c (ix2 (0 : Fin 4) j)
abbrev gm : Cert.Gnn.Row 128 := fun j => gs m ρ c (ix2 (0 : Fin 4) j)
abbrev bm : Cert.Gnn.Row 128 := fun j => bs m ρ c (ix2 (0 : Fin 4) j)
abbrev Hm : Cert.Gnn.Mat 50000 128 := Cert.Gnn.toMat (feat m ρ c)
abbrev Am : Cert.Gnn.Mat 50000 128 := Cert.Gnn.toMat (agg (feat m ρ c) (src m ρ c) (dst m ρ c))
/-- z of the layer. -/
abbrev Zm : Cert.Gnn.Mat 50000 128 := Cert.Gnn.mlp (Cert.Gnn.plus (Hm m ρ c) (Am m ρ c)) (W1m m ρ c) (b1m m ρ c) (W2m m ρ c) (b2m m ρ c)

/-- The features the layer leaves. -/
abbrev out : FVec Ideal S50000x128 .f32 := W6 m ρ c (Proc.devRef .tc main_v37)

/-! ### The first kernel's operands, from the host operations before it -/

/-- A buffer the two stretches before the first kernel do not write is at its contents of the layer's start. -/
theorem pre_kept (r : Ref sig .tc) (h1 : r ∉ KHostA0.written0_1) (h2 : r ∉ KHostA0.written0_2) :
    W3 m ρ c (Proc.devRef .tc r) = W1 m ρ c (Proc.devRef .tc r) :=
  (KHostA0.hostOps0_2_frame (W2 m ρ c) r h2).trans (KHostA0.hostOps0_1_frame (W1 m ρ c) r h1)

theorem in_feat : KZ0.feat (V3 m ρ) c = Hm m ρ c :=
  funext fun i => funext fun k => congrFun (pre_kept m ρ c main_arg0 (by decide) (by decide)) (ix2 i k)

variable (hsrc : ∀ e : S600000.Idx, IntOp.cmpi .sge (src m ρ c e) 0#32 = 1#1 ∧ IntOp.cmpi .slt (src m ρ c e) 50000#32 = 1#1)

include hsrc in
theorem agg_buffer : (W3 m ρ c (Proc.devRef .tc main_v9) : FVec Ideal S50000x128 .f32) = agg (feat m ρ c) (src m ρ c) (dst m ρ c) := by
  have e2 : (W2 m ρ c (Proc.devRef .tc main_v3) : IVec S600000 32) = dst m ρ c :=
    KHostA0.hostOps0_1_frame (W1 m ρ c) main_v3 (by decide)
  have e3 := KHostA0.take_eq (W1 m ρ c) hsrc
  unfold agg
  rw [← e3, ← e2]
  exact KHostA0.agg_eq (W2 m ρ c)

include hsrc in
theorem in_agg : KZ0.agg (V3 m ρ) c = Am m ρ c :=
  funext fun i => funext fun k => congrFun (agg_buffer m ρ c hsrc) (ix2 i k)

theorem in_w1 : KZ0.w1 (V3 m ρ) c = W1m m ρ c :=
  funext fun k => funext fun j => by
    show (StableHlo.after (hostOps0_2 (F := Ideal)) (W2 m ρ c) (Proc.devRef .tc main_v11) : FVec Ideal S128x128 .bf16) (ix2 k j) = _
    rw [KHostA0.w1_eq (W2 m ρ c)]
    refine (KSlices.wblock0_apply _ k j).trans ?_ -- layer row
    exact congrFun (KHostA0.hostOps0_1_frame (W1 m ρ c) main_v4 (by decide)) (ix3 (0 : Fin 4) k j)

theorem in_w2 : KZ0.w2 (V3 m ρ) c = W2m m ρ c :=
  funext fun k => funext fun j => by
    show (StableHlo.after (hostOps0_2 (F := Ideal)) (W2 m ρ c) (Proc.devRef .tc main_v15) : FVec Ideal S128x128 .bf16) (ix2 k j) = _
    rw [KHostA0.w2_eq (W2 m ρ c)]
    refine (KSlices.wblock0_apply _ k j).trans ?_ -- layer row
    exact congrFun (KHostA0.hostOps0_1_frame (W1 m ρ c) main_v5 (by decide)) (ix3 (0 : Fin 4) k j)

theorem in_b1 : KZ0.b1 (V3 m ρ) c = b1m m ρ c :=
  funext fun j => by
    show (StableHlo.after (hostOps0_2 (F := Ideal)) (W2 m ρ c) (Proc.devRef .tc main_v18) : FVec Ideal S1x128 .f32) (ix2 (0 : Fin 1) j) = _
    rw [KHostA0.b1_eq (W2 m ρ c)]
    refine (KSlices.brow0_apply _ j).trans ?_ -- layer row
    exact congrFun (KHostA0.hostOps0_1_frame (W1 m ρ c) main_arg4 (by decide)) (ix2 (0 : Fin 4) j)

theorem in_b2 : KZ0.b2 (V3 m ρ) c = b2m m ρ c :=
  funext fun j => by
    show (StableHlo.after (hostOps0_2 (F := Ideal)) (W2 m ρ c) (Proc.devRef .tc main_v19) : FVec Ideal S1x128 .f32) (ix2 (0 : Fin 1) j) = _
    rw [KHostA0.b2_eq (W2 m ρ c)]
    refine (KSlices.brow0_apply _ j).trans ?_ -- layer row
    exact congrFun (KHostA0.hostOps0_1_frame (W1 m ρ c) main_arg6 (by decide)) (ix2 (0 : Fin 4) j)

/-! ### The first kernel's outputs -/

include hsrc in
/-- z, as the first kernel leaves it. -/
theorem z_buffer (i : Fin 50000) (k : Fin 128) :
    (W4 m ρ c (Proc.devRef .tc main_v20_0) : FVec Ideal S50000x128 .f32) (ix2 i k) = Zm m ρ c i k := by
  show (W4 m ρ c (Proc.devRef .tc (Pipeline.arrRef spec0 6)) : FVec Ideal S50000x128 .f32) (ix2 i k) = _
  rw [W4_arr m ρ c 6]
  refine (KZ0.z_array (V3 m ρ) c i k).trans ?_
  rw [in_feat m ρ c, in_agg m ρ c hsrc, in_w1 m ρ c, in_b1 m ρ c, in_w2 m ρ c, in_b2 m ρ c]

include hsrc in
theorem zstat_eq : KStat0.Z (V3 m ρ) c = Zm m ρ c := by
  show Cert.Gnn.mlp (Cert.Gnn.plus (KZ0.feat (V3 m ρ) c) (KZ0.agg (V3 m ρ) c)) (KZ0.w1 (V3 m ρ) c) (KZ0.b1 (V3 m ρ) c)
    (KZ0.w2 (V3 m ρ) c) (KZ0.b2 (V3 m ρ) c) = _
  rw [in_feat m ρ c, in_agg m ρ c hsrc, in_w1 m ρ c, in_b1 m ρ c, in_w2 m ρ c, in_b2 m ρ c]

include hsrc in
/-- The column sums of z and of z², as the first kernel leaves them. -/
theorem sum_buffer (d : Fin 128) :
    (W4 m ρ c (Proc.devRef .tc main_v20_1) : FVec Ideal S1x128 .f32) (ix2 (0 : Fin 1) d) = Cert.Gnn.colSum (Zm m ρ c) d := by
  show (W4 m ρ c (Proc.devRef .tc (Pipeline.arrRef spec0 7)) : FVec Ideal S1x128 .f32) (ix2 (0 : Fin 1) d) = _
  rw [W4_arr m ρ c 7]
  exact (KStat0.sum_array (V3 m ρ) c d).trans (by rw [zstat_eq m ρ c hsrc])

include hsrc in
theorem sumsq_buffer (d : Fin 128) :
    (W4 m ρ c (Proc.devRef .tc main_v20_2) : FVec Ideal S1x128 .f32) (ix2 (0 : Fin 1) d) = Cert.Gnn.colSumSq (Zm m ρ c) d := by
  show (W4 m ρ c (Proc.devRef .tc (Pipeline.arrRef spec0 8)) : FVec Ideal S1x128 .f32) (ix2 (0 : Fin 1) d) = _
  rw [W4_arr m ρ c 8]
  exact (KStat0.sumsq_array (V3 m ρ) c d).trans (by rw [zstat_eq m ρ c hsrc])

/-! ### The second kernel's operands and its output -/

/-- A parameter row the first kernel and the stretches before it do not touch, at the second stretch's start. -/
theorem mid_kept (r : Ref sig .tc) (h0 : ∀ w, Pipeline.arrRef spec0 w ≠ r) (h1 : r ∉ KHostA0.written0_1) (h2 : r ∉ KHostA0.written0_2) :
    W4 m ρ c (Proc.devRef .tc r) = W1 m ρ c (Proc.devRef .tc r) :=
  (W4_of_ne m ρ c r h0).trans (pre_kept m ρ c r h1 h2)

include hsrc in
theorem in_z : KBn0.Z (V5 m ρ) c = Zm m ρ c :=
  funext fun i => funext fun k => by
    show (StableHlo.after (hostOps1 (F := Ideal)) (W4 m ρ c) (Proc.devRef .tc main_v20_0) : FVec Ideal S50000x128 .f32) (ix2 i k) = _
    rw [KHostB0.z_kept (W4 m ρ c)]
    exact z_buffer m ρ c hsrc i k

include hsrc in
theorem in_mu : KBn0.Mu (V5 m ρ) c = Cert.Gnn.mean (Zm m ρ c) :=
  funext fun j => KHostB0.mean_entry_colSum (W4 m ρ c) (Zm m ρ c) j (sum_buffer m ρ c hsrc j)

include hsrc in
theorem in_var : KBn0.Vr (V5 m ρ) c = Cert.Gnn.varSq (Zm m ρ c) :=
  funext fun j => KHostB0.var_entry_colSum (W4 m ρ c) (Zm m ρ c) j (sum_buffer m ρ c hsrc j) (sumsq_buffer m ρ c hsrc j)

theorem in_g : KBn0.Gm (V5 m ρ) c = gm m ρ c :=
  funext fun j => (KHostB0.gamma_entry (W4 m ρ c) j).trans
    (congrFun (mid_kept m ρ c main_arg7 (by decide) (by decide) (by decide)) (ix2 (0 : Fin 4) j))

theorem in_b : KBn0.Bt (V5 m ρ) c = bm m ρ c :=
  funext fun j => (KHostB0.beta_entry (W4 m ρ c) j).trans
    (congrFun (mid_kept m ρ c main_arg8 (by decide) (by decide) (by decide)) (ix2 (0 : Fin 4) j))

include hsrc in
/-- THE LAYER: the features the second kernel leaves are the layer function of what the layer read at its start. -/
theorem layer (n : Fin 50000) (d : Fin 128) :
    (W6 m ρ c (Proc.devRef .tc main_v37) : FVec Ideal S50000x128 .f32) (ix2 n d)
      = Cert.Gnn.layerSq (Hm m ρ c) (Am m ρ c) (W1m m ρ c) (b1m m ρ c) (W2m m ρ c) (b2m m ρ c) (gm m ρ c) (bm m ρ c) n d := by
  show (W6 m ρ c (Proc.devRef .tc (Pipeline.arrRef spec1 5)) : FVec Ideal S50000x128 .f32) (ix2 n d) = _
  rw [W6_arr m ρ c 5]
  refine (KBn0.out_array (V5 m ρ) c n d).trans ?_
  rw [in_z m ρ c hsrc, in_mu m ρ c hsrc, in_var m ρ c hsrc, in_g m ρ c, in_b m ρ c]
  rfl

end Cert.KernelIdeal.KLayer0

end
-- ==== Proof.RefOps.lean ====
/- The reference program's @main as lists of its host operations, in order: each call of an outlined function
   (the rectifier, the column variance and its guarded division) is replaced by the operations of the function's
   body over that call's own buffers, so the whole program is one straight line; the line is cut where a layer's
   result is complete. 355 operations in all: opsL0 88, opsL1 84, opsL2 84, opsL3 84, opsTail 15. -/
import proofs.«414384_j72937134621131_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Layer 0: the neighbour sum of the input rows, the two affine maps with the rectifier between, the column statistics, the normalisation, the rectifier. (88 operations) -/
abbrev opsL0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg3 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v18 ((extractStridedSlice S1x128 ![0, 0] · slices_S4x128_S1x128_0_0) : (⟨S4x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v21 main_v22 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v22 : StableHlo.TRef sig ⟨S50000x128, .f32⟩) main_call0.v0 main_call0.v1 maximumf,
    StableHlo.unary main_arg5 main_v24 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v24 main_v25 rfl shapeCasts_S1x128x128_S128x128,
    StableHlo.binary main_v23 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v27 ((extractStridedSlice S1x128 ![0, 0] · slices_S4x128_S1x128_0_0) : (⟨S4x128, .f32⟩ : BufTy).Contents (Elt F) → (⟨S1x128, .f32⟩ : BufTy).Contents (Elt F)),
    StableHlo.reshape main_v27 main_v28 rfl shapeCasts_S1x128_S128,
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v30 main_v31 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v31 main_cst_1 main_v32 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v33 (broadcastInDim S128 ![] bcast_S_S128 : (⟨S_, .f32⟩ : BufTy).Contents (Elt F) → (⟨S128, .f32⟩ : BufTy).Contents (Elt F)),
    StableHlo.binary main_v32 main_v33 main_v34 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (.of main_v31 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v31 : StableHlo.TRef sig ⟨S50000x128, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v34 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v37 main_v38 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v39 (broadcastInDim S128 ![] bcast_S_S128 : (⟨S_, .f32⟩ : BufTy).Contents (Elt F) → (⟨S128, .f32⟩ : BufTy).Contents (Elt F)),
    StableHlo.binary main_v35 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_arg7 main_v45 ((extractStridedSlice S1x128 ![0, 0] · slices_S4x128_S1x128_0_0) : (⟨S4x128, .f32⟩ : BufTy).Contents (Elt F) → (⟨S1x128, .f32⟩ : BufTy).Contents (Elt F)),
    StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v48 main_v49 (mulf : (⟨S50000x128, .f32⟩ : BufTy).Contents (Elt F) → (⟨S50000x128, .f32⟩ : BufTy).Contents (Elt F) → (⟨S50000x128, .f32⟩ : BufTy).Contents (Elt F)),
    StableHlo.unary main_arg8 main_v50 ((extractStridedSlice S1x128 ![0, 0] · slices_S4x128_S1x128_0_0) : (⟨S4x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v54 : StableHlo.TRef sig ⟨S50000x128, .f32⟩) main_call2.v0 main_call2.v1 maximumf ]

set_option maxHeartbeats 40000000 in
set_option maxRecDepth 8192 in
/-- Layer 1, the same line over layer 0's result. (84 operations) -/
abbrev opsL1 : List (HloOp τ sig (Elt F)) :=
  [ StableHlo.nullary main_c_5 (constantI S_ 32 0#32),
    StableHlo.unary main_c_5 main_v56 (broadcastInDim S600000 ![] bcast_S_S600000 : (⟨S_, .i32⟩ : BufTy).Contents (Elt F) → (⟨S600000, .i32⟩ : BufTy).Contents (Elt F)),
    StableHlo.binary main_v1 main_v56 main_v57 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v58 (broadcastInDim S600000 ![] bcast_S_S600000 : (⟨S_, .i32⟩ : BufTy).Contents (Elt F) → (⟨S600000, .i32⟩ : BufTy).Contents (Elt F)),
    StableHlo.binary main_v1 main_v58 main_v59 (addi : (⟨S600000, .i32⟩ : BufTy).Contents (Elt F) → (⟨S600000, .i32⟩ : BufTy).Contents (Elt F) → (⟨S600000, .i32⟩ : BufTy).Contents (Elt F)),
    StableHlo.ternary main_v57 main_v59 main_v1 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v60 main_v61 (broadcastInDim S600000x1 ![0] bcast_S600000_S600000x1_0 : (⟨S600000, .i32⟩ : BufTy).Contents (Elt F) → (⟨S600000x1, .i32⟩ : BufTy).Contents (Elt F)),
    StableHlo.binary main_v55 main_v61 main_v62 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v63 (broadcastInDim S50000x128 ![] bcast_S_S50000x128 : (⟨S_, .f32⟩ : BufTy).Contents (Elt F) → (⟨S50000x128, .f32⟩ : BufTy).Contents (Elt F)),
    StableHlo.unary main_v3 main_v64 (broadcastInDim S600000x1 ![0] bcast_S600000_S600000x1_0 : (⟨S600000, .i32⟩ : BufTy).Contents (Elt F) → (⟨S600000x1, .i32⟩ : BufTy).Contents (Elt F)),
    StableHlo.ternary main_v63 main_v64 main_v62 main_v65 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v55 main_v65 main_v66 (addf : (⟨S50000x128, .f32⟩ : BufTy).Contents (Elt F) → (⟨S50000x128, .f32⟩ : BufTy).Contents (Elt F) → (⟨S50000x128, .f32⟩ : BufTy).Contents (Elt F)),
    StableHlo.unary main_arg3 main_v67 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v67 main_v68 rfl shapeCasts_S1x128x128_S128x128,
    StableHlo.binary main_v66 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v70 ((extractStridedSlice S1x128 ![1, 0] · slices_S4x128_S1x128_1_0) : (⟨S4x128, .f32⟩ : BufTy).Contents (Elt F) → (⟨S1x128, .f32⟩ : BufTy).Contents (Elt F)),
    StableHlo.reshape main_v70 main_v71 rfl shapeCasts_S1x128_S128,
    StableHlo.unary main_v71 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v73 main_v74 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v74 : StableHlo.TRef sig ⟨S50000x128, .f32⟩) main_call3.v0 main_call3.v1 maximumf,
    StableHlo.unary main_arg5 main_v76 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v76 main_v77 rfl shapeCasts_S1x128x128_S128x128,
    StableHlo.binary main_v75 main_v77 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v79 ((extractStridedSlice S1x128 ![1, 0] · slices_S4x128_S1x128_1_0) : (⟨S4x128, .f32⟩ : BufTy).Contents (Elt F) → (⟨S1x128, .f32⟩ : BufTy).Contents (Elt F)),
    StableHlo.reshape main_v79 main_v80 rfl shapeCasts_S1x128_S128,
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v82 main_v83 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v83 main_cst_8 main_v84 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call4.cst (constant S_ .f32 0x00000000#32),
    StableHlo.TRef.binary (.of main_v83 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v83 : StableHlo.TRef sig ⟨S50000x128, .f32⟩) main_call4.v4 main_call4.v5 subf,
    StableHlo.TRef.binary main_call4.v5 main_call4.v5 main_call4.v6 mulf,
    StableHlo.TRef.unary (.of main_c_10 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v86 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v89 main_v90 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v91 (broadcastInDim S128 ![] bcast_S_S128 : (⟨S_, .f32⟩ : BufTy).Contents (Elt F) → (⟨S128, .f32⟩ : BufTy).Contents (Elt F)),
    StableHlo.binary main_v87 main_v91 main_v92 (addf : (⟨S128, .f32⟩ : BufTy).Contents (Elt F) → (⟨S128, .f32⟩ : BufTy).Contents (Elt F) → (⟨S128, .f32⟩ : BufTy).Contents (Elt F)),
    StableHlo.unary main_v92 main_v93 (Host.rsqrt : (⟨S128, .f32⟩ : BufTy).Contents (Elt F) → (⟨S128, .f32⟩ : BufTy).Contents (Elt F)),
    StableHlo.unary main_v93 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v90 main_v95 main_v96 (mulf : (⟨S50000x128, .f32⟩ : BufTy).Contents (Elt F) → (⟨S50000x128, .f32⟩ : BufTy).Contents (Elt F) → (⟨S50000x128, .f32⟩ : BufTy).Contents (Elt F)),
    StableHlo.unary main_arg7 main_v97 ((extractStridedSlice S1x128 ![1, 0] · slices_S4x128_S1x128_1_0) : (⟨S4x128, .f32⟩ : BufTy).Contents (Elt F) → (⟨S1x128, .f32⟩ : BufTy).Contents (Elt F)),
    StableHlo.reshape main_v97 main_v98 rfl shapeCasts_S1x128_S128,
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v96 main_v100 main_v101 (mulf : (⟨S50000x128, .f32⟩ : BufTy).Contents (Elt F) → (⟨S50000x128, .f32⟩ : BufTy).Contents (Elt F) → (⟨S50000x128, .f32⟩ : BufTy).Contents (Elt F)),
    StableHlo.unary main_arg8 main_v102 ((extractStridedSlice S1x128 ![1, 0] · slices_S4x128_S1x128_1_0) : (⟨S4x128, .f32⟩ : BufTy).Contents (Elt F) → (⟨S1x128, .f32⟩ : BufTy).Contents (Elt F)),
    StableHlo.reshape main_v102 main_v103 rfl shapeCasts_S1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v105 main_v106 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v106 : StableHlo.TRef sig ⟨S50000x128, .f32⟩) main_call5.v0 main_call5.v1 maximumf ]

set_option maxHeartbeats 40000000 in
set_option maxRecDepth 8192 in
/-- Layer 2, the same line over layer 1's result. (84 operations) -/
abbrev opsL2 : List (HloOp τ sig (Elt F)) :=
  [ StableHlo.nullary main_c_12 (constantI S_ 32 0#32),
    StableHlo.unary main_c_12 main_v108 (broadcastInDim S600000 ![] bcast_S_S600000 : (⟨S_, .i32⟩ : BufTy).Contents (Elt F) → (⟨S600000, .i32⟩ : BufTy).Contents (Elt F)),
    StableHlo.binary main_v1 main_v108 main_v109 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v110 (broadcastInDim S600000 ![] bcast_S_S600000 : (⟨S_, .i32⟩ : BufTy).Contents (Elt F) → (⟨S600000, .i32⟩ : BufTy).Contents (Elt F)),
    StableHlo.binary main_v1 main_v110 main_v111 (addi : (⟨S600000, .i32⟩ : BufTy).Contents (Elt F) → (⟨S600000, .i32⟩ : BufTy).Contents (Elt F) → (⟨S600000, .i32⟩ : BufTy).Contents (Elt F)),
    StableHlo.ternary main_v109 main_v111 main_v1 main_v112 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v112 main_v113 (broadcastInDim S600000x1 ![0] bcast_S600000_S600000x1_0 : (⟨S600000, .i32⟩ : BufTy).Contents (Elt F) → (⟨S600000x1, .i32⟩ : BufTy).Contents (Elt F)),
    StableHlo.binary main_v107 main_v113 main_v114 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_14 (constant S_ .f32 0x00000000#32),
    StableHlo.unary main_cst_14 main_v115 (broadcastInDim S50000x128 ![] bcast_S_S50000x128 : (⟨S_, .f32⟩ : BufTy).Contents (Elt F) → (⟨S50000x128, .f32⟩ : BufTy).Contents (Elt F)),
    StableHlo.unary main_v3 main_v116 (broadcastInDim S600000x1 ![0] bcast_S600000_S600000x1_0 : (⟨S600000, .i32⟩ : BufTy).Contents (Elt F) → (⟨S600000x1, .i32⟩ : BufTy).Contents (Elt F)),
    StableHlo.ternary main_v115 main_v116 main_v114 main_v117 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v107 main_v117 main_v118 (addf : (⟨S50000x128, .f32⟩ : BufTy).Contents (Elt F) → (⟨S50000x128, .f32⟩ : BufTy).Contents (Elt F) → (⟨S50000x128, .f32⟩ : BufTy).Contents (Elt F)),
    StableHlo.unary main_arg3 main_v119 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v119 main_v120 rfl shapeCasts_S1x128x128_S128x128,
    StableHlo.binary main_v118 main_v120 main_v121 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v122 ((extractStridedSlice S1x128 ![2, 0] · slices_S4x128_S1x128_2_0) : (⟨S4x128, .f32⟩ : BufTy).Contents (Elt F) → (⟨S1x128, .f32⟩ : BufTy).Contents (Elt F)),
    StableHlo.reshape main_v122 main_v123 rfl shapeCasts_S1x128_S128,
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v125 main_v126 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v126 : StableHlo.TRef sig ⟨S50000x128, .f32⟩) main_call6.v0 main_call6.v1 maximumf,
    StableHlo.unary main_arg5 main_v128 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v128 main_v129 rfl shapeCasts_S1x128x128_S128x128,
    StableHlo.binary main_v127 main_v129 main_v130 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v131 ((extractStridedSlice S1x128 ![2, 0] · slices_S4x128_S1x128_2_0) : (⟨S4x128, .f32⟩ : BufTy).Contents (Elt F) → (⟨S1x128, .f32⟩ : BufTy).Contents (Elt F)),
    StableHlo.reshape main_v131 main_v132 rfl shapeCasts_S1x128_S128,
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v134 main_v135 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x00000000#32),
    StableHlo.binary main_v135 main_cst_15 main_v136 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v137 (broadcastInDim S128 ![] bcast_S_S128 : (⟨S_, .f32⟩ : BufTy).Contents (Elt F) → (⟨S128, .f32⟩ : BufTy).Contents (Elt F)),
    StableHlo.binary main_v136 main_v137 main_v138 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call7.cst (constant S_ .f32 0x00000000#32),
    StableHlo.TRef.binary (.of main_v135 : StableHlo.TRef sig ⟨S50000x128, .f32⟩) main_call7.cst main_call7.v0 (fun x v => Host.reduceAdd x v reducesTo_S50000x128_S128_d0 h_S_),
    StableHlo.TRef.unary main_call7.v0 main_call7.v1 (broadcastInDim S1x128 ![1] bcast_S128_S1x128_1),
    StableHlo.TRef.nullary main_call7.cst_0 (constant S_ .f32 0x47435000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S50000x128 ![0, 1] bcast_S1x128_S50000x128_0_1),
    StableHlo.TRef.binary (.of main_v135 : StableHlo.TRef sig ⟨S50000x128, .f32⟩) main_call7.v4 main_call7.v5 subf,
    StableHlo.TRef.binary main_call7.v5 main_call7.v5 main_call7.v6 mulf,
    StableHlo.TRef.unary (.of main_c_17 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v138 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v141 main_v142 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v143 (broadcastInDim S128 ![] bcast_S_S128 : (⟨S_, .f32⟩ : BufTy).Contents (Elt F) → (⟨S128, .f32⟩ : BufTy).Contents (Elt F)),
    StableHlo.binary main_v139 main_v143 main_v144 (addf : (⟨S128, .f32⟩ : BufTy).Contents (Elt F) → (⟨S128, .f32⟩ : BufTy).Contents (Elt F) → (⟨S128, .f32⟩ : BufTy).Contents (Elt F)),
    StableHlo.unary main_v144 main_v145 (Host.rsqrt : (⟨S128, .f32⟩ : BufTy).Contents (Elt F) → (⟨S128, .f32⟩ : BufTy).Contents (Elt F)),
    StableHlo.unary main_v145 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v142 main_v147 main_v148 (mulf : (⟨S50000x128, .f32⟩ : BufTy).Contents (Elt F) → (⟨S50000x128, .f32⟩ : BufTy).Contents (Elt F) → (⟨S50000x128, .f32⟩ : BufTy).Contents (Elt F)),
    StableHlo.unary main_arg7 main_v149 ((extractStridedSlice S1x128 ![2, 0] · slices_S4x128_S1x128_2_0) : (⟨S4x128, .f32⟩ : BufTy).Contents (Elt F) → (⟨S1x128, .f32⟩ : BufTy).Contents (Elt F)),
    StableHlo.reshape main_v149 main_v150 rfl shapeCasts_S1x128_S128,
    StableHlo.unary main_v150 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v152 main_v153 (mulf : (⟨S50000x128, .f32⟩ : BufTy).Contents (Elt F) → (⟨S50000x128, .f32⟩ : BufTy).Contents (Elt F) → (⟨S50000x128, .f32⟩ : BufTy).Contents (Elt F)),
    StableHlo.unary main_arg8 main_v154 ((extractStridedSlice S1x128 ![2, 0] · slices_S4x128_S1x128_2_0) : (⟨S4x128, .f32⟩ : BufTy).Contents (Elt F) → (⟨S1x128, .f32⟩ : BufTy).Contents (Elt F)),
    StableHlo.reshape main_v154 main_v155 rfl shapeCasts_S1x128_S128,
    StableHlo.unary main_v155 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v157 main_v158 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v158 : StableHlo.TRef sig ⟨S50000x128, .f32⟩) main_call8.v0 main_call8.v1 maximumf ]

set_option maxHeartbeats 40000000 in
set_option maxRecDepth 8192 in
/-- Layer 3, the same line over layer 2's result. (84 operations) -/
abbrev opsL3 : List (HloOp τ sig (Elt F)) :=
  [ StableHlo.nullary main_c_19 (constantI S_ 32 0#32),
    StableHlo.unary main_c_19 main_v160 (broadcastInDim S600000 ![] bcast_S_S600000 : (⟨S_, .i32⟩ : BufTy).Contents (Elt F) → (⟨S600000, .i32⟩ : BufTy).Contents (Elt F)),
    StableHlo.binary main_v1 main_v160 main_v161 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 50000#32),
    StableHlo.unary main_c_20 main_v162 (broadcastInDim S600000 ![] bcast_S_S600000 : (⟨S_, .i32⟩ : BufTy).Contents (Elt F) → (⟨S600000, .i32⟩ : BufTy).Contents (Elt F)),
    StableHlo.binary main_v1 main_v162 main_v163 (addi : (⟨S600000, .i32⟩ : BufTy).Contents (Elt F) → (⟨S600000, .i32⟩ : BufTy).Contents (Elt F) → (⟨S600000, .i32⟩ : BufTy).Contents (Elt F)),
    StableHlo.ternary main_v161 main_v163 main_v1 main_v164 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v164 main_v165 (broadcastInDim S600000x1 ![0] bcast_S600000_S600000x1_0 : (⟨S600000, .i32⟩ : BufTy).Contents (Elt F) → (⟨S600000x1, .i32⟩ : BufTy).Contents (Elt F)),
    StableHlo.binary main_v159 main_v165 main_v166 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_21 (constant S_ .f32 0x00000000#32),
    StableHlo.unary main_cst_21 main_v167 (broadcastInDim S50000x128 ![] bcast_S_S50000x128 : (⟨S_, .f32⟩ : BufTy).Contents (Elt F) → (⟨S50000x128, .f32⟩ : BufTy).Contents (Elt F)),
    StableHlo.unary main_v3 main_v168 (broadcastInDim S600000x1 ![0] bcast_S600000_S600000x1_0 : (⟨S600000, .i32⟩ : BufTy).Contents (Elt F) → (⟨S600000x1, .i32⟩ : BufTy).Contents (Elt F)),
    StableHlo.ternary main_v167 main_v168 main_v166 main_v169 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v159 main_v169 main_v170 (addf : (⟨S50000x128, .f32⟩ : BufTy).Contents (Elt F) → (⟨S50000x128, .f32⟩ : BufTy).Contents (Elt F) → (⟨S50000x128, .f32⟩ : BufTy).Contents (Elt F)),
    StableHlo.unary main_arg3 main_v171 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v171 main_v172 rfl shapeCasts_S1x128x128_S128x128,
    StableHlo.binary main_v170 main_v172 main_v173 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v174 ((extractStridedSlice S1x128 ![3, 0] · slices_S4x128_S1x128_3_0) : (⟨S4x128, .f32⟩ : BufTy).Contents (Elt F) → (⟨S1x128, .f32⟩ : BufTy).Contents (Elt F)),
    StableHlo.reshape main_v174 main_v175 rfl shapeCasts_S1x128_S128,
    StableHlo.unary main_v175 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v173 main_v177 main_v178 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v178 : StableHlo.TRef sig ⟨S50000x128, .f32⟩) main_call9.v0 main_call9.v1 maximumf,
    StableHlo.unary main_arg5 main_v180 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v180 main_v181 rfl shapeCasts_S1x128x128_S128x128,
    StableHlo.binary main_v179 main_v181 main_v182 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v183 ((extractStridedSlice S1x128 ![3, 0] · slices_S4x128_S1x128_3_0) : (⟨S4x128, .f32⟩ : BufTy).Contents (Elt F) → (⟨S1x128, .f32⟩ : BufTy).Contents (Elt F)),
    StableHlo.reshape main_v183 main_v184 rfl shapeCasts_S1x128_S128,
    StableHlo.unary main_v184 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S50000x128 ![0, 1] bcast_S1x128_S50000x128_0_1 : (⟨S1x128, .f32⟩ : BufTy).Contents (Elt F) → (⟨S50000x128, .f32⟩ : BufTy).Contents (Elt F)),
    StableHlo.binary main_v182 main_v186 main_v187 (addf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x00000000#32),
    StableHlo.binary main_v187 main_cst_22 main_v188 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_23 (constant S_ .f32 0x47435000#32),
    StableHlo.unary main_cst_23 main_v189 (broadcastInDim S128 ![] bcast_S_S128 : (⟨S_, .f32⟩ : BufTy).Contents (Elt F) → (⟨S128, .f32⟩ : BufTy).Contents (Elt F)),
    StableHlo.binary main_v188 main_v189 main_v190 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call10.cst (constant S_ .f32 0x00000000#32),
    StableHlo.TRef.binary (.of main_v187 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v187 : StableHlo.TRef sig ⟨S50000x128, .f32⟩) main_call10.v4 main_call10.v5 subf,
    StableHlo.TRef.binary main_call10.v5 main_call10.v5 main_call10.v6 mulf,
    StableHlo.TRef.unary (.of main_c_24 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v190 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S50000x128 ![0, 1] bcast_S1x128_S50000x128_0_1 : (⟨S1x128, .f32⟩ : BufTy).Contents (Elt F) → (⟨S50000x128, .f32⟩ : BufTy).Contents (Elt F)),
    StableHlo.binary main_v187 main_v193 main_v194 (subf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v195 (broadcastInDim S128 ![] bcast_S_S128 : (⟨S_, .f32⟩ : BufTy).Contents (Elt F) → (⟨S128, .f32⟩ : BufTy).Contents (Elt F)),
    StableHlo.binary main_v191 main_v195 main_v196 (addf : (⟨S128, .f32⟩ : BufTy).Contents (Elt F) → (⟨S128, .f32⟩ : BufTy).Contents (Elt F) → (⟨S128, .f32⟩ : BufTy).Contents (Elt F)),
    StableHlo.unary main_v196 main_v197 (Host.rsqrt : (⟨S128, .f32⟩ : BufTy).Contents (Elt F) → (⟨S128, .f32⟩ : BufTy).Contents (Elt F)),
    StableHlo.unary main_v197 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S50000x128 ![0, 1] bcast_S1x128_S50000x128_0_1 : (⟨S1x128, .f32⟩ : BufTy).Contents (Elt F) → (⟨S50000x128, .f32⟩ : BufTy).Contents (Elt F)),
    StableHlo.binary main_v194 main_v199 main_v200 (mulf : (⟨S50000x128, .f32⟩ : BufTy).Contents (Elt F) → (⟨S50000x128, .f32⟩ : BufTy).Contents (Elt F) → (⟨S50000x128, .f32⟩ : BufTy).Contents (Elt F)),
    StableHlo.unary main_arg7 main_v201 ((extractStridedSlice S1x128 ![3, 0] · slices_S4x128_S1x128_3_0) : (⟨S4x128, .f32⟩ : BufTy).Contents (Elt F) → (⟨S1x128, .f32⟩ : BufTy).Contents (Elt F)),
    StableHlo.reshape main_v201 main_v202 rfl shapeCasts_S1x128_S128,
    StableHlo.unary main_v202 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)),
    StableHlo.binary main_v200 main_v204 main_v205 (mulf : (⟨S50000x128, .f32⟩ : BufTy).Contents (Elt F) → (⟨S50000x128, .f32⟩ : BufTy).Contents (Elt F) → (⟨S50000x128, .f32⟩ : BufTy).Contents (Elt F)),
    StableHlo.unary main_arg8 main_v206 ((extractStridedSlice S1x128 ![3, 0] · slices_S4x128_S1x128_3_0) : (⟨S4x128, .f32⟩ : BufTy).Contents (Elt F) → (⟨S1x128, .f32⟩ : BufTy).Contents (Elt F)),
    StableHlo.reshape main_v206 main_v207 rfl shapeCasts_S1x128_S128,
    StableHlo.unary main_v207 main_v208 (broadcastInDim S1x128 ![1] bcast_S128_S1x128_1 : (⟨S128, .f32⟩ : BufTy).Contents (Elt F) → (⟨S1x128, .f32⟩ : BufTy).Contents (Elt F)),
    StableHlo.unary main_v208 main_v209 (broadcastInDim S50000x128 ![0, 1] bcast_S1x128_S50000x128_0_1 : (⟨S1x128, .f32⟩ : BufTy).Contents (Elt F) → (⟨S50000x128, .f32⟩ : BufTy).Contents (Elt F)),
    StableHlo.binary main_v205 main_v209 main_v210 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v210 : StableHlo.TRef sig ⟨S50000x128, .f32⟩) main_call11.v0 main_call11.v1 maximumf ]

set_option maxHeartbeats 40000000 in
set_option maxRecDepth 8192 in
/-- The tail: the rows summed per graph, the affine map, the rectifier, the last affine map. (15 operations) -/
abbrev opsTail : List (HloOp τ sig (Elt F)) :=
  [ StableHlo.nullary main_cst_26 (constant S_ .f32 0x00000000#32),
    StableHlo.unary main_cst_26 main_v212 (broadcastInDim S128x128 ![] bcast_S_S128x128 : (⟨S_, .f32⟩ : BufTy).Contents (Elt F) → (⟨S128x128, .f32⟩ : BufTy).Contents (Elt F)),
    StableHlo.unary main_arg2 main_v213 (broadcastInDim S50000x1 ![0] bcast_S50000_S50000x1_0 : (⟨S50000, .i32⟩ : BufTy).Contents (Elt F) → (⟨S50000x1, .i32⟩ : BufTy).Contents (Elt F)),
    StableHlo.ternary main_v212 main_v213 main_v211 main_v214 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.binary main_v214 main_arg9 main_v215 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.unary main_arg10 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S128x128 ![0, 1] bcast_S1x128_S128x128_0_1 : (⟨S1x128, .f32⟩ : BufTy).Contents (Elt F) → (⟨S128x128, .f32⟩ : BufTy).Contents (Elt F)),
    StableHlo.binary main_v215 main_v217 main_v218 (addf : (⟨S128x128, .f32⟩ : BufTy).Contents (Elt F) → (⟨S128x128, .f32⟩ : BufTy).Contents (Elt F) → (⟨S128x128, .f32⟩ : BufTy).Contents (Elt F)),
    StableHlo.TRef.nullary main_call12.cst (constant S_ .f32 0x00000000#32),
    StableHlo.TRef.unary main_call12.cst main_call12.v0 (broadcastInDim S128x128 ![] bcast_S_S128x128),
    StableHlo.TRef.binary (.of main_v218 : StableHlo.TRef sig ⟨S128x128, .f32⟩) main_call12.v0 main_call12.v1 maximumf,
    StableHlo.binary main_v219 main_arg11 main_v220 ((fun l r => Host.dotGeneral dot_S128x128_S128x64_S128x64_1_0_0_1_n_n none l r) : (⟨S128x128, .f32⟩ : BufTy).Contents (Elt F) → (⟨S128x64, .f32⟩ : BufTy).Contents (Elt F) → (⟨S128x64, .f32⟩ : BufTy).Contents (Elt F)),
    StableHlo.unary main_arg12 main_v221 (broadcastInDim S1x64 ![1] bcast_S64_S1x64_1 : (⟨S64, .f32⟩ : BufTy).Contents (Elt F) → (⟨S1x64, .f32⟩ : BufTy).Contents (Elt F)),
    StableHlo.unary main_v221 main_v222 (broadcastInDim S128x64 ![0, 1] bcast_S1x64_S128x64_0_1 : (⟨S1x64, .f32⟩ : BufTy).Contents (Elt F) → (⟨S128x64, .f32⟩ : BufTy).Contents (Elt F)),
    StableHlo.binary main_v220 main_v222 main_v223 (addf : (⟨S128x64, .f32⟩ : BufTy).Contents (Elt F) → (⟨S128x64, .f32⟩ : BufTy).Contents (Elt F) → (⟨S128x64, .f32⟩ : BufTy).Contents (Elt F)) ]

/-- @main's operations, in order. -/
abbrev ops : List (HloOp τ sig (Elt F)) := opsL0 ++ opsL1 ++ opsL2 ++ opsL3 ++ opsTail

end Cert.ReferenceIdeal.Run

end
-- ==== Proof.LibHostReal.lean ====
/-
  Being a real number is preserved by every operation the program applies.

  Floats are read as extended reals. An array "is real" when each of its elements is a real number
  (neither infinity). Each operation below produces, at every result index, either one of its operands'
  elements (the layout operations: broadcast, reshape, slice, concatenation, gather, select), or a sum,
  difference, product or maximum of such elements (the pointwise ones), or a finite sum of them (reduction,
  contraction, accumulating scatter), or a quotient by a nonzero real, or the reciprocal square root of a
  positive real. In each case the calculus of real numbers inside the extended reals gives a real number.
-/
import Idealize.ShloMosaic.PureOps.Ideal
import Idealize.ShloMosaic.PureOps.Ideal.Laws
import Idealize.ShloMosaic.PureOps.ShapeOps
import Idealize.ShloMosaic.PureOps.Vector
import Idealize.ShloMosaic.PureOps.Contract
import proofs.«414384_j72937134621131_1_alg».proof.Proof.LibRealVariance

noncomputable section

namespace Cert.Alg

open Idealize.ShloMosaic
open scoped BigOperators

/-! ### Constants -/

/-- A splat of a pattern that denotes a real number is real. -/
theorem isReal_constant {s : Shape} {φ : FTy} {b : BitVec φ.bits} (h : IsReal (Ideal.ofBits φ b)) :
    ∀ i, IsReal (constant (F := Ideal) s φ b i) := fun _ => h

/-- The four literals of the program denote real numbers. -/
theorem isReal_ofBits_zero : IsReal (Ideal.ofBits .f32 0x00000000#32) := by
  rw [ofBits_zero]; exact IsReal.zero

theorem isReal_ofBits_one : IsReal (Ideal.ofBits .f32 0x3F800000#32) := by
  rw [ofBits_one]; exact IsReal.coe _

theorem isReal_ofBits_N : IsReal (Ideal.ofBits .f32 0x48435000#32) := by
  rw [ofBits_N]; exact IsReal.coe _

theorem isReal_ofBits_eps : IsReal (Ideal.ofBits .f32 0x3727C5AC#32) := by
  obtain ⟨e, _, he⟩ := ofBits_eps_pos
  rw [he]; exact IsReal.coe _

/-- The pattern of 200000.0 is not zero, and the pattern of 1.0 is positive. -/
theorem ofBits_N_ne_zero : Ideal.ofBits .f32 0x48435000#32 ≠ 0 := by
  rw [ofBits_N]; exact_mod_cast (by norm_num : (200000 : ℝ) ≠ 0)

theorem ofBits_one_pos : (0 : EReal) < Ideal.ofBits .f32 0x3F800000#32 := by
  rw [ofBits_one]; exact EReal.coe_pos.mpr one_pos

/-! ### Pointwise operations -/

section Pointwise
variable {s : Shape} {φ : FTy}

theorem isReal_addf (x y : FVec Ideal s φ) (hx : ∀ i, IsReal (x i)) (hy : ∀ i, IsReal (y i)) :
    ∀ i, IsReal (addf x y i) := fun i => (hx i).add (hy i)

theorem isReal_subf (x y : FVec Ideal s φ) (hx : ∀ i, IsReal (x i)) (hy : ∀ i, IsReal (y i)) :
    ∀ i, IsReal (subf x y i) := fun i => (hx i).sub (hy i)

theorem isReal_mulf (x y : FVec Ideal s φ) (hx : ∀ i, IsReal (x i)) (hy : ∀ i, IsReal (y i)) :
    ∀ i, IsReal (mulf x y i) := fun i => (hx i).mul (hy i)

theorem isReal_maximumf (x y : FVec Ideal s φ) (hx : ∀ i, IsReal (x i)) (hy : ∀ i, IsReal (y i)) :
    ∀ i, IsReal (maximumf x y i) := fun i => (hx i).max (hy i)

/-- The kernel's quotient by an array with no zero element. -/
theorem isReal_divf (x y : FVec Ideal s φ) (hx : ∀ i, IsReal (x i)) (hy : ∀ i, IsReal (y i))
    (hy0 : ∀ i, y i ≠ (0 : EReal)) : ∀ i, IsReal (divf x y i) :=
  fun i => (hx i).div (hy i) (hy0 i)

/-- The host's quotient by an array with no zero element. -/
theorem isReal_hostDivf (x y : FVec Ideal s φ) (hx : ∀ i, IsReal (x i)) (hy : ∀ i, IsReal (y i))
    (hy0 : ∀ i, y i ≠ (0 : EReal)) : ∀ i, IsReal (Host.divf x y i) :=
  fun i => (hx i).div (hy i) (hy0 i)

/-- The kernel's reciprocal square root of an array of positive reals. -/
theorem isReal_rsqrt (x : FVec Ideal s φ) (hx : ∀ i, IsReal (x i)) (hpos : ∀ i, (0 : EReal) < x i) :
    ∀ i, IsReal (rsqrt x i) := fun i => (hx i).rsqrt_of_pos (hpos i)

/-- The host's reciprocal square root of an array of positive reals. -/
theorem isReal_hostRsqrt (x : FVec Ideal s φ) (hx : ∀ i, IsReal (x i)) (hpos : ∀ i, (0 : EReal) < x i) :
    ∀ i, IsReal (Host.rsqrt x i) := fun i => (hx i).rsqrt_of_pos (hpos i)

/-- A change of format is the identity on extended reals. -/
theorem isReal_truncf (ψ : FTy) (x : FVec Ideal s φ) (h : ψ.bits < φ.bits) (hx : ∀ i, IsReal (x i)) :
    ∀ i, IsReal (truncf ψ x h i) := fun i => hx i

theorem isReal_extf (ψ : FTy) (x : FVec Ideal s φ) (h : φ.bits < ψ.bits) (hx : ∀ i, IsReal (x i)) :
    ∀ i, IsReal (extf ψ x h i) := fun i => hx i

/-- A lane-by-lane choice between two real arrays is real. -/
theorem isReal_select (c : IVec s 1) (a b : s.Idx → EReal) (ha : ∀ i, IsReal (a i)) (hb : ∀ i, IsReal (b i)) :
    ∀ i, IsReal (select c a b i) := by
  intro i
  unfold select Scalar.select
  split
  · exact ha i
  · exact hb i

end Pointwise

/-! ### Layout operations: each result element is an operand element -/

section Layout
variable {s t : Shape}

theorem isReal_broadcast (t : Shape) {x : EReal} (hx : IsReal x) : ∀ j, IsReal (broadcast t x j) :=
  fun _ => hx

theorem isReal_broadcastTo (t : Shape) (x : s.Idx → EReal) (h : s.Broadcasts t) (hx : ∀ i, IsReal (x i)) :
    ∀ j, IsReal (broadcastTo t x h j) := fun _ => hx _

theorem isReal_broadcastInDim (t : Shape) (dims : Fin s.rank → Fin t.rank) (h : s.BroadcastsInDim t dims)
    (x : s.Idx → EReal) (hx : ∀ i, IsReal (x i)) : ∀ j, IsReal (broadcastInDim t dims h x j) :=
  fun _ => hx _

theorem isReal_shapeCast (t : Shape) (x : s.Idx → EReal) (h : s.ShapeCasts t) (hx : ∀ i, IsReal (x i)) :
    ∀ j, IsReal (shapeCast t x h j) := fun _ => hx _

theorem isReal_extractStridedSlice (t : Shape) (off : Fin s.rank → Nat) (x : s.Idx → EReal) (h : s.Slices off t)
    (hx : ∀ i, IsReal (x i)) : ∀ j, IsReal (extractStridedSlice t off x h j) := fun _ => hx _

theorem isReal_transpose (t : Shape) (perm : List (Fin s.rank)) (x : s.Idx → EReal) (h : s.Transposes perm t)
    (hx : ∀ i, IsReal (x i)) : ∀ j, IsReal (transpose t perm x h j) := fun _ => hx _

/-- A row gather reads, at each result index, one operand element. -/
theorem isReal_gather {si : Shape} {w : Nat} (d : GatherDims s si t) (x : s.Idx → EReal) (idx : IVec si w)
    (hx : ∀ i, IsReal (x i)) : ∀ j, IsReal (Host.gather d x idx j) := fun _ => hx _

/-- A concatenation reads, at each result index, one element of one of its pieces. -/
theorem isReal_concatenate (t : Shape) (a : Fin t.rank) (xs : List ((s : Shape) × (s.Idx → EReal)))
    (h : Shape.Concatenates (xs.map (·.1)) t a) (hxs : ∀ p ∈ xs, ∀ i, IsReal (p.2 i)) :
    ∀ j, IsReal (concatenate t a xs h j) := by
  intro j
  unfold concatenate
  exact hxs _ (List.getElem_mem _) _

end Layout

/-! ### Sums: reduction, contraction, accumulating scatter -/

section Sums
variable {s : Shape} {φ : FTy}

/-- The host's sum over some axes: the initial value plus a finite sum of operand elements. -/
theorem isReal_hostReduceAdd {axes : List (Fin s.rank)} {t u : Shape} (x : FVec Ideal s φ)
    (init : u.Idx → Ideal φ) (h : s.ReducesTo axes t) (hu : 0 < u.numel)
    (hx : ∀ i, IsReal (x i)) (hinit : ∀ k, IsReal (init k)) :
    ∀ j, IsReal (Host.reduceAdd x init h hu j) := by
  intro j
  unfold Host.reduceAdd
  rw [Ideal.hostReduceAdd_def]
  unfold Ideal.hostReduceAdd
  exact (hinit _).add (IsReal.finset_sum _ _ fun i _ => hx i)

/-- The kernel's sum over some axes: a finite sum of operand elements. -/
theorem isReal_multiReduction_add {axes : List (Fin s.rank)} {t : Shape} (src : FVec Ideal s φ)
    (acc : BitVec φ.bits) (h : s.Reduces axes t) (hφ : FKind.Formats φ) (hacc : acc = FKind.add.neutral φ hφ)
    (hsrc : ∀ i, IsReal (src i)) : ∀ j, IsReal (multiReduction .add axes t src acc h hφ hacc j) := by
  intro j
  show IsReal (Ideal.reduceAdd h src j)
  unfold Ideal.reduceAdd
  exact IsReal.finset_sum _ _ fun i _ => hsrc i

/-- The accumulating scatter: each operand element plus a finite sum of update elements. -/
theorem isReal_scatterAdd {si u : Shape} {w : Nat} (d : ScatterDims s si u) (x : FVec Ideal s φ)
    (idx : IVec si w) (upd : FVec Ideal u φ) (hx : ∀ i, IsReal (x i)) (hu : ∀ j, IsReal (upd j)) :
    ∀ i, IsReal (Host.scatterAdd d x idx upd i) := by
  intro i
  unfold Host.scatterAdd
  rw [Ideal.hostScatterAdd_def]
  unfold Ideal.hostScatterAdd
  exact (hx i).add (IsReal.finset_sum _ _ fun j _ => hu j)

end Sums

section Contractions
variable {sl sr so : Shape} {φ₁ φ₂ : FTy}

/-- The kernel's matrix product: the accumulator plus a finite sum of products. -/
theorem isReal_matmul (d : DotDims sl sr so) (prec : Option ContractPrecision) (l : FVec Ideal sl φ₁)
    (r : FVec Ideal sr φ₂) (acc : FVec Ideal so .f32) (hl : ∀ i, IsReal (l i)) (hr : ∀ i, IsReal (r i))
    (hacc : ∀ j, IsReal (acc j)) : ∀ j, IsReal (matmul d prec l r acc j) := by
  intro j
  show IsReal (FloatOps.matmul d prec l r acc j)
  rw [Ideal.matmul_apply]
  exact (hacc j).add (IsReal.sum _ fun k => (hl _).mul (hr _))

/-- Into the zero accumulator. -/
theorem isReal_matmul_zero (d : DotDims sl sr so) (prec : Option ContractPrecision) (l : FVec Ideal sl φ₁)
    (r : FVec Ideal sr φ₂) (hl : ∀ i, IsReal (l i)) (hr : ∀ i, IsReal (r i)) :
    ∀ j, IsReal (matmul d prec l r (constant so .f32 0x00000000#32) j) :=
  isReal_matmul d prec l r _ hl hr (isReal_constant isReal_ofBits_zero)

/-- The host's matrix product: a finite sum of products. -/
theorem isReal_dotGeneral (d : DotDims sl sr so) (prec : Option ContractPrecision) (l : FVec Ideal sl φ₁)
    (r : FVec Ideal sr φ₂) (hl : ∀ i, IsReal (l i)) (hr : ∀ i, IsReal (r i)) :
    ∀ j, IsReal (Host.dotGeneral d prec l r j) := by
  intro j
  show IsReal (FloatOps.dotGeneral d prec .single l r j)
  rw [Ideal.dotGeneral_apply]
  exact IsReal.sum _ fun k => (hl _).mul (hr _)

end Contractions

/-! ### The arguments of the reciprocal square roots are positive reals -/

/-- A nonnegative real plus the positive literal 1e-5 is a positive real. -/
theorem add_eps_pos {v : EReal} (hv : ∃ r : ℝ, 0 ≤ r ∧ v = (r : EReal)) :
    ∃ r : ℝ, 0 < r ∧ v + Ideal.ofBits .f32 0x3727C5AC#32 = (r : EReal) := by
  obtain ⟨r, hr, rfl⟩ := hv
  obtain ⟨e, he, hE⟩ := ofBits_eps_pos
  exact ⟨r + e, by linarith, by rw [hE, EReal.coe_add]⟩

/-- … so it is positive, and its reciprocal square root is a real. -/
theorem add_eps_pos' {v : EReal} (hv : ∃ r : ℝ, 0 ≤ r ∧ v = (r : EReal)) :
    (0 : EReal) < v + Ideal.ofBits .f32 0x3727C5AC#32 := by
  obtain ⟨r, hr, h⟩ := add_eps_pos hv
  rw [h]; exact EReal.coe_pos.mpr hr

theorem isReal_add_eps {v : EReal} (hv : ∃ r : ℝ, 0 ≤ r ∧ v = (r : EReal)) :
    IsReal (v + Ideal.ofBits .f32 0x3727C5AC#32) := by
  obtain ⟨r, _, h⟩ := add_eps_pos hv
  exact ⟨r, h⟩

theorem isReal_rsqrt_add_eps {v : EReal} (hv : ∃ r : ℝ, 0 ≤ r ∧ v = (r : EReal)) :
    IsReal (Ideal.rsqrt (v + Ideal.ofBits .f32 0x3727C5AC#32)) :=
  (isReal_add_eps hv).rsqrt_of_pos (add_eps_pos' hv)

/-- The reference's normaliser: the reciprocal square root of the variance E[(a − E a)²] plus 1e-5, over a
    column of N ≠ 0 real entries, is a real. -/
theorem isReal_rsqrt_variance_add_eps {ι : Type} [Fintype ι] (a : ι → EReal) (ha : ∀ i, IsReal (a i)) (N : ℝ)
    (hN : (Fintype.card ι : ℝ) = N) (hN0 : N ≠ 0) :
    IsReal (Ideal.rsqrt (Ideal.div (∑ i, (a i - Ideal.div (∑ i, a i) (N : EReal))
        * (a i - Ideal.div (∑ i, a i) (N : EReal))) (N : EReal) + Ideal.ofBits .f32 0x3727C5AC#32)) :=
  isReal_rsqrt_add_eps (variance_nonneg a ha N hN hN0)

/-- The kernel's normaliser: the same with the variance written E[a²] − E[a]². -/
theorem isReal_rsqrt_variance'_add_eps {ι : Type} [Fintype ι] (a : ι → EReal) (ha : ∀ i, IsReal (a i)) (N : ℝ)
    (hN : (Fintype.card ι : ℝ) = N) (hN0 : N ≠ 0) :
    IsReal (Ideal.rsqrt (Ideal.div (∑ i, a i * a i) (N : EReal)
        - Ideal.div (∑ i, a i) (N : EReal) * Ideal.div (∑ i, a i) (N : EReal)
        + Ideal.ofBits .f32 0x3727C5AC#32)) := by
  rw [variance_eq a ha N hN hN0]
  exact isReal_rsqrt_variance_add_eps a ha N hN hN0

/-- The degree normaliser: the greater of a real and a positive real is a positive real, so its reciprocal
    square root is a real. -/
theorem max_pos_right {x c : EReal} (hc0 : 0 < c) : 0 < max x c := lt_max_of_lt_right hc0

theorem isReal_rsqrt_max {x c : EReal} (hx : IsReal x) (hc : IsReal c) (hc0 : 0 < c) :
    IsReal (Ideal.rsqrt (max x c)) := (hx.max hc).rsqrt_of_pos (max_pos_right hc0)

theorem isReal_rsqrt_max_one {x : EReal} (hx : IsReal x) :
    IsReal (Ideal.rsqrt (max x (Ideal.ofBits .f32 0x3F800000#32))) :=
  isReal_rsqrt_max hx isReal_ofBits_one ofBits_one_pos

end Cert.Alg

end
-- ==== Proof.RefMath.lean ====
/-
  The reference's layer, stage by stage, read at one entry.

  A layer of the reference forms z = relu(hs·W₁ + b₁)·W₂ + b₂ from the summed features hs, then the column means
  E z (the column sums over the 50000 nodes divided by the count), the column variances E (z − E z)² (the means laid
  back over the nodes, subtracted, squared, summed, divided by the count), and returns
  relu((z − E z)·(Var z + ε)^(−1/2)·γ + β). Each stage is a composition of array operations: a contraction, sums
  over the node axis, entrywise arithmetic, and rows or scalars laid over a larger array. Read at an entry (n, d), a
  row laid over the nodes gives its entry d, a scalar gives itself, the contraction gives the sum over the 128
  contracted features, and a sum over the node axis from the initial value 0 gives the sum of the column. Putting
  these together, each stage at (n, d) is the corresponding function of the specification at (n, d). The last part
  reads the per-layer weights: layer l's matrix and rows are the slices at offset l of the stacked arguments.
-/
import proofs.«414384_j72937134621131_1_alg».proof.Proof.Gen.ReferenceIdeal
import proofs.«414384_j72937134621131_1_alg».proof.Proof.Spec
import proofs.«414384_j72937134621131_1_alg».proof.Proof.LibHostReal
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Math

open Idealize.ShloMosaic Idealize.ShloMosaic.ValueIdx Cert.ReferenceIdeal
open scoped BigOperators

variable [Facts]
open Facts₀ Facts

/-! ### Broadcasts read at an entry -/

/-- A row laid over every node, [128] → [1,128] → [50000,128]: entry (n, d) is the row's entry d. -/
theorem bcastRow_apply (b : FVec Ideal S128 .f32) (n : Fin 50000) (d : Fin 128) :
    broadcastInDim S50000x128 ![0, 1] bcast_S1x128_S50000x128_0_1
        (broadcastInDim S1x128 ![1] bcast_S128_S1x128_1 b) (ix2 n d) = b (ix1 d) := by
  refine (broadcastInDim_apply _ _ _ (ix2 n d) (ix2 (0 : Fin 1) d) ?_).trans ?_
  · intro a
    match a with
    | ⟨0, _⟩ => rfl
    | ⟨1, _⟩ => rfl
  · refine broadcastInDim_apply _ _ _ _ (ix1 d) ?_
    intro a
    match a with
    | ⟨0, _⟩ => rfl

/-- The zero scalar laid over every entry of a [50000,128] array reads 0 everywhere. -/
theorem bcastZero_apply (n : Fin 50000) (d : Fin 128) :
    broadcastInDim S50000x128 ![] bcast_S_S50000x128 (constant (F := Ideal) S_ .f32 0x00000000#32) (ix2 n d) = 0 := by
  show Ideal.ofBits .f32 0x00000000#32 = 0
  exact Ideal.ofBits_zero_f32

/-- A scalar laid over a [128] row reads the scalar's one entry. -/
theorem bcastScalar128_apply {α : Type} (x : S_.Idx → α) (d : Fin 128) :
    broadcastInDim S128 ![] bcast_S_S128 x (ix1 d) = x ix0 :=
  broadcastInDim_apply _ _ _ _ ix0 (fun a => a.elim0)

/-! ### The contraction read at an entry

The product of a [50000,128] array with a [128,128] matrix contracts the left operand's axis 1 with the right
operand's axis 0. At result entry (n, d) and contraction position k the left operand is read at (n, k) and the
right at (k, d). -/

theorem lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

theorem lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- x·W at entry (n, d): the sum over the 128 contracted features of x at (n, k) times W at (k, d). -/
theorem dot_apply (x : FVec Ideal S50000x128 .f32) (W : FVec Ideal S128x128 .f32) (n : Fin 50000) (d : Fin 128) :
    Host.dotGeneral dot_S50000x128_S128x128_S50000x128_1_0_0_1_n_n none x W (ix2 n d) = ∑ k : Fin 128, x (ix2 n k) * W (ix2 k d) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n d) ((contrEquiv1 dot_S50000x128_S128x128_S50000x128_1_0_0_1_n_n 128 rfl rfl).symm k) = ix2 n k :=
    funext fun a => Fin.ext (by
      match a with
      | ⟨0, _⟩ => exact lhs_0 _ _
      | ⟨1, _⟩ => exact (lhs_1 _ _).trans hk)
  have er : dot_S50000x128_S128x128_S50000x128_1_0_0_1_n_n.rhsIdx (ix2 n d) ((contrEquiv1 dot_S50000x128_S128x128_S50000x128_1_0_0_1_n_n 128 rfl rfl).symm k) = ix2 k d :=
    funext fun a => Fin.ext (by
      match a with
      | ⟨0, _⟩ => exact (rhs_0 _ _).trans hk
      | ⟨1, _⟩ => exact rhs_1 _ _)
  rw [el, er]

/-! ### The two affine maps with the rectifier between -/

/-- relu(hs·W₁ + b₁)·W₂ + b₂ as the reference writes it, at entry (n, d). -/
theorem mlp_apply (hs : FVec Ideal S50000x128 .f32) (W1 : FVec Ideal S128x128 .f32) (b1 : FVec Ideal S128 .f32)
    (W2 : FVec Ideal S128x128 .f32) (b2 : FVec Ideal S128 .f32) (n : Fin 50000) (d : Fin 128) :
    addf (Host.dotGeneral dot_S50000x128_S128x128_S50000x128_1_0_0_1_n_n none
          (maximumf (addf (Host.dotGeneral dot_S50000x128_S128x128_S50000x128_1_0_0_1_n_n none hs W1) (broadcastInDim S50000x128 ![0, 1] bcast_S1x128_S50000x128_0_1 (broadcastInDim S1x128 ![1] bcast_S128_S1x128_1 b1)))
            (broadcastInDim S50000x128 ![] bcast_S_S50000x128 (constant (F := Ideal) S_ .f32 0x00000000#32))) W2)
        (broadcastInDim S50000x128 ![0, 1] bcast_S1x128_S50000x128_0_1 (broadcastInDim S1x128 ![1] bcast_S128_S1x128_1 b2)) (ix2 n d)
      = Cert.Gnn.mlp (fun i k => hs (ix2 i k)) (fun k j => W1 (ix2 k j)) (fun j => b1 (ix1 j))
          (fun k j => W2 (ix2 k j)) (fun j => b2 (ix1 j)) n d := by
  rw [addf_apply, dot_apply, bcastRow_apply]
  unfold Cert.Gnn.mlp Cert.Gnn.lin Cert.Gnn.relu
  refine congrArg (· + b2 (ix1 d)) (Finset.sum_congr rfl fun k _ => ?_)
  rw [maximumf_apply, addf_apply, dot_apply, bcastRow_apply, bcastZero_apply]

/-! ### The column sums and the column means -/

/-- The word 0x47435000 is the number of nodes, 50000 = (2²³ + 4411392)·2⁻⁸. -/
theorem ofBits_cnt : Ideal.ofBits .f32 0x47435000#32 = Cert.Gnn.cnt := by
  unfold Cert.Gnn.cnt
  simp [Ideal.ofBits, Ideal.ieee, -EReal.coe_mul]
  norm_num

/-- The sum over the nodes from the initial value 0, at column d: the sum of the column's 50000 entries. -/
theorem colsum_apply (z : FVec Ideal S50000x128 .f32) (d : Fin 128) :
    Host.reduceAdd z (constant (F := Ideal) S_ .f32 0x00000000#32) reducesTo_S50000x128_S128_d0 h_S_ (ix1 d) = ∑ i : Fin 50000, z (ix2 i d) := by
  simp only [Host.reduceAdd, Ideal.hostReduceAdd_def]
  rw [Ideal.hostReduceAdd_single reducesTo_S50000x128_S128_d0 (by decide)]
  rw [constant_apply, Ideal.ofBits_zero_f32, zero_add]
  refine Finset.sum_congr rfl fun k _ => ?_
  exact congrArg z (funext fun a => Fin.ext (by match a with | ⟨0, _⟩ => rfl | ⟨1, _⟩ => rfl))

/-- The column sums divided by the count laid over the row: the column means. -/
theorem mean_apply (z : FVec Ideal S50000x128 .f32) (d : Fin 128) :
    Host.divf (Host.reduceAdd z (constant (F := Ideal) S_ .f32 0x00000000#32) reducesTo_S50000x128_S128_d0 h_S_) (broadcastInDim S128 ![] bcast_S_S128 (constant (F := Ideal) S_ .f32 0x47435000#32)) (ix1 d)
      = Cert.Gnn.mean (fun i k => z (ix2 i k)) d := by
  show Ideal.div ((Host.reduceAdd z (constant (F := Ideal) S_ .f32 0x00000000#32) reducesTo_S50000x128_S128_d0 h_S_) (ix1 d)) (broadcastInDim S128 ![] bcast_S_S128 (constant (F := Ideal) S_ .f32 0x47435000#32) (ix1 d)) = _
  rw [colsum_apply, bcastScalar128_apply, constant_apply, ofBits_cnt]
  rfl

/-! ### The variance from the centred entries

The reference's variance function forms the column means, lays them over the nodes, subtracts, squares, sums over
the nodes, and divides by the count less an integer correction, which here is 0; it guards the division by
"count − correction > 0" and returns a not-a-number row otherwise. With the correction 0 the divisor is the
count, 50000, the guard holds, and the result is the mean of the squared deviations. -/

/-- The column means laid over the nodes, [128] → [1,128], divided there by the count, → [50000,128]:
    entry (n, d) is the mean of column d. -/
theorem meanOver_apply (z : FVec Ideal S50000x128 .f32) (n : Fin 50000) (d : Fin 128) :
    (broadcastInDim S50000x128 ![0, 1] bcast_S1x128_S50000x128_0_1 (Host.divf (broadcastInDim S1x128 ![1] bcast_S128_S1x128_1 (Host.reduceAdd z (constant (F := Ideal) S_ .f32 0x00000000#32) reducesTo_S50000x128_S128_d0 h_S_)) (broadcastInDim S1x128 ![] bcast_S_S1x128 (constant (F := Ideal) S_ .f32 0x47435000#32)))) (ix2 n d) = Cert.Gnn.mean (fun i k => z (ix2 i k)) d := by
  refine (broadcastInDim_apply _ _ _ (ix2 n d) (ix2 (0 : Fin 1) d) ?_).trans ?_
  · intro a
    match a with
    | ⟨0, _⟩ => rfl
    | ⟨1, _⟩ => rfl
  · show Ideal.div (broadcastInDim S1x128 ![1] bcast_S128_S1x128_1 (Host.reduceAdd z (constant (F := Ideal) S_ .f32 0x00000000#32) reducesTo_S50000x128_S128_d0 h_S_) (ix2 (0 : Fin 1) d))
        (broadcastInDim S1x128 ![] bcast_S_S1x128 (constant (F := Ideal) S_ .f32 0x47435000#32) (ix2 (0 : Fin 1) d)) = _
    rw [broadcastInDim_apply (![1] : Fin 1 → Fin 2) bcast_S128_S1x128_1 (Host.reduceAdd z (constant (F := Ideal) S_ .f32 0x00000000#32) reducesTo_S50000x128_S128_d0 h_S_) (ix2 (0 : Fin 1) d) (ix1 d)
        (fun a => by match a with | ⟨0, _⟩ => rfl),
      broadcastInDim_apply (![] : Fin 0 → Fin 2) bcast_S_S1x128 (constant (F := Ideal) S_ .f32 0x47435000#32) (ix2 (0 : Fin 1) d) ix0 (fun a => a.elim0),
      colsum_apply, constant_apply, ofBits_cnt]
    rfl

/-- The count less the correction 0, as a scalar: the count. -/
theorem den_apply : (subf (constant (F := Ideal) S_ .f32 0x47435000#32) (sitofp (F := Ideal) .f32 (constantI S_ 32 0#32))) ix0 = Cert.Gnn.cnt := by
  show Ideal.ofBits .f32 0x47435000#32 - (((0#32 : BitVec 32).toInt : ℝ) : EReal) = _
  rw [ofBits_cnt, BitVec.toInt_zero, Int.cast_zero, EReal.coe_zero, sub_zero]

/-- The guard "count − correction > 0" holds. -/
theorem guard_apply : (cmpf .ogt (subf (constant (F := Ideal) S_ .f32 0x47435000#32) (sitofp (F := Ideal) .f32 (constantI S_ 32 0#32))) (constant (F := Ideal) S_ .f32 0x00000000#32)) ix0 = 1#1 := by
  show Ideal.cmp .ogt ((subf (constant (F := Ideal) S_ .f32 0x47435000#32) (sitofp (F := Ideal) .f32 (constantI S_ 32 0#32))) ix0) (Ideal.ofBits .f32 0x00000000#32) = 1#1
  rw [den_apply, Ideal.ofBits_zero_f32]
  unfold Ideal.cmp Cert.Gnn.cnt
  have h : (0 : EReal) < ((50000 : ℝ) : EReal) := EReal.coe_pos.mpr (by norm_num)
  simp [h]

/-- The guarded quotient at column d, whatever row stands in the other branch: the mean of the squared deviations. -/
theorem var_apply_of (z : FVec Ideal S50000x128 .f32) (other : FVec Ideal S128 .f32) (d : Fin 128) :
    select (broadcastInDim S128 ![] bcast_S_S128 (cmpf .ogt (subf (constant (F := Ideal) S_ .f32 0x47435000#32) (sitofp (F := Ideal) .f32 (constantI S_ 32 0#32))) (constant (F := Ideal) S_ .f32 0x00000000#32))) (Host.divf (Host.reduceAdd (mulf (subf z (broadcastInDim S50000x128 ![0, 1] bcast_S1x128_S50000x128_0_1 (Host.divf (broadcastInDim S1x128 ![1] bcast_S128_S1x128_1 (Host.reduceAdd z (constant (F := Ideal) S_ .f32 0x00000000#32) reducesTo_S50000x128_S128_d0 h_S_)) (broadcastInDim S1x128 ![] bcast_S_S1x128 (constant (F := Ideal) S_ .f32 0x47435000#32))))) (subf z (broadcastInDim S50000x128 ![0, 1] bcast_S1x128_S50000x128_0_1 (Host.divf (broadcastInDim S1x128 ![1] bcast_S128_S1x128_1 (Host.reduceAdd z (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_) (broadcastInDim S128 ![] bcast_S_S128 (subf (constant (F := Ideal) S_ .f32 0x47435000#32) (sitofp (F := Ideal) .f32 (constantI S_ 32 0#32))))) other (ix1 d)
      = Cert.Gnn.varDev (fun i k => z (ix2 i k)) d := by
  rw [select_apply, bcastScalar128_apply, guard_apply, select_one]
  show Ideal.div ((Host.reduceAdd (mulf (subf z (broadcastInDim S50000x128 ![0, 1] bcast_S1x128_S50000x128_0_1 (Host.divf (broadcastInDim S1x128 ![1] bcast_S128_S1x128_1 (Host.reduceAdd z (constant (F := Ideal) S_ .f32 0x00000000#32) reducesTo_S50000x128_S128_d0 h_S_)) (broadcastInDim S1x128 ![] bcast_S_S1x128 (constant (F := Ideal) S_ .f32 0x47435000#32))))) (subf z (broadcastInDim S50000x128 ![0, 1] bcast_S1x128_S50000x128_0_1 (Host.divf (broadcastInDim S1x128 ![1] bcast_S128_S1x128_1 (Host.reduceAdd z (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_) (ix1 d))
      (broadcastInDim S128 ![] bcast_S_S128 (subf (constant (F := Ideal) S_ .f32 0x47435000#32) (sitofp (F := Ideal) .f32 (constantI S_ 32 0#32))) (ix1 d)) = _
  rw [colsum_apply, bcastScalar128_apply, den_apply]
  unfold Cert.Gnn.varDev
  refine congrArg (fun s => Ideal.div s Cert.Gnn.cnt) (Finset.sum_congr rfl fun i _ => ?_)
  rw [mulf_apply, subf_apply, meanOver_apply]

/-- The variance function's result as printed, the other branch the not-a-number word laid over the row. -/
theorem var_apply (z : FVec Ideal S50000x128 .f32) (d : Fin 128) :
    select (broadcastInDim S128 ![] bcast_S_S128 (cmpf .ogt (subf (constant (F := Ideal) S_ .f32 0x47435000#32) (sitofp (F := Ideal) .f32 (constantI S_ 32 0#32))) (constant (F := Ideal) S_ .f32 0x00000000#32))) (Host.divf (Host.reduceAdd (mulf (subf z (broadcastInDim S50000x128 ![0, 1] bcast_S1x128_S50000x128_0_1 (Host.divf (broadcastInDim S1x128 ![1] bcast_S128_S1x128_1 (Host.reduceAdd z (constant (F := Ideal) S_ .f32 0x00000000#32) reducesTo_S50000x128_S128_d0 h_S_)) (broadcastInDim S1x128 ![] bcast_S_S1x128 (constant (F := Ideal) S_ .f32 0x47435000#32))))) (subf z (broadcastInDim S50000x128 ![0, 1] bcast_S1x128_S50000x128_0_1 (Host.divf (broadcastInDim S1x128 ![1] bcast_S128_S1x128_1 (Host.reduceAdd z (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_) (broadcastInDim S128 ![] bcast_S_S128 (subf (constant (F := Ideal) S_ .f32 0x47435000#32) (sitofp (F := Ideal) .f32 (constantI S_ 32 0#32))))) (broadcastInDim S128 ![] bcast_S_S128 (id (constant (F := Ideal) S_ .f32 0x7FC00000#32))) (ix1 d)
      = Cert.Gnn.varDev (fun i k => z (ix2 i k)) d :=
  var_apply_of z _ d

/-! ### The normalisation and the rectifier -/

/-- relu((z − μ)·(v + ε)^(−1/2)·γ + β) as the reference writes it, each row laid over the nodes, at entry (n, d). -/
theorem norm_apply (z : FVec Ideal S50000x128 .f32) (mu v g b : FVec Ideal S128 .f32) (n : Fin 50000) (d : Fin 128) :
    (maximumf
        (addf
          (mulf
            (mulf (subf z (broadcastInDim S50000x128 ![0, 1] bcast_S1x128_S50000x128_0_1 (broadcastInDim S1x128 ![1] bcast_S128_S1x128_1 mu)))
              (broadcastInDim S50000x128 ![0, 1] bcast_S1x128_S50000x128_0_1 (broadcastInDim S1x128 ![1] bcast_S128_S1x128_1 (Host.rsqrt (addf v (broadcastInDim S128 ![] bcast_S_S128 (constant (F := Ideal) S_ .f32 0x3727C5AC#32)))))))
            (broadcastInDim S50000x128 ![0, 1] bcast_S1x128_S50000x128_0_1 (broadcastInDim S1x128 ![1] bcast_S128_S1x128_1 g)))
          (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))) (ix2 n d)
      = Cert.Gnn.norm (fun i k => z (ix2 i k)) (fun j => mu (ix1 j)) (fun j => v (ix1 j)) (fun j => g (ix1 j))
          (fun j => b (ix1 j)) n d := by
  rw [maximumf_apply, addf_apply, mulf_apply, mulf_apply, subf_apply, bcastRow_apply, bcastRow_apply, bcastRow_apply,
    bcastRow_apply, bcastZero_apply]
  show max ((z (ix2 n d) - mu (ix1 d)) * Ideal.rsqrt (v (ix1 d) + (broadcastInDim S128 ![] bcast_S_S128 (constant (F := Ideal) S_ .f32 0x3727C5AC#32)) (ix1 d)) * g (ix1 d) + b (ix1 d)) 0 = _
  rw [bcastScalar128_apply, constant_apply]
  rfl

/-! ### The layers' weights and rows: slices of the stacked arguments -/

/-- Layer 0's matrix: the [1,128,128] slice at offset 0 of the stack, its unit axis dropped, at (k, j). -/
theorem wslice0_apply (W : FVec Ideal S4x128x128 .f32) (k j : Fin 128) :
    shapeCast S128x128 (extractStridedSlice S1x128x128 ![0, 0, 0] W slices_S4x128x128_S1x128x128_0_0_0)
        shapeCasts_S1x128x128_S128x128 (ix2 k j) = W (ix3 (0 : Fin 4) k j) := by
  refine (shapeCast_1ab_ab_apply _ _ k j).trans ?_
  exact extractStridedSlice_apply _ _ _ _ _ (fun ax => by
    match ax with
    | ⟨0, _⟩ => rfl
    | ⟨1, _⟩ => exact (Nat.zero_add _).symm
    | ⟨2, _⟩ => exact (Nat.zero_add _).symm)

/-- Layer 0's row: the [1,128] slice at offset 0 of the stack, its unit axis dropped, at j. -/
theorem bslice0_apply (b : FVec Ideal S4x128 .f32) (j : Fin 128) :
    shapeCast S128 (extractStridedSlice S1x128 ![0, 0] b slices_S4x128_S1x128_0_0)
        shapeCasts_S1x128_S128 (ix1 j) = b (ix2 (0 : Fin 4) j) := by
  refine (shapeCast_1a_a_apply _ _ j).trans ?_
  exact extractStridedSlice_apply _ _ _ _ _ (fun ax => by
    match ax with
    | ⟨0, _⟩ => rfl
    | ⟨1, _⟩ => exact (Nat.zero_add _).symm)

/-- Layer 1's matrix: the [1,128,128] slice at offset 1 of the stack, its unit axis dropped, at (k, j). -/
theorem wslice1_apply (W : FVec Ideal S4x128x128 .f32) (k j : Fin 128) :
    shapeCast S128x128 (extractStridedSlice S1x128x128 ![1, 0, 0] W slices_S4x128x128_S1x128x128_1_0_0)
        shapeCasts_S1x128x128_S128x128 (ix2 k j) = W (ix3 (1 : Fin 4) k j) := by
  refine (shapeCast_1ab_ab_apply _ _ k j).trans ?_
  exact extractStridedSlice_apply _ _ _ _ _ (fun ax => by
    match ax with
    | ⟨0, _⟩ => rfl
    | ⟨1, _⟩ => exact (Nat.zero_add _).symm
    | ⟨2, _⟩ => exact (Nat.zero_add _).symm)

/-- Layer 1's row: the [1,128] slice at offset 1 of the stack, its unit axis dropped, at j. -/
theorem bslice1_apply (b : FVec Ideal S4x128 .f32) (j : Fin 128) :
    shapeCast S128 (extractStridedSlice S1x128 ![1, 0] b slices_S4x128_S1x128_1_0)
        shapeCasts_S1x128_S128 (ix1 j) = b (ix2 (1 : Fin 4) j) := by
  refine (shapeCast_1a_a_apply _ _ j).trans ?_
  exact extractStridedSlice_apply _ _ _ _ _ (fun ax => by
    match ax with
    | ⟨0, _⟩ => rfl
    | ⟨1, _⟩ => exact (Nat.zero_add _).symm)

/-- Layer 2's matrix: the [1,128,128] slice at offset 2 of the stack, its unit axis dropped, at (k, j). -/
theorem wslice2_apply (W : FVec Ideal S4x128x128 .f32) (k j : Fin 128) :
    shapeCast S128x128 (extractStridedSlice S1x128x128 ![2, 0, 0] W slices_S4x128x128_S1x128x128_2_0_0)
        shapeCasts_S1x128x128_S128x128 (ix2 k j) = W (ix3 (2 : Fin 4) k j) := by
  refine (shapeCast_1ab_ab_apply _ _ k j).trans ?_
  exact extractStridedSlice_apply _ _ _ _ _ (fun ax => by
    match ax with
    | ⟨0, _⟩ => rfl
    | ⟨1, _⟩ => exact (Nat.zero_add _).symm
    | ⟨2, _⟩ => exact (Nat.zero_add _).symm)

/-- Layer 2's row: the [1,128] slice at offset 2 of the stack, its unit axis dropped, at j. -/
theorem bslice2_apply (b : FVec Ideal S4x128 .f32) (j : Fin 128) :
    shapeCast S128 (extractStridedSlice S1x128 ![2, 0] b slices_S4x128_S1x128_2_0)
        shapeCasts_S1x128_S128 (ix1 j) = b (ix2 (2 : Fin 4) j) := by
  refine (shapeCast_1a_a_apply _ _ j).trans ?_
  exact extractStridedSlice_apply _ _ _ _ _ (fun ax => by
    match ax with
    | ⟨0, _⟩ => rfl
    | ⟨1, _⟩ => exact (Nat.zero_add _).symm)

/-- Layer 3's matrix: the [1,128,128] slice at offset 3 of the stack, its unit axis dropped, at (k, j). -/
theorem wslice3_apply (W : FVec Ideal S4x128x128 .f32) (k j : Fin 128) :
    shapeCast S128x128 (extractStridedSlice S1x128x128 ![3, 0, 0] W slices_S4x128x128_S1x128x128_3_0_0)
        shapeCasts_S1x128x128_S128x128 (ix2 k j) = W (ix3 (3 : Fin 4) k j) := by
  refine (shapeCast_1ab_ab_apply _ _ k j).trans ?_
  exact extractStridedSlice_apply _ _ _ _ _ (fun ax => by
    match ax with
    | ⟨0, _⟩ => rfl
    | ⟨1, _⟩ => exact (Nat.zero_add _).symm
    | ⟨2, _⟩ => exact (Nat.zero_add _).symm)

/-- Layer 3's row: the [1,128] slice at offset 3 of the stack, its unit axis dropped, at j. -/
theorem bslice3_apply (b : FVec Ideal S4x128 .f32) (j : Fin 128) :
    shapeCast S128 (extractStridedSlice S1x128 ![3, 0] b slices_S4x128_S1x128_3_0)
        shapeCasts_S1x128_S128 (ix1 j) = b (ix2 (3 : Fin 4) j) := by
  refine (shapeCast_1a_a_apply _ _ j).trans ?_
  exact extractStridedSlice_apply _ _ _ _ _ (fun ax => by
    match ax with
    | ⟨0, _⟩ => rfl
    | ⟨1, _⟩ => exact (Nat.zero_add _).symm)

end Cert.ReferenceIdeal.Math

end
-- ==== Proof.RefLayer0.lean ====
/-
  The reference's first layer as a value.

  A layer takes the node features h (50000 nodes, 128 features each) and two index vectors over the 600000 edges, the
  sources and the destinations. It forms the neighbour sum agg (the rows of h at the sources, added into a zero array at
  the destinations), then z = relu((h + agg)·W₁ + b₁)·W₂ + b₂ with the layer's rows of the stacked weights, then the
  column means E z and the column variances E (z − E z)² over the nodes, and returns relu((z − E z)·(Var z + ε)^(−1/2)·γ + β).

  The layer's operations are cut into five stages (the neighbour sum, the two affine maps, the means, the variances,
  the normalisation). Each stage leaves in its result buffer one explicit term of the contents before it, and leaves
  every buffer it does not write as it was; composed, the layer's result buffer holds the normalisation of z by the
  means and variances of z, where z is a term of the feature buffer, the two index vectors and the stacked arguments.
  Read at an entry (n, d) over the extended reals, each stage is the corresponding function of the specification, so the
  result buffer at (n, d) is the specification's layer with the variance taken from the centred entries.

  Before the first layer the two index vectors are made from the edge list: its row 0 and its row 1.
-/
import proofs.«414384_j72937134621131_1_alg».proof.Proof.RefOps
import proofs.«414384_j72937134621131_1_alg».proof.Proof.RefMath
import proofs.«414384_j72937134621131_1_alg».proof.Proof.Spec
import Idealize.ShloMosaic.Lib.StableHlo.Run
import Idealize.ShloMosaic.Lib.ValueIdx

-- reading a stage's result back through twenty operations walks the valuation once per operation
set_option maxHeartbeats 4000000

noncomputable section

namespace Cert.ReferenceIdeal.L0

open Cert.ReferenceIdeal Cert.ReferenceIdeal.Gen Cert.ReferenceIdeal.Run Idealize.ShloMosaic Idealize.ShloMosaic.TcCoe Idealize.SL.Sem Idealize.ShloMosaic.StableHlo Idealize.ShloMosaic.ValueIdx

variable {F : FTy → Type} [FloatOps F]

/-! ## The index vectors: the two rows of the edge list -/

section Pre

set_option maxRecDepth 8192 in
/-- The two rows of the edge list, each as a vector over the edges. -/
abbrev pre : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

/-- Row 0 of the edge list as a vector over the edges: the sources. -/
def srcOf (e : IVec S2x600000 32) : IVec S600000 32 :=
  shapeCast S600000 (extractStridedSlice S1x600000 ![0, 0] e slices_S2x600000_S1x600000_0_0) shapeCasts_S1x600000_S600000

/-- Row 1 of the edge list as a vector over the edges: the destinations. -/
def dstOf (e : IVec S2x600000 32) : IVec S600000 32 :=
  shapeCast S600000 (extractStridedSlice S1x600000 ![1, 0] e slices_S2x600000_S1x600000_1_0) shapeCasts_S1x600000_S600000

theorem pre_v1 (V : Valuation τ sig (Elt F)) :
    after pre V (Proc.devRef .tc main_v1) = srcOf (V (Proc.devRef .tc main_arg1)) := by
  show StableHlo.after pre V (Proc.devRef .tc main_v1) = _
  after_results
  rfl

theorem pre_v3 (V : Valuation τ sig (Elt F)) :
    after pre V (Proc.devRef .tc main_v3) = dstOf (V (Proc.devRef .tc main_arg1)) := by
  show StableHlo.after pre V (Proc.devRef .tc main_v3) = _
  after_results
  rfl

/-- The buffers the making of the index vectors writes. -/
abbrev pre_W : List (Ref sig .tc) := [main_v0, main_v1, main_v2, main_v3]
theorem pre_writes : (pre : List (HloOp τ sig (Elt F))).Forall fun op => op.writes ⊆ (pre_W.map (Proc.devRef (τ := τ) .tc)).toFinset := by
  simp only [List.Forall]
  repeat' apply And.intro
  all_goals
    (simp only [StableHlo.nullary_writes, StableHlo.unary_writes, StableHlo.binary_writes, StableHlo.ternary_writes,
      StableHlo.reshape_writes, Finset.singleton_subset_iff, List.mem_toFinset]
     exact List.mem_map_of_mem (by decide))
/-- A buffer it does not write keeps its contents. -/
theorem pre_keep (W : Valuation τ sig (Elt F)) (r : Ref sig .tc) (h : r ∉ pre_W) :
    after pre W (Proc.devRef .tc r) = W (Proc.devRef .tc r) :=
  after_of_writes_sub pre W pre_writes h

/-- Every argument of the program keeps its contents while the index vectors are made. -/
theorem pre_keep_args (V : Valuation τ sig (Elt F)) :
    ∀ r ∈ ([main_arg0, main_arg1, main_arg2, main_arg3, main_arg4, main_arg5, main_arg6, main_arg7, main_arg8,
        main_arg9, main_arg10, main_arg11, main_arg12] : List (Ref sig .tc)),
      after pre V (Proc.devRef .tc r) = V (Proc.devRef .tc r) :=
  fun r hr => pre_keep V r ((by decide : ∀ r ∈ ([main_arg0, main_arg1, main_arg2, main_arg3, main_arg4, main_arg5, main_arg6, main_arg7,
    main_arg8, main_arg9, main_arg10, main_arg11, main_arg12] : List (Ref sig .tc)), r ∉ pre_W) r hr)

end Pre

/-! ## The layer proper, from any contents of the feature buffer, the index vectors and the arguments -/

section Layer

set_option maxRecDepth 8192 in
/-- The neighbour sum, added to the features. -/
abbrev cA : List (HloOp τ sig (Elt F)) :=
  [ StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)) ]

set_option maxRecDepth 8192 in
/-- The two affine maps with the rectifier between. -/
abbrev cB : List (HloOp τ sig (Elt F)) :=
  [ StableHlo.unary main_arg3 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)), -- layer row
    StableHlo.reshape main_v15 main_v16 rfl shapeCasts_S1x128x128_S128x128,
    StableHlo.binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v18 ((extractStridedSlice S1x128 ![0, 0] · slices_S4x128_S1x128_0_0) : (⟨S4x128, .f32⟩ : BufTy).Contents (Elt F) → (⟨S1x128, .f32⟩ : BufTy).Contents (Elt F)), -- layer row
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v21 main_v22 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v22 : StableHlo.TRef sig ⟨S50000x128, .f32⟩) main_call0.v0 main_call0.v1 maximumf,
    StableHlo.unary main_arg5 main_v24 ((extractStridedSlice S1x128x128 ![0, 0, 0] · slices_S4x128x128_S1x128x128_0_0_0) : (⟨S4x128x128, .f32⟩ : BufTy).Contents (Elt F) → (⟨S1x128x128, .f32⟩ : BufTy).Contents (Elt F)), -- layer row
    StableHlo.reshape main_v24 main_v25 rfl shapeCasts_S1x128x128_S128x128,
    StableHlo.binary main_v23 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v27 ((extractStridedSlice S1x128 ![0, 0] · slices_S4x128_S1x128_0_0) : (⟨S4x128, .f32⟩ : BufTy).Contents (Elt F) → (⟨S1x128, .f32⟩ : BufTy).Contents (Elt F)), -- layer row
    StableHlo.reshape main_v27 main_v28 rfl shapeCasts_S1x128_S128,
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v30 main_v31 (addf : (⟨S50000x128, .f32⟩ : BufTy).Contents (Elt F) → (⟨S50000x128, .f32⟩ : BufTy).Contents (Elt F) → (⟨S50000x128, .f32⟩ : BufTy).Contents (Elt F)) ]

set_option maxRecDepth 8192 in
/-- The column means. -/
abbrev cC : List (HloOp τ sig (Elt F)) :=
  [ StableHlo.nullary main_cst_1 (constant S_ .f32 0x00000000#32),
    StableHlo.binary main_v31 main_cst_1 main_v32 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v33 (broadcastInDim S128 ![] bcast_S_S128 : (⟨S_, .f32⟩ : BufTy).Contents (Elt F) → (⟨S128, .f32⟩ : BufTy).Contents (Elt F)),
    StableHlo.binary main_v32 main_v33 main_v34 (Host.divf : (⟨S128, .f32⟩ : BufTy).Contents (Elt F) → (⟨S128, .f32⟩ : BufTy).Contents (Elt F) → (⟨S128, .f32⟩ : BufTy).Contents (Elt F)) ]

set_option maxRecDepth 8192 in
/-- The column variances. -/
abbrev cD : List (HloOp τ sig (Elt F)) :=
  [ StableHlo.nullary main_c_3 (constantI S_ 32 0#32),
    StableHlo.TRef.nullary main_call1.cst (constant S_ .f32 0x00000000#32),
    StableHlo.TRef.binary (.of main_v31 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v31 : StableHlo.TRef sig ⟨S50000x128, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

set_option maxRecDepth 8192 in
/-- The normalisation and the rectifier. -/
abbrev cE : List (HloOp τ sig (Elt F)) :=
  [ StableHlo.unary main_v34 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v37 main_v38 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v39 (broadcastInDim S128 ![] bcast_S_S128 : (⟨S_, .f32⟩ : BufTy).Contents (Elt F) → (⟨S128, .f32⟩ : BufTy).Contents (Elt F)),
    StableHlo.binary main_v35 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_arg7 main_v45 ((extractStridedSlice S1x128 ![0, 0] · slices_S4x128_S1x128_0_0) : (⟨S4x128, .f32⟩ : BufTy).Contents (Elt F) → (⟨S1x128, .f32⟩ : BufTy).Contents (Elt F)), -- layer row
    StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v48 main_v49 (mulf : (⟨S50000x128, .f32⟩ : BufTy).Contents (Elt F) → (⟨S50000x128, .f32⟩ : BufTy).Contents (Elt F) → (⟨S50000x128, .f32⟩ : BufTy).Contents (Elt F)),
    StableHlo.unary main_arg8 main_v50 ((extractStridedSlice S1x128 ![0, 0] · slices_S4x128_S1x128_0_0) : (⟨S4x128, .f32⟩ : BufTy).Contents (Elt F) → (⟨S1x128, .f32⟩ : BufTy).Contents (Elt F)), -- layer row
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v54 : StableHlo.TRef sig ⟨S50000x128, .f32⟩) main_call2.v0 main_call2.v1 maximumf ]

/-- The layer: its five stages in order. -/
abbrev body : List (HloOp τ sig (Elt F)) := cA ++ (cB ++ (cC ++ (cD ++ cE)))

/-! ### The layer's stages as terms -/

/-- The neighbour sum: the rows of h at the source nodes (a negative source wrapped by the node count), added into a zero array at the destination nodes. -/
def agg (h : FVec F S50000x128 .f32) (src dst : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- The layer's matrix in a stack of four: the slice at the layer's row, its unit axis dropped. -/
def wRow (a : FVec F S4x128x128 .f32) : FVec F S128x128 .f32 :=
  shapeCast S128x128 (extractStridedSlice S1x128x128 ![0, 0, 0] a slices_S4x128x128_S1x128x128_0_0_0) shapeCasts_S1x128x128_S128x128 -- layer row

/-- The layer's row in a stack of four: the slice at the layer's row, its unit axis dropped. -/
def bRow (a : FVec F S4x128 .f32) : FVec F S128 .f32 :=
  shapeCast S128 (extractStridedSlice S1x128 ![0, 0] a slices_S4x128_S1x128_0_0) shapeCasts_S1x128_S128 -- layer row

/-- relu(hs·W₁ + b₁)·W₂ + b₂, each row laid over the nodes. -/
def mlpT (hs : FVec F S50000x128 .f32) (W1 : FVec F S128x128 .f32) (b1 : FVec F S128 .f32) (W2 : FVec F S128x128 .f32)
    (b2 : FVec F S128 .f32) : FVec F S50000x128 .f32 :=
  addf (Host.dotGeneral dot_S50000x128_S128x128_S50000x128_1_0_0_1_n_n none
        (maximumf (addf (Host.dotGeneral dot_S50000x128_S128x128_S50000x128_1_0_0_1_n_n none hs W1) (broadcastInDim S50000x128 ![0, 1] bcast_S1x128_S50000x128_0_1 (broadcastInDim S1x128 ![1] bcast_S128_S1x128_1 b1)))
          (broadcastInDim S50000x128 ![] bcast_S_S50000x128 (constant S_ .f32 0x00000000#32))) W2)
      (broadcastInDim S50000x128 ![0, 1] bcast_S1x128_S50000x128_0_1 (broadcastInDim S1x128 ![1] bcast_S128_S1x128_1 b2))

/-- The column sums over the nodes divided by the node count. -/
def meanT (z : FVec F S50000x128 .f32) : FVec F S128 .f32 :=
  Host.divf (Host.reduceAdd z (constant S_ .f32 0x00000000#32) reducesTo_S50000x128_S128_d0 h_S_) (broadcastInDim S128 ![] bcast_S_S128 (constant S_ .f32 0x47435000#32))

/-- The column means laid over the nodes. -/
def meanOverT (z : FVec F S50000x128 .f32) : FVec F S50000x128 .f32 :=
  broadcastInDim S50000x128 ![0, 1] bcast_S1x128_S50000x128_0_1 (Host.divf (broadcastInDim S1x128 ![1] bcast_S128_S1x128_1 (Host.reduceAdd z (constant S_ .f32 0x00000000#32) reducesTo_S50000x128_S128_d0 h_S_)) (broadcastInDim S1x128 ![] bcast_S_S1x128 (constant S_ .f32 0x47435000#32)))

/-- The node count less the correction 0. -/
def denT : FVec F S_ .f32 := subf (constant S_ .f32 0x47435000#32) (sitofp (F := F) .f32 (constantI S_ 32 0#32))

/-- The column sums of the squared deviations from the column means, divided by the count less the correction where that is positive. -/
def varT (z : FVec F S50000x128 .f32) : FVec F S128 .f32 :=
  select (broadcastInDim S128 ![] bcast_S_S128 (cmpf .ogt (denT (F := F)) (constant S_ .f32 0x00000000#32)))
    (Host.divf (Host.reduceAdd (mulf (subf z (meanOverT z)) (subf z (meanOverT z))) (constant S_ .f32 0x00000000#32) reducesTo_S50000x128_S128_d0 h_S_) (broadcastInDim S128 ![] bcast_S_S128 (denT (F := F))))
    (broadcastInDim S128 ![] bcast_S_S128 (id (constant S_ .f32 0x7FC00000#32)))

/-- relu((z − μ)·(v + ε)^(−1/2)·γ + β), each row laid over the nodes. -/
def normT (z : FVec F S50000x128 .f32) (mu v g b : FVec F S128 .f32) : FVec F S50000x128 .f32 :=
  maximumf
    (addf
      (mulf
        (mulf (subf z (broadcastInDim S50000x128 ![0, 1] bcast_S1x128_S50000x128_0_1 (broadcastInDim S1x128 ![1] bcast_S128_S1x128_1 mu)))
          (broadcastInDim S50000x128 ![0, 1] bcast_S1x128_S50000x128_0_1 (broadcastInDim S1x128 ![1] bcast_S128_S1x128_1 (Host.rsqrt (addf v (broadcastInDim S128 ![] bcast_S_S128 (constant S_ .f32 0x3727C5AC#32)))))))
        (broadcastInDim S50000x128 ![0, 1] bcast_S1x128_S50000x128_0_1 (broadcastInDim S1x128 ![1] bcast_S128_S1x128_1 g)))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-! ### What each stage writes, and that it leaves the rest -/

/-- The buffers the neighbour sum writes. -/
abbrev cA_W : List (Ref sig .tc) := [main_c, main_v4, main_v5, main_c_0, main_v6, main_v7, main_v8, main_v9, main_v10, main_cst, main_v11, main_v12, main_v13, main_v14]
theorem cA_writes : (cA : List (HloOp τ sig (Elt F))).Forall fun op => op.writes ⊆ (cA_W.map (Proc.devRef (τ := τ) .tc)).toFinset := by
  simp only [List.Forall]
  repeat' apply And.intro
  all_goals
    (simp only [StableHlo.nullary_writes, StableHlo.unary_writes, StableHlo.binary_writes, StableHlo.ternary_writes,
      StableHlo.reshape_writes, Finset.singleton_subset_iff, List.mem_toFinset]
     exact List.mem_map_of_mem (by decide))
/-- A buffer it does not write keeps its contents. -/
theorem cA_keep (W : Valuation τ sig (Elt F)) (r : Ref sig .tc) (h : r ∉ cA_W) :
    after cA W (Proc.devRef .tc r) = W (Proc.devRef .tc r) :=
  after_of_writes_sub cA W cA_writes h

/-- The buffers the two affine maps writes. -/
abbrev cB_W : List (Ref sig .tc) := [main_v15, main_v16, main_v17, main_v18, main_v19, main_v20, main_v21, main_v22, main_call0.cst.ref, main_call0.v0.ref, main_call0.v1.ref, main_v24, main_v25, main_v26, main_v27, main_v28, main_v29, main_v30, main_v31]
theorem cB_writes : (cB : List (HloOp τ sig (Elt F))).Forall fun op => op.writes ⊆ (cB_W.map (Proc.devRef (τ := τ) .tc)).toFinset := by
  simp only [List.Forall]
  repeat' apply And.intro
  all_goals
    (simp only [StableHlo.nullary_writes, StableHlo.unary_writes, StableHlo.binary_writes, StableHlo.ternary_writes,
      StableHlo.reshape_writes, Finset.singleton_subset_iff, List.mem_toFinset]
     exact List.mem_map_of_mem (by decide))
/-- A buffer it does not write keeps its contents. -/
theorem cB_keep (W : Valuation τ sig (Elt F)) (r : Ref sig .tc) (h : r ∉ cB_W) :
    after cB W (Proc.devRef .tc r) = W (Proc.devRef .tc r) :=
  after_of_writes_sub cB W cB_writes h

/-- The buffers the column means writes. -/
abbrev cC_W : List (Ref sig .tc) := [main_cst_1, main_v32, main_cst_2, main_v33, main_v34]
theorem cC_writes : (cC : List (HloOp τ sig (Elt F))).Forall fun op => op.writes ⊆ (cC_W.map (Proc.devRef (τ := τ) .tc)).toFinset := by
  simp only [List.Forall]
  repeat' apply And.intro
  all_goals
    (simp only [StableHlo.nullary_writes, StableHlo.unary_writes, StableHlo.binary_writes, StableHlo.ternary_writes,
      StableHlo.reshape_writes, Finset.singleton_subset_iff, List.mem_toFinset]
     exact List.mem_map_of_mem (by decide))
/-- A buffer it does not write keeps its contents. -/
theorem cC_keep (W : Valuation τ sig (Elt F)) (r : Ref sig .tc) (h : r ∉ cC_W) :
    after cC W (Proc.devRef .tc r) = W (Proc.devRef .tc r) :=
  after_of_writes_sub cC W cC_writes h

/-- The buffers the column variances writes. -/
abbrev cD_W : List (Ref sig .tc) := [main_c_3, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref]
theorem cD_writes : (cD : List (HloOp τ sig (Elt F))).Forall fun op => op.writes ⊆ (cD_W.map (Proc.devRef (τ := τ) .tc)).toFinset := by
  simp only [List.Forall]
  repeat' apply And.intro
  all_goals
    (simp only [StableHlo.nullary_writes, StableHlo.unary_writes, StableHlo.binary_writes, StableHlo.ternary_writes,
      StableHlo.reshape_writes, Finset.singleton_subset_iff, List.mem_toFinset]
     exact List.mem_map_of_mem (by decide))
/-- A buffer it does not write keeps its contents. -/
theorem cD_keep (W : Valuation τ sig (Elt F)) (r : Ref sig .tc) (h : r ∉ cD_W) :
    after cD W (Proc.devRef .tc r) = W (Proc.devRef .tc r) :=
  after_of_writes_sub cD W cD_writes h

/-- The buffers the normalisation writes. -/
abbrev cE_W : List (Ref sig .tc) := [main_v36, main_v37, main_v38, main_cst_4, main_v39, main_v40, main_v41, main_v42, main_v43, main_v44, main_v45, main_v46, main_v47, main_v48, main_v49, main_v50, main_v51, main_v52, main_v53, main_v54, main_call2.cst.ref, main_call2.v0.ref, main_call2.v1.ref]
theorem cE_writes : (cE : List (HloOp τ sig (Elt F))).Forall fun op => op.writes ⊆ (cE_W.map (Proc.devRef (τ := τ) .tc)).toFinset := by
  simp only [List.Forall]
  repeat' apply And.intro
  all_goals
    (simp only [StableHlo.nullary_writes, StableHlo.unary_writes, StableHlo.binary_writes, StableHlo.ternary_writes,
      StableHlo.reshape_writes, Finset.singleton_subset_iff, List.mem_toFinset]
     exact List.mem_map_of_mem (by decide))
/-- A buffer it does not write keeps its contents. -/
theorem cE_keep (W : Valuation τ sig (Elt F)) (r : Ref sig .tc) (h : r ∉ cE_W) :
    after cE W (Proc.devRef .tc r) = W (Proc.devRef .tc r) :=
  after_of_writes_sub cE W cE_writes h

/-! ### What each stage leaves in its result buffer, from any contents W before it -/

/-- The neighbour sum added to the features. -/
theorem cA_v14 (W : Valuation τ sig (Elt F)) :
    after cA W (Proc.devRef .tc main_v14)
      = addf (W (Proc.devRef .tc main_arg0)) (agg (W (Proc.devRef .tc main_arg0)) (W (Proc.devRef .tc main_v1)) (W (Proc.devRef .tc main_v3))) := by
  show StableHlo.after cA W (Proc.devRef .tc main_v14) = _
  after_results
  rfl

/-- The two affine maps over the layer's rows of the stacked weights. -/
theorem cB_v31 (W : Valuation τ sig (Elt F)) :
    after cB W (Proc.devRef .tc main_v31)
      = mlpT (W (Proc.devRef .tc main_v14)) (wRow (W (Proc.devRef .tc main_arg3))) (bRow (W (Proc.devRef .tc main_arg4)))
          (wRow (W (Proc.devRef .tc main_arg5))) (bRow (W (Proc.devRef .tc main_arg6))) := by
  show StableHlo.after cB W (Proc.devRef .tc main_v31) = _
  after_results
  rfl

/-- The column means. -/
theorem cC_v34 (W : Valuation τ sig (Elt F)) :
    after cC W (Proc.devRef .tc main_v34) = meanT (W (Proc.devRef .tc main_v31)) := by
  show StableHlo.after cC W (Proc.devRef .tc main_v34) = _
  after_results
  rfl

/-- The column variances. -/
theorem cD_v35 (W : Valuation τ sig (Elt F)) :
    after cD W (Proc.devRef .tc main_v35) = varT (W (Proc.devRef .tc main_v31)) := by
  show StableHlo.after cD W (Proc.devRef .tc main_v35) = _
  after_results
  rfl

/-- The normalisation over the layer's rows of the stacked scales and shifts. -/
theorem cE_v55 (W : Valuation τ sig (Elt F)) :
    after cE W (Proc.devRef .tc main_v55)
      = normT (W (Proc.devRef .tc main_v31)) (W (Proc.devRef .tc main_v34)) (W (Proc.devRef .tc main_v35))
          (bRow (W (Proc.devRef .tc main_arg7))) (bRow (W (Proc.devRef .tc main_arg8))) := by
  show StableHlo.after cE W (Proc.devRef .tc main_v55) = _
  after_results_simp
  rfl

/-! ### The stages composed -/

/-- z = relu((h + agg)·W₁ + b₁)·W₂ + b₂ as a term of the feature array, the two index vectors and the four stacked arguments. -/
def zT (h : FVec F S50000x128 .f32) (src dst : IVec S600000 32) (a3 : FVec F S4x128x128 .f32) (a4 : FVec F S4x128 .f32)
    (a5 : FVec F S4x128x128 .f32) (a6 : FVec F S4x128 .f32) : FVec F S50000x128 .f32 :=
  mlpT (addf h (agg h src dst)) (wRow a3) (bRow a4) (wRow a5) (bRow a6)

/-- After the first two stages the buffer of z holds zT of the contents before them. -/
theorem cAB_v31 (V : Valuation τ sig (Elt F)) :
    after cB (after cA V) (Proc.devRef .tc main_v31)
      = zT (V (Proc.devRef .tc main_arg0)) (V (Proc.devRef .tc main_v1)) (V (Proc.devRef .tc main_v3))
          (V (Proc.devRef .tc main_arg3)) (V (Proc.devRef .tc main_arg4)) (V (Proc.devRef .tc main_arg5)) (V (Proc.devRef .tc main_arg6)) := by
  rw [cB_v31, cA_v14, cA_keep V main_arg3 (by decide), cA_keep V main_arg4 (by decide), cA_keep V main_arg5 (by decide),
    cA_keep V main_arg6 (by decide)]
  rfl

/-- The layer's result buffer after the whole layer: the normalisation of z by its column means and variances. -/
theorem body_v55 (V : Valuation τ sig (Elt F)) :
    after body V (Proc.devRef .tc main_v55)
      = normT
          (zT (V (Proc.devRef .tc main_arg0)) (V (Proc.devRef .tc main_v1)) (V (Proc.devRef .tc main_v3))
            (V (Proc.devRef .tc main_arg3)) (V (Proc.devRef .tc main_arg4)) (V (Proc.devRef .tc main_arg5)) (V (Proc.devRef .tc main_arg6)))
          (meanT (zT (V (Proc.devRef .tc main_arg0)) (V (Proc.devRef .tc main_v1)) (V (Proc.devRef .tc main_v3))
            (V (Proc.devRef .tc main_arg3)) (V (Proc.devRef .tc main_arg4)) (V (Proc.devRef .tc main_arg5)) (V (Proc.devRef .tc main_arg6))))
          (varT (zT (V (Proc.devRef .tc main_arg0)) (V (Proc.devRef .tc main_v1)) (V (Proc.devRef .tc main_v3))
            (V (Proc.devRef .tc main_arg3)) (V (Proc.devRef .tc main_arg4)) (V (Proc.devRef .tc main_arg5)) (V (Proc.devRef .tc main_arg6))))
          (bRow (V (Proc.devRef .tc main_arg7))) (bRow (V (Proc.devRef .tc main_arg8))) := by
  show after (cA ++ (cB ++ (cC ++ (cD ++ cE)))) V (Proc.devRef .tc main_v55) = _
  rw [after_append, after_append, after_append, after_append, cE_v55,
    cD_keep _ main_v31 (by decide), cD_keep _ main_v34 (by decide), cD_keep _ main_arg7 (by decide), cD_keep _ main_arg8 (by decide),
    cD_v35,
    cC_keep _ main_v31 (by decide), cC_keep _ main_arg7 (by decide), cC_keep _ main_arg8 (by decide),
    cC_v34,
    cB_keep _ main_arg7 (by decide), cB_keep _ main_arg8 (by decide),
    cAB_v31,
    cA_keep _ main_arg7 (by decide), cA_keep _ main_arg8 (by decide)]

/-- The buffers the layer writes. -/
abbrev body_W : List (Ref sig .tc) := cA_W ++ (cB_W ++ (cC_W ++ (cD_W ++ cE_W)))

/-- A buffer the layer does not write keeps its contents through the layer. -/
theorem kept (V : Valuation τ sig (Elt F)) (r : Ref sig .tc) (h : r ∉ body_W) :
    after body V (Proc.devRef .tc r) = V (Proc.devRef .tc r) := by
  have hA : r ∉ cA_W := fun hm => h (List.mem_append_left _ hm)
  have hB : r ∉ cB_W := fun hm => h (List.mem_append_right _ (List.mem_append_left _ hm))
  have hC : r ∉ cC_W := fun hm => h (List.mem_append_right _ (List.mem_append_right _ (List.mem_append_left _ hm)))
  have hD : r ∉ cD_W := fun hm => h (List.mem_append_right _ (List.mem_append_right _ (List.mem_append_right _ (List.mem_append_left _ hm))))
  have hE : r ∉ cE_W := fun hm => h (List.mem_append_right _ (List.mem_append_right _ (List.mem_append_right _ (List.mem_append_right _ hm))))
  show after (cA ++ (cB ++ (cC ++ (cD ++ cE)))) V (Proc.devRef .tc r) = _
  rw [after_append, after_append, after_append, after_append, cE_keep _ r hE, cD_keep _ r hD, cC_keep _ r hC, cB_keep _ r hB,
    cA_keep _ r hA]

/-- The two index vectors and every argument of the program keep their contents through the layer. -/
theorem kept_inputs (V : Valuation τ sig (Elt F)) :
    ∀ r ∈ ([main_v1, main_v3, main_arg0, main_arg1, main_arg2, main_arg3, main_arg4, main_arg5, main_arg6, main_arg7, main_arg8,
        main_arg9, main_arg10, main_arg11, main_arg12] : List (Ref sig .tc)),
      after body V (Proc.devRef .tc r) = V (Proc.devRef .tc r) :=
  fun r hr => kept V r ((by decide : ∀ r ∈ ([main_v1, main_v3, main_arg0, main_arg1, main_arg2, main_arg3, main_arg4, main_arg5, main_arg6,
    main_arg7, main_arg8, main_arg9, main_arg10, main_arg11, main_arg12] : List (Ref sig .tc)), r ∉ body_W) r hr)

/-! ### The stages read at an entry, over the extended reals -/

section Entry

/-- The layer's matrix at (k, j): the stack at (the layer's row, k, j). -/
theorem wRow_apply (a : FVec Ideal S4x128x128 .f32) (k j : Fin 128) : wRow a (ix2 k j) = a (ix3 (0 : Fin 4) k j) := -- layer row
  Math.wslice0_apply a k j -- layer row

/-- The layer's row at j: the stack at (the layer's row, j). -/
theorem bRow_apply (a : FVec Ideal S4x128 .f32) (j : Fin 128) : bRow a (ix1 j) = a (ix2 (0 : Fin 4) j) := -- layer row
  Math.bslice0_apply a j -- layer row

theorem mlpT_apply (hs : FVec Ideal S50000x128 .f32) (W1 : FVec Ideal S128x128 .f32) (b1 : FVec Ideal S128 .f32)
    (W2 : FVec Ideal S128x128 .f32) (b2 : FVec Ideal S128 .f32) (n : Fin 50000) (d : Fin 128) :
    mlpT hs W1 b1 W2 b2 (ix2 n d)
      = Cert.Gnn.mlp (fun i k => hs (ix2 i k)) (fun k j => W1 (ix2 k j)) (fun j => b1 (ix1 j)) (fun k j => W2 (ix2 k j))
          (fun j => b2 (ix1 j)) n d :=
  Math.mlp_apply hs W1 b1 W2 b2 n d

theorem meanT_apply (z : FVec Ideal S50000x128 .f32) (d : Fin 128) :
    meanT z (ix1 d) = Cert.Gnn.mean (fun i k => z (ix2 i k)) d :=
  Math.mean_apply z d

theorem varT_apply (z : FVec Ideal S50000x128 .f32) (d : Fin 128) :
    varT z (ix1 d) = Cert.Gnn.varDev (fun i k => z (ix2 i k)) d :=
  Math.var_apply z d

theorem normT_apply (z : FVec Ideal S50000x128 .f32) (mu v g b : FVec Ideal S128 .f32) (n : Fin 50000) (d : Fin 128) :
    normT z mu v g b (ix2 n d)
      = Cert.Gnn.norm (fun i k => z (ix2 i k)) (fun j => mu (ix1 j)) (fun j => v (ix1 j)) (fun j => g (ix1 j)) (fun j => b (ix1 j)) n d :=
  Math.norm_apply z mu v g b n d

/-- z at an entry: the two affine maps of h + agg over the layer's rows of the stacked weights. -/
theorem zT_apply (h : FVec Ideal S50000x128 .f32) (src dst : IVec S600000 32) (a3 : FVec Ideal S4x128x128 .f32) (a4 : FVec Ideal S4x128 .f32)
    (a5 : FVec Ideal S4x128x128 .f32) (a6 : FVec Ideal S4x128 .f32) :
    (fun i k => zT h src dst a3 a4 a5 a6 (ix2 i k))
      = Cert.Gnn.mlp (Cert.Gnn.plus (fun i k => h (ix2 i k)) (fun i k => agg h src dst (ix2 i k)))
          (fun k j => a3 (ix3 (0 : Fin 4) k j)) (fun j => a4 (ix2 (0 : Fin 4) j)) -- layer row
          (fun k j => a5 (ix3 (0 : Fin 4) k j)) (fun j => a6 (ix2 (0 : Fin 4) j)) := by -- layer row
  funext i k
  unfold zT
  rw [mlpT_apply]
  have e0 : (fun i k => addf h (agg h src dst) (ix2 i k)) = Cert.Gnn.plus (fun i k => h (ix2 i k)) (fun i k => agg h src dst (ix2 i k)) := by
    funext i k
    rw [addf_apply]
    rfl
  have e3 : (fun k j => wRow a3 (ix2 k j)) = fun k j => a3 (ix3 (0 : Fin 4) k j) := funext fun k => funext fun j => wRow_apply a3 k j -- layer row
  have e4 : (fun j => bRow a4 (ix1 j)) = fun j => a4 (ix2 (0 : Fin 4) j) := funext fun j => bRow_apply a4 j -- layer row
  have e5 : (fun k j => wRow a5 (ix2 k j)) = fun k j => a5 (ix3 (0 : Fin 4) k j) := funext fun k => funext fun j => wRow_apply a5 k j -- layer row
  have e6 : (fun j => bRow a6 (ix1 j)) = fun j => a6 (ix2 (0 : Fin 4) j) := funext fun j => bRow_apply a6 j -- layer row
  rw [e0, e3, e4, e5, e6]

/-- The normalisation of any z by its own column means and variances, at an entry. -/
theorem normOf_apply (z : FVec Ideal S50000x128 .f32) (a7 a8 : FVec Ideal S4x128 .f32) (n : Fin 50000) (d : Fin 128) :
    normT z (meanT z) (varT z) (bRow a7) (bRow a8) (ix2 n d)
      = Cert.Gnn.norm (fun i k => z (ix2 i k)) (Cert.Gnn.mean (fun i k => z (ix2 i k))) (Cert.Gnn.varDev (fun i k => z (ix2 i k)))
          (fun j => a7 (ix2 (0 : Fin 4) j)) (fun j => a8 (ix2 (0 : Fin 4) j)) n d := by -- layer row
  rw [normT_apply]
  have em : (fun j => meanT z (ix1 j)) = Cert.Gnn.mean (fun i k => z (ix2 i k)) := funext fun j => meanT_apply z j
  have ev : (fun j => varT z (ix1 j)) = Cert.Gnn.varDev (fun i k => z (ix2 i k)) := funext fun j => varT_apply z j
  have e7 : (fun j => bRow a7 (ix1 j)) = fun j => a7 (ix2 (0 : Fin 4) j) := funext fun j => bRow_apply a7 j -- layer row
  have e8 : (fun j => bRow a8 (ix1 j)) = fun j => a8 (ix2 (0 : Fin 4) j) := funext fun j => bRow_apply a8 j -- layer row
  rw [em, ev, e7, e8]

/-- THE LAYER: the result buffer after the layer, at entry (n, d), is the specification's layer (variance from the centred entries) of the
    feature buffer, the neighbour sum, and the layer's rows of the six stacked arguments. -/
theorem layer (V : Valuation τ sig (Elt Ideal)) (n : Fin 50000) (d : Fin 128) :
    after body V (Proc.devRef .tc main_v55) (ix2 n d)
      = Cert.Gnn.layerDev (fun i k => V (Proc.devRef .tc main_arg0) (ix2 i k))
          (fun i k => agg (F := Ideal) (V (Proc.devRef .tc main_arg0)) (V (Proc.devRef .tc main_v1)) (V (Proc.devRef .tc main_v3)) (ix2 i k))
          (fun k j => V (Proc.devRef .tc main_arg3) (ix3 (0 : Fin 4) k j)) -- layer row
          (fun j => V (Proc.devRef .tc main_arg4) (ix2 (0 : Fin 4) j)) -- layer row
          (fun k j => V (Proc.devRef .tc main_arg5) (ix3 (0 : Fin 4) k j)) -- layer row
          (fun j => V (Proc.devRef .tc main_arg6) (ix2 (0 : Fin 4) j)) -- layer row
          (fun j => V (Proc.devRef .tc main_arg7) (ix2 (0 : Fin 4) j)) -- layer row
          (fun j => V (Proc.devRef .tc main_arg8) (ix2 (0 : Fin 4) j)) n d := by -- layer row
  rw [body_v55]
  refine (normOf_apply _ _ _ n d).trans ?_
  rw [zT_apply]
  rfl

end Entry

/-! ### Names for what the layer reads and leaves, at any contents -/

section Names

variable (V : Valuation τ sig (Elt Ideal))

abbrev featOf : FVec Ideal S50000x128 .f32 := V (Proc.devRef .tc main_arg0)
abbrev srcAt : IVec S600000 32 := V (Proc.devRef .tc main_v1)
abbrev dstAt : IVec S600000 32 := V (Proc.devRef .tc main_v3)
abbrev w1At : FVec Ideal S4x128x128 .f32 := V (Proc.devRef .tc main_arg3)
abbrev b1At : FVec Ideal S4x128 .f32 := V (Proc.devRef .tc main_arg4)
abbrev w2At : FVec Ideal S4x128x128 .f32 := V (Proc.devRef .tc main_arg5)
abbrev b2At : FVec Ideal S4x128 .f32 := V (Proc.devRef .tc main_arg6)
abbrev gAt : FVec Ideal S4x128 .f32 := V (Proc.devRef .tc main_arg7)
abbrev bAt : FVec Ideal S4x128 .f32 := V (Proc.devRef .tc main_arg8)
/-- The features the layer leaves. -/
abbrev outOf : FVec Ideal S50000x128 .f32 := after body V (Proc.devRef .tc main_v55)

end Names

end Layer

/-! ## The first layer whole: the index vectors made, then the layer -/

section Whole

set_option maxRecDepth 8192 in
/-- The first layer's operations are the making of the index vectors followed by the layer. -/
theorem opsL0_eq : (opsL0 : List (HloOp τ sig (Elt F))) = pre ++ body := rfl

/-- The contents after the first layer's operations: the layer run from the contents after the index vectors are made. -/
theorem after_opsL0 (V : Valuation τ sig (Elt F)) : after opsL0 V = after body (after pre V) := by
  rw [opsL0_eq, after_append]

/-- The first layer's result at entry (n, d): the specification's layer of the input features, their neighbour sum along the
    edge list's two rows, and row 0 of the six stacked arguments. -/
theorem layer0 (V : Valuation τ sig (Elt Ideal)) (n : Fin 50000) (d : Fin 128) :
    after opsL0 V (Proc.devRef .tc main_v55) (ix2 n d)
      = Cert.Gnn.layerDev (fun i k => V (Proc.devRef .tc main_arg0) (ix2 i k))
          (fun i k => agg (F := Ideal) (V (Proc.devRef .tc main_arg0)) (srcOf (V (Proc.devRef .tc main_arg1))) (dstOf (V (Proc.devRef .tc main_arg1))) (ix2 i k))
          (fun k j => V (Proc.devRef .tc main_arg3) (ix3 (0 : Fin 4) k j))
          (fun j => V (Proc.devRef .tc main_arg4) (ix2 (0 : Fin 4) j))
          (fun k j => V (Proc.devRef .tc main_arg5) (ix3 (0 : Fin 4) k j))
          (fun j => V (Proc.devRef .tc main_arg6) (ix2 (0 : Fin 4) j))
          (fun j => V (Proc.devRef .tc main_arg7) (ix2 (0 : Fin 4) j))
          (fun j => V (Proc.devRef .tc main_arg8) (ix2 (0 : Fin 4) j)) n d := by
  rw [after_opsL0, layer, pre_v1, pre_v3, pre_keep V main_arg0 (by decide), pre_keep V main_arg3 (by decide),
    pre_keep V main_arg4 (by decide), pre_keep V main_arg5 (by decide), pre_keep V main_arg6 (by decide),
    pre_keep V main_arg7 (by decide), pre_keep V main_arg8 (by decide)]

/-- A buffer that neither the making of the index vectors nor the layer writes keeps its contents through the first layer. -/
theorem kept0 (V : Valuation τ sig (Elt F)) (r : Ref sig .tc) (hp : r ∉ pre_W) (hb : r ∉ body_W) :
    after opsL0 V (Proc.devRef .tc r) = V (Proc.devRef .tc r) := by
  rw [after_opsL0, kept _ r hb, pre_keep V r hp]

/-- The index vectors after the first layer are the edge list's two rows. -/
theorem opsL0_v1 (V : Valuation τ sig (Elt F)) :
    after opsL0 V (Proc.devRef .tc main_v1) = srcOf (V (Proc.devRef .tc main_arg1)) := by
  rw [after_opsL0, kept _ main_v1 (by decide), pre_v1]

theorem opsL0_v3 (V : Valuation τ sig (Elt F)) :
    after opsL0 V (Proc.devRef .tc main_v3) = dstOf (V (Proc.devRef .tc main_arg1)) := by
  rw [after_opsL0, kept _ main_v3 (by decide), pre_v3]

end Whole

end Cert.ReferenceIdeal.L0

end
-- ==== Proof.Step.lean ====
/-
  One layer of the two programs, side by side.

  The kernel program's layer output is the layer function with the variance E z² − (E z)², the reference's the one
  with E (z − E z)², each of its own features, neighbour sums and parameters.  If those inputs agree and are real, the
  two outputs are one array, and it is real: what the next layer needs.  The neighbour sums of real features are real:
  a scatter-add into zeros of gathered rows is, entry by entry, a finite sum of entries of the features.
-/
import proofs.«414384_j72937134621131_1_alg».proof.Proof.Glue
import proofs.«414384_j72937134621131_1_alg».proof.Proof.LibHostReal

noncomputable section

namespace Cert.Gnn

open Idealize.ShloMosaic Idealize.ShloMosaic.ValueIdx Cert.Alg

abbrev Feat : Type := (⟨2, ![50000, 128]⟩ : Shape).Idx → EReal

/-- THE LAYER, ON BOTH SIDES: equal real inputs give one real output. -/
theorem two_layers {featK featR aggK aggR outK outR : Feat} {W1K W1R W2K W2R : Mat 128 128}
    {b1K b1R b2K b2R gK gR bK bR : Row 128}
    (hK : ∀ n d, outK (ix2 n d) = layerSq (toMat featK) (toMat aggK) W1K b1K W2K b2K gK bK n d)
    (hR : ∀ n d, outR (ix2 n d) = layerDev (toMat featR) (toMat aggR) W1R b1R W2R b2R gR bR n d)
    (hfeat : featK = featR) (hagg : aggK = aggR) (hW1 : W1K = W1R) (hb1 : b1K = b1R) (hW2 : W2K = W2R) (hb2 : b2K = b2R)
    (hg : gK = gR) (hb : bK = bR)
    (rfeat : ∀ i, IsReal (featR i)) (ragg : ∀ i, IsReal (aggR i)) (rW1 : MatReal W1R) (rb1 : RowReal b1R)
    (rW2 : MatReal W2R) (rb2 : RowReal b2R) (rg : RowReal gR) (rb : RowReal bR) :
    outK = outR ∧ ∀ i, IsReal (outR i) := by
  subst hfeat hagg hW1 hb1 hW2 hb2 hg hb
  obtain ⟨e, r⟩ := layer_step (hK := toMat featK) (hR := toMat featK) rfl rfl (toMat_real rfeat) (toMat_real ragg) rW1 rb1 rW2 rb2 rg rb
  exact ⟨arr_ext fun n d => by rw [hK n d, hR n d, e], real_of_toMat fun n d => by
    show IsReal (outR (ix2 n d)); rw [hR n d]; exact r n d⟩

/-- The neighbour sums of real features are real. -/
theorem agg_real {s si u : Shape} {w : Nat} {φ : FTy} (sd : ScatterDims s si u) (z : FVec Ideal s φ) (idx : IVec si w)
    (upd : FVec Ideal u φ) (hz : ∀ i, IsReal (z i)) (hu : ∀ j, IsReal (upd j)) : ∀ i, IsReal (Host.scatterAdd sd z idx upd i) :=
  isReal_scatterAdd sd z idx upd hz hu

end Cert.Gnn

end
-- ==== Proof.Join0.lean ====
/-
  The two programs' layer, joined.

  Where a layer starts, suppose the kernel program's features, edge sources and targets and its stacked parameters are
  the reference's (the weights, which the kernel holds in the matmul's narrow format, entry by entry), every source
  index lies in [0, 50000), and the features and parameters are real.  Then the features the kernel program's second
  kernel leaves are the features the reference's layer leaves, and they are real.  The neighbour sums are one function
  of the features and the edges on both sides, and real where the features are.
-/
import proofs.«414384_j72937134621131_1_alg».proof.Proof.KLayer0
import proofs.«414384_j72937134621131_1_alg».proof.Proof.RefLayer0
import proofs.«414384_j72937134621131_1_alg».proof.Proof.Step

set_option maxRecDepth 16384

noncomputable section

namespace Cert.Join0

open Idealize.ShloMosaic Idealize.ShloMosaic.TcCoe Idealize.SL.Sem Idealize.ShloMosaic.ValueIdx Cert.Alg Cert.Gnn

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

/-- The neighbour sums are the same function of features and edges in the two programs. -/
theorem agg_same (h : Feat) (s d : IVec ⟨1, ![600000]⟩ 32) :
    Cert.KernelIdeal.KLayer0.agg h s d = Cert.ReferenceIdeal.L0.agg (F := Ideal) h s d := rfl

/-- The neighbour sums of real features are real. -/
theorem agg_is_real (h : Feat) (s d : IVec ⟨1, ![600000]⟩ 32) (hh : ∀ i, IsReal (h i)) :
    ∀ i, IsReal (Cert.ReferenceIdeal.L0.agg (F := Ideal) h s d i) := by
  unfold Cert.ReferenceIdeal.L0.agg
  exact agg_real _ _ _ _
    (isReal_broadcastInDim _ _ _ _ (isReal_constant isReal_ofBits_zero))
    (isReal_gather _ _ _ hh)

theorem join
    (hfeat : Cert.KernelIdeal.KLayer0.feat m ρ c = Cert.ReferenceIdeal.L0.featOf V)
    (hsrc : Cert.KernelIdeal.KLayer0.src m ρ c = Cert.ReferenceIdeal.L0.srcAt V)
    (hdst : Cert.KernelIdeal.KLayer0.dst m ρ c = Cert.ReferenceIdeal.L0.dstAt V)
    (hw1 : ∀ i, Cert.KernelIdeal.KLayer0.w1s m ρ c i = Cert.ReferenceIdeal.L0.w1At V i)
    (hb1 : Cert.KernelIdeal.KLayer0.b1s m ρ c = Cert.ReferenceIdeal.L0.b1At V)
    (hw2 : ∀ i, Cert.KernelIdeal.KLayer0.w2s m ρ c i = Cert.ReferenceIdeal.L0.w2At V i)
    (hb2 : Cert.KernelIdeal.KLayer0.b2s m ρ c = Cert.ReferenceIdeal.L0.b2At V)
    (hg : Cert.KernelIdeal.KLayer0.gs m ρ c = Cert.ReferenceIdeal.L0.gAt V)
    (hb : Cert.KernelIdeal.KLayer0.bs m ρ c = Cert.ReferenceIdeal.L0.bAt V)
    (range : ∀ e, IntOp.cmpi .sge (Cert.ReferenceIdeal.L0.srcAt V e) 0#32 = 1#1 ∧ IntOp.cmpi .slt (Cert.ReferenceIdeal.L0.srcAt V e) 50000#32 = 1#1)
    (rfeat : ∀ i, IsReal (Cert.ReferenceIdeal.L0.featOf V i))
    (rw1 : ∀ i, IsReal (Cert.ReferenceIdeal.L0.w1At V i)) (rb1 : ∀ i, IsReal (Cert.ReferenceIdeal.L0.b1At V i))
    (rw2 : ∀ i, IsReal (Cert.ReferenceIdeal.L0.w2At V i)) (rb2 : ∀ i, IsReal (Cert.ReferenceIdeal.L0.b2At V i))
    (rg : ∀ i, IsReal (Cert.ReferenceIdeal.L0.gAt V i)) (rb : ∀ i, IsReal (Cert.ReferenceIdeal.L0.bAt V i)) :
    Cert.KernelIdeal.KLayer0.out m ρ c = Cert.ReferenceIdeal.L0.outOf V ∧ ∀ i, IsReal (Cert.ReferenceIdeal.L0.outOf V i) := by
  have hsrcK : ∀ e, IntOp.cmpi .sge (Cert.KernelIdeal.KLayer0.src m ρ c e) 0#32 = 1#1
      ∧ IntOp.cmpi .slt (Cert.KernelIdeal.KLayer0.src m ρ c e) 50000#32 = 1#1 := fun e => by rw [hsrc]; exact range e
  refine two_layers
    (featK := Cert.KernelIdeal.KLayer0.feat m ρ c) (featR := Cert.ReferenceIdeal.L0.featOf V)
    (aggK := Cert.KernelIdeal.KLayer0.agg (Cert.KernelIdeal.KLayer0.feat m ρ c) (Cert.KernelIdeal.KLayer0.src m ρ c) (Cert.KernelIdeal.KLayer0.dst m ρ c))
    (aggR := Cert.ReferenceIdeal.L0.agg (F := Ideal) (Cert.ReferenceIdeal.L0.featOf V) (Cert.ReferenceIdeal.L0.srcAt V) (Cert.ReferenceIdeal.L0.dstAt V))
    (fun n d => Cert.KernelIdeal.KLayer0.layer m ρ c hsrcK n d)
    (fun n d => Cert.ReferenceIdeal.L0.layer V n d)
    hfeat (by rw [hfeat, hsrc, hdst]; exact agg_same _ _ _)
    (funext fun k => funext fun j => hw1 _) (funext fun j => congrFun hb1 _) (funext fun k => funext fun j => hw2 _)
    (funext fun j => congrFun hb2 _) (funext fun j => congrFun hg _) (funext fun j => congrFun hb _)
    rfeat (agg_is_real _ _ _ rfeat) (fun k j => rw1 _) (fun j => rb1 _) (fun k j => rw2 _) (fun j => rb2 _)
    (fun j => rg _) (fun j => rb _)

end Cert.Join0

end
-- ==== Proof.RefRun.lean ====
/- The reference program's run. @main is the straight line of host operations `ops` (its five windows and the
   outlined functions' bodies unfold to that line, step for step); every operation touches TensorCore buffers only and
   determines what it writes; the signature scopes nothing. Hence every weakly fair execution of @main terminates
   with each TensorCore buffer holding the fold of the operations' results over what the launch put there. -/
import proofs.«414384_j72937134621131_1_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- @main is that straight line: its windows in order, each call the callee's body at the call's buffers, are the
    listed operations one after the other, by unfolding. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- A one-element line. -/
private theorem forall_one {α : Type _} {p : α → Prop} {x : α} (h : p x) : List.Forall p [x] := h

/-- Every operation of a literal line reads and writes TensorCore buffers only: one fact per operation, by its arity. -/
local macro "bufs_sub_line" : tactic =>
  `(tactic| repeat' (first
      | with_reducible exact nullary_bufs_sub .. | with_reducible exact unary_bufs_sub .. | with_reducible exact binary_bufs_sub ..
      | with_reducible exact ternary_bufs_sub .. | with_reducible exact reshape_bufs_sub .. | apply And.intro | apply forall_one))

theorem opsL0_sub : (opsL0 : List (HloOp τ sig (Elt F))).Forall fun op => op.bufs ⊆ tcRefs τ sig := by bufs_sub_line
theorem opsL1_sub : (opsL1 : List (HloOp τ sig (Elt F))).Forall fun op => op.bufs ⊆ tcRefs τ sig := by bufs_sub_line
theorem opsL2_sub : (opsL2 : List (HloOp τ sig (Elt F))).Forall fun op => op.bufs ⊆ tcRefs τ sig := by bufs_sub_line
theorem opsL3_sub : (opsL3 : List (HloOp τ sig (Elt F))).Forall fun op => op.bufs ⊆ tcRefs τ sig := by bufs_sub_line
theorem opsTail_sub : (opsTail : List (HloOp τ sig (Elt F))).Forall fun op => op.bufs ⊆ tcRefs τ sig := by bufs_sub_line

theorem ops_sub : (ops : List (HloOp τ sig (Elt F))).Forall fun op => op.bufs ⊆ tcRefs τ sig :=
  List.forall_append.2 ⟨List.forall_append.2 ⟨List.forall_append.2 ⟨List.forall_append.2 ⟨opsL0_sub, opsL1_sub⟩, opsL2_sub⟩, opsL3_sub⟩, opsTail_sub⟩

/-- Every operation of a literal line determines what it writes: one fact per operation, by unfolding. -/
local macro "fresh_line" : tactic => `(tactic| repeat' (first | rfl | apply And.intro))

theorem opsL0_fresh : (opsL0 : List (HloOp τ sig (Elt F))).Forall fun op => op.fresh = ∅ := by fresh_line
theorem opsL1_fresh : (opsL1 : List (HloOp τ sig (Elt F))).Forall fun op => op.fresh = ∅ := by fresh_line
theorem opsL2_fresh : (opsL2 : List (HloOp τ sig (Elt F))).Forall fun op => op.fresh = ∅ := by fresh_line
theorem opsL3_fresh : (opsL3 : List (HloOp τ sig (Elt F))).Forall fun op => op.fresh = ∅ := by fresh_line
theorem opsTail_fresh : (opsTail : List (HloOp τ sig (Elt F))).Forall fun op => op.fresh = ∅ := by fresh_line

theorem ops_fresh : ∀ op ∈ (ops : List (HloOp τ sig (Elt F))), op.fresh = ∅ :=
  List.forall_iff_forall_mem.1
    (List.forall_append.2 ⟨List.forall_append.2 ⟨List.forall_append.2 ⟨List.forall_append.2 ⟨opsL0_fresh, opsL1_fresh⟩, opsL2_fresh⟩, opsL3_fresh⟩, opsTail_fresh⟩)

/-- The fold over two lines in a row is the second line's fold of the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over @main's line, layer by layer: each layer's line folds over what the layers before it left. -/
theorem after_ops (V : Valuation τ sig (Elt F)) :
    after ops V = after opsTail (after opsL3 (after opsL2 (after opsL1 (after opsL0 V)))) := by
  rw [after_app, after_app, after_app, after_app]

/-- On every device, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Run

end
-- ==== Proof.RefChain.lean ====
/-
  What the reference's line of operations leaves alone. No operation of @main writes an argument's buffer: each
  writes the one buffer of the value it defines, and every such buffer is another reference than the thirteen
  arguments. So, read at an argument, the fold over any layer's line, and over the whole line, is what was there.
  Likewise the edge sources and targets (the two rows of the edge list, each reshaped to a vector) are written by
  the first four operations of layer 0 only: the later layers' lines leave them as layer 0 left them.
-/
import proofs.«414384_j72937134621131_1_alg».proof.Proof.RefRun
import Idealize.ShloMosaic.Lib.StableHlo.Run

set_option maxRecDepth 16384

noncomputable section

namespace Cert.ReferenceIdeal.Chain

open Cert.ReferenceIdeal Cert.ReferenceIdeal.Gen Cert.ReferenceIdeal.Run
open Idealize.ShloMosaic Idealize.ShloMosaic.TcCoe Idealize.SL.Sem

variable {F : FTy → Type} [FloatOps F]

/-- The thirteen arguments of @main. -/
abbrev args : List (Ref sig .tc) :=
  [main_arg0, main_arg1, main_arg2, main_arg3, main_arg4, main_arg5, main_arg6, main_arg7, main_arg8, main_arg9, main_arg10, main_arg11, main_arg12]

/-- The edge sources and the edge targets: the rows of the edge list as vectors. -/
abbrev edges : List (Ref sig .tc) := [main_v1, main_v3]

/-- A buffer that no operation of a line writes keeps its contents: each operation writes its one result buffer,
    and that reference differs from the buffer read. -/
macro "kept_line" : tactic => `(tactic| (
  refine StableHlo.after_of_forall_not_mem _ _ (List.forall_iff_forall_mem.mp ?_)
  simp only [opsL0, opsL1, opsL2, opsL3, opsTail, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The arguments -/

set_option maxHeartbeats 4000000 in
/-- No operation of layer 0's line writes an argument. -/
theorem opsL0_args (V : Valuation τ sig (Elt F)) (b : Ref sig .tc) (hb : b ∈ args) :
    StableHlo.after (opsL0 (F := F)) V (Proc.devRef .tc b) = V (Proc.devRef .tc b) := by
  simp only [args, List.mem_cons, List.not_mem_nil, or_false] at hb
  rcases hb with rfl | rfl | rfl | rfl | rfl | rfl | rfl | rfl | rfl | rfl | rfl | rfl | rfl
  all_goals kept_line

set_option maxHeartbeats 4000000 in
/-- No operation of layer 1's line writes an argument. -/
theorem opsL1_args (V : Valuation τ sig (Elt F)) (b : Ref sig .tc) (hb : b ∈ args) :
    StableHlo.after (opsL1 (F := F)) V (Proc.devRef .tc b) = V (Proc.devRef .tc b) := by
  simp only [args, List.mem_cons, List.not_mem_nil, or_false] at hb
  rcases hb with rfl | rfl | rfl | rfl | rfl | rfl | rfl | rfl | rfl | rfl | rfl | rfl | rfl
  all_goals kept_line

set_option maxHeartbeats 4000000 in
/-- No operation of layer 2's line writes an argument. -/
theorem opsL2_args (V : Valuation τ sig (Elt F)) (b : Ref sig .tc) (hb : b ∈ args) :
    StableHlo.after (opsL2 (F := F)) V (Proc.devRef .tc b) = V (Proc.devRef .tc b) := by
  simp only [args, List.mem_cons, List.not_mem_nil, or_false] at hb
  rcases hb with rfl | rfl | rfl | rfl | rfl | rfl | rfl | rfl | rfl | rfl | rfl | rfl | rfl
  all_goals kept_line

set_option maxHeartbeats 4000000 in
/-- No operation of layer 3's line writes an argument. -/
theorem opsL3_args (V : Valuation τ sig (Elt F)) (b : Ref sig .tc) (hb : b ∈ args) :
    StableHlo.after (opsL3 (F := F)) V (Proc.devRef .tc b) = V (Proc.devRef .tc b) := by
  simp only [args, List.mem_cons, List.not_mem_nil, or_false] at hb
  rcases hb with rfl | rfl | rfl | rfl | rfl | rfl | rfl | rfl | rfl | rfl | rfl | rfl | rfl
  all_goals kept_line

set_option maxHeartbeats 4000000 in
/-- No operation of the tail's line writes an argument. -/
theorem opsTail_args (V : Valuation τ sig (Elt F)) (b : Ref sig .tc) (hb : b ∈ args) :
    StableHlo.after (opsTail (F := F)) V (Proc.devRef .tc b) = V (Proc.devRef .tc b) := by
  simp only [args, List.mem_cons, List.not_mem_nil, or_false] at hb
  rcases hb with rfl | rfl | rfl | rfl | rfl | rfl | rfl | rfl | rfl | rfl | rfl | rfl | rfl
  all_goals kept_line

/-- The arguments after layers 0 and 1. -/
theorem args_kept1 (V : Valuation τ sig (Elt F)) (b : Ref sig .tc) (hb : b ∈ args) :
    StableHlo.after (opsL1 (F := F)) (StableHlo.after opsL0 V) (Proc.devRef .tc b) = V (Proc.devRef .tc b) :=
  (opsL1_args _ b hb).trans (opsL0_args V b hb)

/-- The arguments after layers 0, 1 and 2. -/
theorem args_kept2 (V : Valuation τ sig (Elt F)) (b : Ref sig .tc) (hb : b ∈ args) :
    StableHlo.after (opsL2 (F := F)) (StableHlo.after opsL1 (StableHlo.after opsL0 V)) (Proc.devRef .tc b)
      = V (Proc.devRef .tc b) :=
  (opsL2_args _ b hb).trans (args_kept1 V b hb)

/-- The arguments after the four layers. -/
theorem args_kept3 (V : Valuation τ sig (Elt F)) (b : Ref sig .tc) (hb : b ∈ args) :
    StableHlo.after (opsL3 (F := F)) (StableHlo.after opsL2 (StableHlo.after opsL1 (StableHlo.after opsL0 V)))
        (Proc.devRef .tc b)
      = V (Proc.devRef .tc b) :=
  (opsL3_args _ b hb).trans (args_kept2 V b hb)

/-- The arguments end as launched: the whole line writes none of them. -/
theorem args_kept (V : Valuation τ sig (Elt F)) (b : Ref sig .tc) (hb : b ∈ args) :
    StableHlo.after (ops (F := F)) V (Proc.devRef .tc b) = V (Proc.devRef .tc b) := by
  rw [after_ops]
  exact (opsTail_args _ b hb).trans (args_kept3 V b hb)

/-! ## The edge sources and targets -/

set_option maxHeartbeats 1000000 in
/-- No operation of layer 1's line writes the edge sources or the edge targets. -/
theorem opsL1_edges (V : Valuation τ sig (Elt F)) (b : Ref sig .tc) (hb : b ∈ edges) :
    StableHlo.after (opsL1 (F := F)) V (Proc.devRef .tc b) = V (Proc.devRef .tc b) := by
  simp only [edges, List.mem_cons, List.not_mem_nil, or_false] at hb
  rcases hb with rfl | rfl
  all_goals kept_line

set_option maxHeartbeats 1000000 in
/-- No operation of layer 2's line writes the edge sources or the edge targets. -/
theorem opsL2_edges (V : Valuation τ sig (Elt F)) (b : Ref sig .tc) (hb : b ∈ edges) :
    StableHlo.after (opsL2 (F := F)) V (Proc.devRef .tc b) = V (Proc.devRef .tc b) := by
  simp only [edges, List.mem_cons, List.not_mem_nil, or_false] at hb
  rcases hb with rfl | rfl
  all_goals kept_line

set_option maxHeartbeats 1000000 in
/-- No operation of layer 3's line writes the edge sources or the edge targets. -/
theorem opsL3_edges (V : Valuation τ sig (Elt F)) (b : Ref sig .tc) (hb : b ∈ edges) :
    StableHlo.after (opsL3 (F := F)) V (Proc.devRef .tc b) = V (Proc.devRef .tc b) := by
  simp only [edges, List.mem_cons, List.not_mem_nil, or_false] at hb
  rcases hb with rfl | rfl
  all_goals kept_line

set_option maxHeartbeats 1000000 in
/-- No operation of the tail's line writes the edge sources or the edge targets. -/
theorem opsTail_edges (V : Valuation τ sig (Elt F)) (b : Ref sig .tc) (hb : b ∈ edges) :
    StableHlo.after (opsTail (F := F)) V (Proc.devRef .tc b) = V (Proc.devRef .tc b) := by
  simp only [edges, List.mem_cons, List.not_mem_nil, or_false] at hb
  rcases hb with rfl | rfl
  all_goals kept_line

/-- The edge sources and targets after layers 1 and 2, from what layer 0 left. -/
theorem edges_kept2 (W : Valuation τ sig (Elt F)) (b : Ref sig .tc) (hb : b ∈ edges) :
    StableHlo.after (opsL2 (F := F)) (StableHlo.after opsL1 W) (Proc.devRef .tc b) = W (Proc.devRef .tc b) :=
  (opsL2_edges _ b hb).trans (opsL1_edges W b hb)

/-- The edge sources and targets after layers 1, 2 and 3, from what layer 0 left. -/
theorem edges_kept3 (W : Valuation τ sig (Elt F)) (b : Ref sig .tc) (hb : b ∈ edges) :
    StableHlo.after (opsL3 (F := F)) (StableHlo.after opsL2 (StableHlo.after opsL1 W)) (Proc.devRef .tc b)
      = W (Proc.devRef .tc b) :=
  (opsL3_edges _ b hb).trans (edges_kept2 W b hb)

end Cert.ReferenceIdeal.Chain
-- ==== Proof.Tail.lean ====
/-
  The classifier tail both programs end with. From the last layer's features `h` (one row per node) and the
  graph ids `batch`: the pooled sum per graph `g = scatter-add of the rows of h at batch into a zero [128,128]`,
  then `relu (g · Wf1 + bf1) · Wf2 + bf2`, the biases broadcast along the rows and `relu x = max x 0`.
  Each program states this chain over its own shape records; the two terms are the same operations, so they are
  equal, and the chain is carried as one function of its six operands and never opened.
-/
import proofs.«414384_j72937134621131_1_alg».proof.Proof.Gen.KernelIdeal.Launch
import proofs.«414384_j72937134621131_1_alg».proof.Proof.Gen.ReferenceIdeal
import proofs.«414384_j72937134621131_1_alg».proof.Proof.RefOps
import Idealize.ShloMosaic.Lib.StableHlo.Run
import Idealize.ShloMosaic.PureOps.Ideal

noncomputable section

namespace Cert.Tail

open Idealize.ShloMosaic Idealize.SL.Sem

/-- The kernel program's tail as one function: the scatter-add of `h` by `batch` into zeros, the first dense layer
    with its bias and `max · 0`, the second dense layer with its bias. -/
def kTail (h : FVec Ideal Cert.KernelIdeal.S50000x128 .f32) (batch : IVec Cert.KernelIdeal.S50000 32)
    (Wf1 : FVec Ideal Cert.KernelIdeal.S128x128 .f32) (bf1 : FVec Ideal Cert.KernelIdeal.S128 .f32)
    (Wf2 : FVec Ideal Cert.KernelIdeal.S128x64 .f32) (bf2 : FVec Ideal Cert.KernelIdeal.S64 .f32) :
    FVec Ideal Cert.KernelIdeal.S128x64 .f32 :=
  addf
    (Host.dotGeneral Cert.KernelIdeal.dot_S128x128_S128x64_S128x64_1_0_0_1_n_n none
      (maximumf
        (addf
          (Host.dotGeneral Cert.KernelIdeal.dot_S128x128_S128x128_S128x128_1_0_0_1_n_n none
            (Host.scatterAdd Cert.KernelIdeal.scatter_S128x128_S50000x1_S50000x128_1_0_0_1
              (broadcastInDim Cert.KernelIdeal.S128x128 ![] Cert.KernelIdeal.Gen.bcast_S_S128x128
                (constant (F := Ideal) Cert.KernelIdeal.S_ .f32 0x00000000#32))
              (broadcastInDim Cert.KernelIdeal.S50000x1 ![0] Cert.KernelIdeal.Gen.bcast_S50000_S50000x1_0 batch)
              h)
            Wf1)
          (broadcastInDim Cert.KernelIdeal.S128x128 ![0, 1] Cert.KernelIdeal.Gen.bcast_S1x128_S128x128_0_1
            (broadcastInDim Cert.KernelIdeal.S1x128 ![1] Cert.KernelIdeal.Gen.bcast_S128_S1x128_1 bf1)))
        (broadcastInDim Cert.KernelIdeal.S128x128 ![] Cert.KernelIdeal.Gen.bcast_S_S128x128
          (constant (F := Ideal) Cert.KernelIdeal.S_ .f32 0x00000000#32)))
      Wf2)
    (broadcastInDim Cert.KernelIdeal.S128x64 ![0, 1] Cert.KernelIdeal.Gen.bcast_S1x64_S128x64_0_1
      (broadcastInDim Cert.KernelIdeal.S1x64 ![1] Cert.KernelIdeal.Gen.bcast_S64_S1x64_1 bf2))

/-- The reference's tail as one function: the same chain, stated over the reference's records. -/
def rTail (h : FVec Ideal Cert.ReferenceIdeal.S50000x128 .f32) (batch : IVec Cert.ReferenceIdeal.S50000 32)
    (Wf1 : FVec Ideal Cert.ReferenceIdeal.S128x128 .f32) (bf1 : FVec Ideal Cert.ReferenceIdeal.S128 .f32)
    (Wf2 : FVec Ideal Cert.ReferenceIdeal.S128x64 .f32) (bf2 : FVec Ideal Cert.ReferenceIdeal.S64 .f32) :
    FVec Ideal Cert.ReferenceIdeal.S128x64 .f32 :=
  addf
    (Host.dotGeneral Cert.ReferenceIdeal.dot_S128x128_S128x64_S128x64_1_0_0_1_n_n none
      (maximumf
        (addf
          (Host.dotGeneral Cert.ReferenceIdeal.dot_S128x128_S128x128_S128x128_1_0_0_1_n_n none
            (Host.scatterAdd Cert.ReferenceIdeal.scatter_S128x128_S50000x1_S50000x128_1_0_0_1
              (broadcastInDim Cert.ReferenceIdeal.S128x128 ![] Cert.ReferenceIdeal.Gen.bcast_S_S128x128
                (constant (F := Ideal) Cert.ReferenceIdeal.S_ .f32 0x00000000#32))
              (broadcastInDim Cert.ReferenceIdeal.S50000x1 ![0] Cert.ReferenceIdeal.Gen.bcast_S50000_S50000x1_0 batch)
              h)
            Wf1)
          (broadcastInDim Cert.ReferenceIdeal.S128x128 ![0, 1] Cert.ReferenceIdeal.Gen.bcast_S1x128_S128x128_0_1
            (broadcastInDim Cert.ReferenceIdeal.S1x128 ![1] Cert.ReferenceIdeal.Gen.bcast_S128_S1x128_1 bf1)))
        (broadcastInDim Cert.ReferenceIdeal.S128x128 ![] Cert.ReferenceIdeal.Gen.bcast_S_S128x128
          (constant (F := Ideal) Cert.ReferenceIdeal.S_ .f32 0x00000000#32)))
      Wf2)
    (broadcastInDim Cert.ReferenceIdeal.S128x64 ![0, 1] Cert.ReferenceIdeal.Gen.bcast_S1x64_S128x64_0_1
      (broadcastInDim Cert.ReferenceIdeal.S1x64 ![1] Cert.ReferenceIdeal.Gen.bcast_S64_S1x64_1 bf2))

/-- The kernel program's last three host stretches, run from any contents `V`, leave at the result buffer the tail
    of what `V` holds at the last region's output, the graph ids and the four classifier parameters: each
    operation's result read at its own buffer is its function's value, and at any other buffer what was there. -/
theorem k_tail (V : Valuation Cert.KernelIdeal.τ Cert.KernelIdeal.sig (Elt Ideal)) :
    StableHlo.after (Cert.KernelIdeal.Gen.hostOps8_2 (F := Ideal))
        (StableHlo.after (Cert.KernelIdeal.Gen.hostOps8_1 (F := Ideal)) (StableHlo.after (Cert.KernelIdeal.Gen.hostOps8 (F := Ideal)) V))
        (Proc.devRef .tc Cert.KernelIdeal.main_v145)
      = kTail (V (Proc.devRef .tc Cert.KernelIdeal.main_v133)) (V (Proc.devRef .tc Cert.KernelIdeal.main_arg2))
          (V (Proc.devRef .tc Cert.KernelIdeal.main_arg9)) (V (Proc.devRef .tc Cert.KernelIdeal.main_arg10))
          (V (Proc.devRef .tc Cert.KernelIdeal.main_arg11)) (V (Proc.devRef .tc Cert.KernelIdeal.main_arg12)) := by
  simp only [Cert.KernelIdeal.Gen.hostOps8, Cert.KernelIdeal.Gen.hostOps8_1, Cert.KernelIdeal.Gen.hostOps8_2]
  after_results_simp
  rfl

/-- The reference's last fifteen operations, run from any contents `V`, leave at the result buffer the tail of what
    `V` holds at the last layer's output, the graph ids and the four classifier parameters. -/
theorem r_tail (V : Valuation Cert.ReferenceIdeal.τ Cert.ReferenceIdeal.sig (Elt Ideal)) :
    StableHlo.after (Cert.ReferenceIdeal.Run.opsTail (F := Ideal)) V (Proc.devRef .tc Cert.ReferenceIdeal.main_v223)
      = rTail (V (Proc.devRef .tc Cert.ReferenceIdeal.main_v211)) (V (Proc.devRef .tc Cert.ReferenceIdeal.main_arg2))
          (V (Proc.devRef .tc Cert.ReferenceIdeal.main_arg9)) (V (Proc.devRef .tc Cert.ReferenceIdeal.main_arg10))
          (V (Proc.devRef .tc Cert.ReferenceIdeal.main_arg11)) (V (Proc.devRef .tc Cert.ReferenceIdeal.main_arg12)) := by
  simp only [Cert.ReferenceIdeal.Run.opsTail]
  after_results_simp
  rfl

/-- The two tails are one function: the same operations over records that differ only in the proofs of their
    shape facts. -/
theorem tail_eq (h : FVec Ideal Cert.KernelIdeal.S50000x128 .f32) (batch : IVec Cert.KernelIdeal.S50000 32)
    (Wf1 : FVec Ideal Cert.KernelIdeal.S128x128 .f32) (bf1 : FVec Ideal Cert.KernelIdeal.S128 .f32)
    (Wf2 : FVec Ideal Cert.KernelIdeal.S128x64 .f32) (bf2 : FVec Ideal Cert.KernelIdeal.S64 .f32) :
    kTail h batch Wf1 bf1 Wf2 bf2 = rTail h batch Wf1 bf1 Wf2 bf2 := rfl

end Cert.Tail
-- ==== Proof.PreFacts.lean ====
/-
  What the precondition says, entry by entry.

  The precondition is a conjunction of twelve scalar bits. Eleven of them are, one per float argument x,
  "all (|x| < +∞)": the and-reduction over every axis of the elementwise comparison of |x| = max x (-x) with the
  pattern of +∞. An and-reduction that comes out 1 met only 1s, so every entry has max x (-x) < ⊤, and an extended
  real whose absolute value is below ⊤ is neither infinity: it is a real number. The twelfth is
  "all (src ≥ 0 and src < 50000)" for src, row 0 of the edge table read as a vector of 600000 words; by the same
  reading of the reduction both signed compares hold at every edge, and a word in [0, 50000) signed has its sign bit
  clear, so it is below 50000 as a natural number too.
-/
import proofs.«414384_j72937134621131_1_alg».proof.Pre_finite_inputs
import proofs.«414384_j72937134621131_1_alg».proof.Proof.Gen.Pre_finite_inputs
import Idealize.ShloMosaic.Lib.ReduceAll
import Idealize.ShloMosaic.Lib.ValueIdx
import Idealize.ShloMosaic.Lib.Pipeline.Value
import Idealize.ShloMosaic.Lib.StableHlo.Predicate
import proofs.«414384_j72937134621131_1_alg».proof.Proof.LibRealVariance

noncomputable section

namespace Cert.PreFacts

open Idealize.ShloMosaic Cert.Pre_finite_inputs Cert.Alg

/-- The scalar shape has one index. -/
instance : Subsingleton S_.Idx := ⟨fun a b => funext fun d => d.elim0⟩

/-- The f32 pattern with all exponent bits set and no fraction bit is +∞. -/
theorem ofBits_inf_f32 : Ideal.ofBits .f32 0x7F800000#32 = (⊤ : EReal) := by simp [Ideal.ofBits, Ideal.ieee]

/-- ONE FLOAT CONJUNCT, at any shape: if the and-reduction of "|x| < +∞" over all axes is 1, every entry of x is a
    real number. The reduction met only 1s; the bit at entry i is the decision of max (x i) (-(x i)) < ⊤. -/
theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ValueIdx.ix0 = 1#1) :
    ∀ i, IsReal (x i) := by
  intro i
  have hi := Host.reduce_andi_all _ _ hr h0 _ e i
  simp only [cmpf, Host.absf, broadcastInDim, constant] at hi
  have h2 : Ideal.cmp .olt (max (x i) (-(x i))) (Ideal.ofBits .f32 0x7F800000#32) = 1#1 := hi
  rw [ofBits_inf_f32] at h2
  simp only [Ideal.cmp, StableHlo.Predicate.ofBool_eq_one_iff, decide_eq_true_eq] at h2
  exact isReal_of_abs_lt_top h2

variable [Cert.Pre_finite_inputs.Facts]
open Cert.Pre_finite_inputs.Facts

/-- Row 0 of the [2 × 600000] edge table as a vector of 600000 words: the source node of every edge, spelled as the
    precondition spells it (the [1 × 600000] slice at the origin, its unit axis dropped). -/
abbrev src (a1 : IVec S2x600000 32) : IVec S600000 32 :=
  shapeCast S600000 (extractStridedSlice S1x600000 ![0, 0] a1 slices_S2x600000_S1x600000_0_0) shapeCasts_S1x600000_S600000

/-- Entry e of that vector is entry (0, e) of the table: dropping the unit axis keeps the row-major position, and the
    slice starts at the origin. -/
theorem src_apply (a1 : IVec S2x600000 32) (e : Fin 600000) :
    src a1 (ValueIdx.ix1 e) = a1 (ValueIdx.ix2 (0 : Fin 2) e) := by
  unfold src
  refine (shapeCast_dropUnit_apply ![600000] _ shapeCasts_S1x600000_S600000 (ValueIdx.ix1 e)).trans ?_
  refine extractStridedSlice_apply _ a1 slices_S2x600000_S1x600000_0_0 _ (ValueIdx.ix2 (0 : Fin 2) e) fun a => ?_
  match a with
  | ⟨0, _⟩ => rfl
  | ⟨1, _⟩ => show e.val = 0 + e.val; omega

/-- THE INDEX CONJUNCT: if the and-reduction of "src ≥ 0 and src < 50000" is 1, both signed compares hold at every
    edge (each comparand is a scalar constant broadcast, which reads the constant everywhere). -/
theorem all_range (a1 : IVec S2x600000 32)
    (e : Host.reduce IntOp.andi
          (andi (cmpi .sge (src a1) (broadcastInDim S600000 ![] bcast_S_S600000 (constantI S_ 32 0#32)))
                (cmpi .slt (src a1) (broadcastInDim S600000 ![] bcast_S_S600000 (constantI S_ 32 50000#32))))
          (constantI S_ 1 1#1) reducesTo_S600000_S_d0 h_S_ ValueIdx.ix0 = 1#1) :
    ∀ k : S600000.Idx, IntOp.cmpi .sge (src a1 k) 0#32 = 1#1 ∧ IntOp.cmpi .slt (src a1 k) 50000#32 = 1#1 := by
  intro k
  have hk := Host.reduce_andi_all _ _ reducesTo_S600000_S_d0 h_S_ _ e k
  exact IntOp.andi_eq_one.1 hk

/-- A word at least 0 and below 50000 as a signed number is below 50000 as a natural number: were its sign bit set
    it would read negative. -/
theorem toNat_lt_of_range (w : BitVec 32) (h0 : IntOp.cmpi .sge w 0#32 = 1#1) (h1 : IntOp.cmpi .slt w 50000#32 = 1#1) :
    w.toNat < 50000 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have c : (50000#32 : BitVec 32).toInt = 50000 := by decide
  rw [z] at h0
  rw [c] at h1
  have hw := w.isLt
  rw [BitVec.toInt_eq_toNat_cond] at h0 h1
  split at h0 <;> omega

/-- The and of two scalar bits, read at the one index, is 1 exactly when both are. -/
theorem andi_scalar (A B : IVec S_ 1) (j : S_.Idx) : andi A B j = 1#1 ↔ A j = 1#1 ∧ B j = 1#1 := IntOp.andi_eq_one

/-- THE PRECONDITION DECODED: every entry of every float argument is a real number, and every source node index
    is in [0, 50000) signed. The twelve conjuncts of the precondition, split at the scalar ands, are the hypotheses of
    all_real (eleven times) and all_range. -/
theorem of_pre (a0 : FVec Ideal S50000x128 .f32) (a1 : IVec S2x600000 32) (a2 : IVec S50000 32)
    (a3 : FVec Ideal S4x128x128 .f32) (a4 : FVec Ideal S4x128 .f32) (a5 : FVec Ideal S4x128x128 .f32)
    (a6 a7 a8 : FVec Ideal S4x128 .f32) (a9 : FVec Ideal S128x128 .f32) (a10 : FVec Ideal S128 .f32)
    (a11 : FVec Ideal S128x64 .f32) (a12 : FVec Ideal S64 .f32)
    (h : Cert.Pre_finite_inputs.fn (F := Ideal) a0 a1 a2 a3 a4 a5 a6 a7 a8 a9 a10 a11 a12 = fun _ => 1#1) :
    (∀ i, IsReal (a0 i)) ∧ (∀ i, IsReal (a3 i)) ∧ (∀ i, IsReal (a4 i)) ∧ (∀ i, IsReal (a5 i)) ∧
    (∀ i, IsReal (a6 i)) ∧ (∀ i, IsReal (a7 i)) ∧ (∀ i, IsReal (a8 i)) ∧ (∀ i, IsReal (a9 i)) ∧
    (∀ i, IsReal (a10 i)) ∧ (∀ i, IsReal (a11 i)) ∧ (∀ i, IsReal (a12 i)) ∧
    (∀ k : S600000.Idx, IntOp.cmpi .sge (src a1 k) 0#32 = 1#1 ∧ IntOp.cmpi .slt (src a1 k) 50000#32 = 1#1) := by
  have e := congrFun h ValueIdx.ix0
  simp only [fn, fn_part1, fn_part2, fn_part3, andi_scalar] at e
  obtain ⟨⟨⟨⟨⟨⟨⟨⟨⟨⟨⟨e0, e3⟩, e4⟩, e5⟩, e6⟩, e7⟩, e8⟩, e9⟩, e10⟩, e11⟩, e12⟩, es⟩ := e
  exact ⟨all_real a0 _ _ _ e0, all_real a3 _ _ _ e3, all_real a4 _ _ _ e4, all_real a5 _ _ _ e5,
    all_real a6 _ _ _ e6, all_real a7 _ _ _ e7, all_real a8 _ _ _ e8, all_real a9 _ _ _ e9,
    all_real a10 _ _ _ e10, all_real a11 _ _ _ e11, all_real a12 _ _ _ e12, all_range a1 es⟩

/-- The index conjunct over the table itself: under the decoded compares, entry (0, e) of the edge table is below
    50000 as a natural number, for every edge e. -/
theorem edge_lt (a1 : IVec S2x600000 32)
    (hs : ∀ k : S600000.Idx, IntOp.cmpi .sge (src a1 k) 0#32 = 1#1 ∧ IntOp.cmpi .slt (src a1 k) 50000#32 = 1#1)
    (e : Fin 600000) : (a1 (ValueIdx.ix2 (0 : Fin 2) e)).toNat < 50000 := by
  have hk := hs (ValueIdx.ix1 e)
  rw [src_apply] at hk
  exact toNat_lt_of_range _ hk.1 hk.2

end Cert.PreFacts

end
-- ==== Proof.Assemble.lean ====
/-
  The two programs compute the same result.

  On every device, from memories that agree on the arguments, with every float argument finite and every edge source in
  [0, 50000): the kernel program and the reference enter their first layer with the same real features, the same
  edges and the same real parameters; each layer keeps that (the join of a layer); so after four layers the features
  are one real array, and the pooled classifier, the same operations in both programs, returns one result.
  What each program's buffers hold where a layer starts is read back to the launch: the kernel program computes its
  edge vectors and narrow-format weights once and no later segment writes them; the reference never writes an argument.
-/
import proofs.«414384_j72937134621131_1_alg».proof.Defs
import proofs.«414384_j72937134621131_1_alg».proof.Proof.KRun
import proofs.«414384_j72937134621131_1_alg».proof.Proof.Keep
import proofs.«414384_j72937134621131_1_alg».proof.Proof.Join0
import proofs.«414384_j72937134621131_1_alg».proof.Proof.Join1
import proofs.«414384_j72937134621131_1_alg».proof.Proof.Join2
import proofs.«414384_j72937134621131_1_alg».proof.Proof.Join3
import proofs.«414384_j72937134621131_1_alg».proof.Proof.RefRun
import proofs.«414384_j72937134621131_1_alg».proof.Proof.RefChain
import proofs.«414384_j72937134621131_1_alg».proof.Proof.Tail
import proofs.«414384_j72937134621131_1_alg».proof.Proof.PreFacts

set_option maxRecDepth 16384

noncomputable section

namespace Cert.Proof.Assemble

open Idealize.ShloMosaic Idealize.ShloMosaic.TcCoe Idealize.SL.Sem Idealize.ShloMosaic.ValueIdx Cert.Alg Cert.Gnn
open Idealize.ShloMosaic.StableHlo (after launchContents)
open Cert.KernelIdeal.Gen (W0 W1 W6 W11 W16 W21 W24)

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's buffer contents at launch, where its first layer proper starts, and after each layer. -/
abbrev R0 : Valuation Cert.ReferenceIdeal.τ Cert.ReferenceIdeal.sig (Elt Ideal) := launchContents m' c
abbrev Rp : Valuation Cert.ReferenceIdeal.τ Cert.ReferenceIdeal.sig (Elt Ideal) := after (Cert.ReferenceIdeal.L0.pre (F := Ideal)) (R0 m' c)
abbrev R1 : Valuation Cert.ReferenceIdeal.τ Cert.ReferenceIdeal.sig (Elt Ideal) := after (Cert.ReferenceIdeal.Run.opsL0 (F := Ideal)) (R0 m' c)
abbrev R2 : Valuation Cert.ReferenceIdeal.τ Cert.ReferenceIdeal.sig (Elt Ideal) := after (Cert.ReferenceIdeal.Run.opsL1 (F := Ideal)) (R1 m' c)
abbrev R3 : Valuation Cert.ReferenceIdeal.τ Cert.ReferenceIdeal.sig (Elt Ideal) := after (Cert.ReferenceIdeal.Run.opsL2 (F := Ideal)) (R2 m' c)
abbrev R4 : Valuation Cert.ReferenceIdeal.τ Cert.ReferenceIdeal.sig (Elt Ideal) := after (Cert.ReferenceIdeal.Run.opsL3 (F := Ideal)) (R3 m' c)

/-- The claim's hypotheses on one device: the precondition on the kernel program's arguments, and the reference's
    arguments equal to them. -/
structure Hyp : Prop where
  pre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) = fun _ => 1#1
  a0 : R0 m' c (Proc.devRef .tc Cert.ReferenceIdeal.main_arg0) = W0 m ρ c (Proc.devRef .tc Cert.KernelIdeal.main_arg0)
  a1 : R0 m' c (Proc.devRef .tc Cert.ReferenceIdeal.main_arg1) = W0 m ρ c (Proc.devRef .tc Cert.KernelIdeal.main_arg1)
  a2 : R0 m' c (Proc.devRef .tc Cert.ReferenceIdeal.main_arg2) = W0 m ρ c (Proc.devRef .tc Cert.KernelIdeal.main_arg2)
  a3 : R0 m' c (Proc.devRef .tc Cert.ReferenceIdeal.main_arg3) = W0 m ρ c (Proc.devRef .tc Cert.KernelIdeal.main_arg3)
  a4 : R0 m' c (Proc.devRef .tc Cert.ReferenceIdeal.main_arg4) = W0 m ρ c (Proc.devRef .tc Cert.KernelIdeal.main_arg4)
  a5 : R0 m' c (Proc.devRef .tc Cert.ReferenceIdeal.main_arg5) = W0 m ρ c (Proc.devRef .tc Cert.KernelIdeal.main_arg5)
  a6 : R0 m' c (Proc.devRef .tc Cert.ReferenceIdeal.main_arg6) = W0 m ρ c (Proc.devRef .tc Cert.KernelIdeal.main_arg6)
  a7 : R0 m' c (Proc.devRef .tc Cert.ReferenceIdeal.main_arg7) = W0 m ρ c (Proc.devRef .tc Cert.KernelIdeal.main_arg7)
  a8 : R0 m' c (Proc.devRef .tc Cert.ReferenceIdeal.main_arg8) = W0 m ρ c (Proc.devRef .tc Cert.KernelIdeal.main_arg8)
  a9 : R0 m' c (Proc.devRef .tc Cert.ReferenceIdeal.main_arg9) = W0 m ρ c (Proc.devRef .tc Cert.KernelIdeal.main_arg9)
  a10 : R0 m' c (Proc.devRef .tc Cert.ReferenceIdeal.main_arg10) = W0 m ρ c (Proc.devRef .tc Cert.KernelIdeal.main_arg10)
  a11 : R0 m' c (Proc.devRef .tc Cert.ReferenceIdeal.main_arg11) = W0 m ρ c (Proc.devRef .tc Cert.KernelIdeal.main_arg11)
  a12 : R0 m' c (Proc.devRef .tc Cert.ReferenceIdeal.main_arg12) = W0 m ρ c (Proc.devRef .tc Cert.KernelIdeal.main_arg12)

variable (H : Hyp m ρ m' c)

/-! ### What the precondition gives, in the reference's terms -/

/-- The edge sources and targets as both programs read them off the edge list. -/
abbrev SRC : IVec Cert.ReferenceIdeal.S600000 32 := Cert.ReferenceIdeal.L0.srcOf (R0 m' c (Proc.devRef .tc Cert.ReferenceIdeal.main_arg1))
abbrev DST : IVec Cert.ReferenceIdeal.S600000 32 := Cert.ReferenceIdeal.L0.dstOf (R0 m' c (Proc.devRef .tc Cert.ReferenceIdeal.main_arg1))

include H in
theorem src_range : ∀ e, IntOp.cmpi .sge (SRC m' c e) 0#32 = 1#1 ∧ IntOp.cmpi .slt (SRC m' c e) 50000#32 = 1#1 := by
  have h := (Cert.PreFacts.of_pre _ _ _ _ _ _ _ _ _ _ _ _ _ H.pre).2.2.2.2.2.2.2.2.2.2.2
  have e1 : SRC m' c
      = Cert.PreFacts.src (m ((c.tc : Thread Cert.KernelIdeal.nD Cert.KernelIdeal.τ).loc Cert.KernelIdeal.main_arg1)) := by
    show Cert.ReferenceIdeal.L0.srcOf (R0 m' c (Proc.devRef .tc Cert.ReferenceIdeal.main_arg1)) = _
    rw [H.a1]
    rfl
  intro e
  rw [e1]
  exact h e

include H in
theorem real0 : ∀ i, IsReal (R0 m' c (Proc.devRef .tc Cert.ReferenceIdeal.main_arg0) i) := by
  rw [H.a0]; exact (Cert.PreFacts.of_pre _ _ _ _ _ _ _ _ _ _ _ _ _ H.pre).1
include H in
theorem real3 : ∀ i, IsReal (R0 m' c (Proc.devRef .tc Cert.ReferenceIdeal.main_arg3) i) := by
  rw [H.a3]; exact (Cert.PreFacts.of_pre _ _ _ _ _ _ _ _ _ _ _ _ _ H.pre).2.1
include H in
theorem real4 : ∀ i, IsReal (R0 m' c (Proc.devRef .tc Cert.ReferenceIdeal.main_arg4) i) := by
  rw [H.a4]; exact (Cert.PreFacts.of_pre _ _ _ _ _ _ _ _ _ _ _ _ _ H.pre).2.2.1
include H in
theorem real5 : ∀ i, IsReal (R0 m' c (Proc.devRef .tc Cert.ReferenceIdeal.main_arg5) i) := by
  rw [H.a5]; exact (Cert.PreFacts.of_pre _ _ _ _ _ _ _ _ _ _ _ _ _ H.pre).2.2.2.1
include H in
theorem real6 : ∀ i, IsReal (R0 m' c (Proc.devRef .tc Cert.ReferenceIdeal.main_arg6) i) := by
  rw [H.a6]; exact (Cert.PreFacts.of_pre _ _ _ _ _ _ _ _ _ _ _ _ _ H.pre).2.2.2.2.1
include H in
theorem real7 : ∀ i, IsReal (R0 m' c (Proc.devRef .tc Cert.ReferenceIdeal.main_arg7) i) := by
  rw [H.a7]; exact (Cert.PreFacts.of_pre _ _ _ _ _ _ _ _ _ _ _ _ _ H.pre).2.2.2.2.2.1
include H in
theorem real8 : ∀ i, IsReal (R0 m' c (Proc.devRef .tc Cert.ReferenceIdeal.main_arg8) i) := by
  rw [H.a8]; exact (Cert.PreFacts.of_pre _ _ _ _ _ _ _ _ _ _ _ _ _ H.pre).2.2.2.2.2.2.1

/-! ### The kernel program's buffers after its first stretch, read back to the launch -/

include H in
theorem kb_feat : W1 m ρ c (Proc.devRef .tc Cert.KernelIdeal.main_arg0) = R0 m' c (Proc.devRef .tc Cert.ReferenceIdeal.main_arg0) :=
  (Cert.KernelIdeal.Keep.arg0_W1 m ρ c).trans H.a0.symm

include H in
theorem kb_src : (W1 m ρ c (Proc.devRef .tc Cert.KernelIdeal.main_v1) : IVec Cert.KernelIdeal.S600000 32) = SRC m' c := by
  refine (Cert.KernelIdeal.KHostA0.src_eq (W0 m ρ c)).trans ?_
  rw [← H.a1]
  rfl

include H in
theorem kb_dst : (W1 m ρ c (Proc.devRef .tc Cert.KernelIdeal.main_v3) : IVec Cert.KernelIdeal.S600000 32) = DST m' c := by
  refine (Cert.KernelIdeal.KHostA0.dst_eq (W0 m ρ c)).trans ?_
  rw [← H.a1]
  rfl

include H in
theorem kb_w1 (i : Cert.KernelIdeal.S4x128x128.Idx) :
    (W1 m ρ c (Proc.devRef .tc Cert.KernelIdeal.main_v4) : FVec Ideal Cert.KernelIdeal.S4x128x128 .bf16) i
      = R0 m' c (Proc.devRef .tc Cert.ReferenceIdeal.main_arg3) i := by
  rw [H.a3]
  exact congrFun (Cert.KernelIdeal.KHostA0.w1_stack_eq (W0 m ρ c)) i

include H in
theorem kb_w2 (i : Cert.KernelIdeal.S4x128x128.Idx) :
    (W1 m ρ c (Proc.devRef .tc Cert.KernelIdeal.main_v5) : FVec Ideal Cert.KernelIdeal.S4x128x128 .bf16) i
      = R0 m' c (Proc.devRef .tc Cert.ReferenceIdeal.main_arg5) i := by
  rw [H.a5]
  exact congrFun (Cert.KernelIdeal.KHostA0.w2_stack_eq (W0 m ρ c)) i

/-- An argument the layers read, after the first stretch: as launched. -/
theorem kb_arg (b : Ref Cert.KernelIdeal.sig .tc)
    (hb : b ∈ ([Cert.KernelIdeal.main_arg1, Cert.KernelIdeal.main_arg2, Cert.KernelIdeal.main_arg4, Cert.KernelIdeal.main_arg6,
      Cert.KernelIdeal.main_arg7, Cert.KernelIdeal.main_arg8, Cert.KernelIdeal.main_arg9, Cert.KernelIdeal.main_arg10,
      Cert.KernelIdeal.main_arg11, Cert.KernelIdeal.main_arg12] : List (Ref Cert.KernelIdeal.sig .tc))) :
    W1 m ρ c (Proc.devRef .tc b) = W0 m ρ c (Proc.devRef .tc b) :=
  Cert.KernelIdeal.Keep.arg_launch m ρ c b hb

/-! ### The reference's buffers where each layer starts, read back to the launch -/

theorem rp_src : Cert.ReferenceIdeal.L0.srcAt (Rp m' c) = SRC m' c := Cert.ReferenceIdeal.L0.pre_v1 (R0 m' c)
theorem rp_dst : Cert.ReferenceIdeal.L0.dstAt (Rp m' c) = DST m' c := Cert.ReferenceIdeal.L0.pre_v3 (R0 m' c)
theorem rp_arg (r : Ref Cert.ReferenceIdeal.sig .tc) (h : r ∉ Cert.ReferenceIdeal.L0.pre_W) :
    Rp m' c (Proc.devRef .tc r) = R0 m' c (Proc.devRef .tc r) := Cert.ReferenceIdeal.L0.pre_keep (R0 m' c) r h

theorem r1_src : Cert.ReferenceIdeal.L1.srcAt (R1 m' c) = SRC m' c := Cert.ReferenceIdeal.L0.opsL0_v1 (R0 m' c)
theorem r1_dst : Cert.ReferenceIdeal.L1.dstAt (R1 m' c) = DST m' c := Cert.ReferenceIdeal.L0.opsL0_v3 (R0 m' c)
theorem r1_arg (b : Ref Cert.ReferenceIdeal.sig .tc) (hb : b ∈ Cert.ReferenceIdeal.Chain.args) :
    R1 m' c (Proc.devRef .tc b) = R0 m' c (Proc.devRef .tc b) := Cert.ReferenceIdeal.Chain.opsL0_args (R0 m' c) b hb

theorem r2_src : Cert.ReferenceIdeal.L2.srcAt (R2 m' c) = SRC m' c :=
  (Cert.ReferenceIdeal.Chain.opsL1_edges (R1 m' c) Cert.ReferenceIdeal.main_v1 (by decide)).trans (r1_src m' c)
theorem r2_dst : Cert.ReferenceIdeal.L2.dstAt (R2 m' c) = DST m' c :=
  (Cert.ReferenceIdeal.Chain.opsL1_edges (R1 m' c) Cert.ReferenceIdeal.main_v3 (by decide)).trans (r1_dst m' c)
theorem r2_arg (b : Ref Cert.ReferenceIdeal.sig .tc) (hb : b ∈ Cert.ReferenceIdeal.Chain.args) :
    R2 m' c (Proc.devRef .tc b) = R0 m' c (Proc.devRef .tc b) := Cert.ReferenceIdeal.Chain.args_kept1 (R0 m' c) b hb

theorem r3_src : Cert.ReferenceIdeal.L3.srcAt (R3 m' c) = SRC m' c :=
  (Cert.ReferenceIdeal.Chain.edges_kept2 (R1 m' c) Cert.ReferenceIdeal.main_v1 (by decide)).trans (r1_src m' c)
theorem r3_dst : Cert.ReferenceIdeal.L3.dstAt (R3 m' c) = DST m' c :=
  (Cert.ReferenceIdeal.Chain.edges_kept2 (R1 m' c) Cert.ReferenceIdeal.main_v3 (by decide)).trans (r1_dst m' c)
theorem r3_arg (b : Ref Cert.ReferenceIdeal.sig .tc) (hb : b ∈ Cert.ReferenceIdeal.Chain.args) :
    R3 m' c (Proc.devRef .tc b) = R0 m' c (Proc.devRef .tc b) := Cert.ReferenceIdeal.Chain.args_kept2 (R0 m' c) b hb

theorem r4_arg (b : Ref Cert.ReferenceIdeal.sig .tc) (hb : b ∈ Cert.ReferenceIdeal.Chain.args) :
    R4 m' c (Proc.devRef .tc b) = R0 m' c (Proc.devRef .tc b) := Cert.ReferenceIdeal.Chain.args_kept3 (R0 m' c) b hb

/-- The features a layer of the reference reads are the features the layer before left. -/
theorem f1 : Cert.ReferenceIdeal.L1.featOf (R1 m' c) = Cert.ReferenceIdeal.L0.outOf (Rp m' c) :=
  congrFun (Cert.ReferenceIdeal.L0.after_opsL0 (R0 m' c)) (Proc.devRef .tc Cert.ReferenceIdeal.main_v55)
theorem f2 : Cert.ReferenceIdeal.L2.featOf (R2 m' c) = Cert.ReferenceIdeal.L1.outOf (R1 m' c) := by
  show after (Cert.ReferenceIdeal.Run.opsL1 (F := Ideal)) (R1 m' c) _ = after (Cert.ReferenceIdeal.L1.body (F := Ideal)) (R1 m' c) _
  rw [Cert.ReferenceIdeal.L1.ops_eq]
theorem f3 : Cert.ReferenceIdeal.L3.featOf (R3 m' c) = Cert.ReferenceIdeal.L2.outOf (R2 m' c) := by
  show after (Cert.ReferenceIdeal.Run.opsL2 (F := Ideal)) (R2 m' c) _ = after (Cert.ReferenceIdeal.L2.body (F := Ideal)) (R2 m' c) _
  rw [Cert.ReferenceIdeal.L2.ops_eq]
theorem f4 : R4 m' c (Proc.devRef .tc Cert.ReferenceIdeal.main_v211) = Cert.ReferenceIdeal.L3.outOf (R3 m' c) := by
  show after (Cert.ReferenceIdeal.Run.opsL3 (F := Ideal)) (R3 m' c) _ = after (Cert.ReferenceIdeal.L3.body (F := Ideal)) (R3 m' c) _
  rw [Cert.ReferenceIdeal.L3.ops_eq]

/-! ### The four layers -/

include H in
theorem j0 : Cert.KernelIdeal.KLayer0.out m ρ c = Cert.ReferenceIdeal.L0.outOf (Rp m' c)
    ∧ ∀ i, IsReal (Cert.ReferenceIdeal.L0.outOf (Rp m' c) i) :=
  Cert.Join0.join m ρ c (Rp m' c)
    ((kb_feat m ρ m' c H).trans (rp_arg m' c Cert.ReferenceIdeal.main_arg0 (by decide)).symm)
    ((kb_src m ρ m' c H).trans (rp_src m' c).symm)
    ((kb_dst m ρ m' c H).trans (rp_dst m' c).symm)
    (fun i => (kb_w1 m ρ m' c H i).trans (congrFun (rp_arg m' c Cert.ReferenceIdeal.main_arg3 (by decide)) i).symm)
    (((kb_arg m ρ c Cert.KernelIdeal.main_arg4 (by decide)).trans H.a4.symm).trans (rp_arg m' c Cert.ReferenceIdeal.main_arg4 (by decide)).symm)
    (fun i => (kb_w2 m ρ m' c H i).trans (congrFun (rp_arg m' c Cert.ReferenceIdeal.main_arg5 (by decide)) i).symm)
    (((kb_arg m ρ c Cert.KernelIdeal.main_arg6 (by decide)).trans H.a6.symm).trans (rp_arg m' c Cert.ReferenceIdeal.main_arg6 (by decide)).symm)
    (((kb_arg m ρ c Cert.KernelIdeal.main_arg7 (by decide)).trans H.a7.symm).trans (rp_arg m' c Cert.ReferenceIdeal.main_arg7 (by decide)).symm)
    (((kb_arg m ρ c Cert.KernelIdeal.main_arg8 (by decide)).trans H.a8.symm).trans (rp_arg m' c Cert.ReferenceIdeal.main_arg8 (by decide)).symm)
    (fun e => by rw [rp_src m' c]; exact src_range m ρ m' c H e)
    (fun i => by rw [show Cert.ReferenceIdeal.L0.featOf (Rp m' c) = _ from rp_arg m' c Cert.ReferenceIdeal.main_arg0 (by decide)]; exact real0 m ρ m' c H i)
    (fun i => by rw [show Cert.ReferenceIdeal.L0.w1At (Rp m' c) = _ from rp_arg m' c Cert.ReferenceIdeal.main_arg3 (by decide)]; exact real3 m ρ m' c H i)
    (fun i => by rw [show Cert.ReferenceIdeal.L0.b1At (Rp m' c) = _ from rp_arg m' c Cert.ReferenceIdeal.main_arg4 (by decide)]; exact real4 m ρ m' c H i)
    (fun i => by rw [show Cert.ReferenceIdeal.L0.w2At (Rp m' c) = _ from rp_arg m' c Cert.ReferenceIdeal.main_arg5 (by decide)]; exact real5 m ρ m' c H i)
    (fun i => by rw [show Cert.ReferenceIdeal.L0.b2At (Rp m' c) = _ from rp_arg m' c Cert.ReferenceIdeal.main_arg6 (by decide)]; exact real6 m ρ m' c H i)
    (fun i => by rw [show Cert.ReferenceIdeal.L0.gAt (Rp m' c) = _ from rp_arg m' c Cert.ReferenceIdeal.main_arg7 (by decide)]; exact real7 m ρ m' c H i)
    (fun i => by rw [show Cert.ReferenceIdeal.L0.bAt (Rp m' c) = _ from rp_arg m' c Cert.ReferenceIdeal.main_arg8 (by decide)]; exact real8 m ρ m' c H i)

include H in
theorem j1 : Cert.KernelIdeal.KLayer1.out m ρ c = Cert.ReferenceIdeal.L1.outOf (R1 m' c)
    ∧ ∀ i, IsReal (Cert.ReferenceIdeal.L1.outOf (R1 m' c) i) :=
  Cert.Join1.join m ρ c (R1 m' c)
    ((j0 m ρ m' c H).1.trans (f1 m' c).symm)
    (((Cert.KernelIdeal.Keep.keep6 m ρ c Cert.KernelIdeal.main_v1 (by decide)).trans (kb_src m ρ m' c H)).trans (r1_src m' c).symm)
    (((Cert.KernelIdeal.Keep.keep6 m ρ c Cert.KernelIdeal.main_v3 (by decide)).trans (kb_dst m ρ m' c H)).trans (r1_dst m' c).symm)
    (fun i => ((congrFun (Cert.KernelIdeal.Keep.keep6 m ρ c Cert.KernelIdeal.main_v4 (by decide)) i).trans (kb_w1 m ρ m' c H i)).trans
      (congrFun (r1_arg m' c Cert.ReferenceIdeal.main_arg3 (by decide)) i).symm)
    ((((Cert.KernelIdeal.Keep.keep6 m ρ c Cert.KernelIdeal.main_arg4 (by decide)).trans (kb_arg m ρ c Cert.KernelIdeal.main_arg4 (by decide))).trans H.a4.symm).trans
      (r1_arg m' c Cert.ReferenceIdeal.main_arg4 (by decide)).symm)
    (fun i => ((congrFun (Cert.KernelIdeal.Keep.keep6 m ρ c Cert.KernelIdeal.main_v5 (by decide)) i).trans (kb_w2 m ρ m' c H i)).trans
      (congrFun (r1_arg m' c Cert.ReferenceIdeal.main_arg5 (by decide)) i).symm)
    ((((Cert.KernelIdeal.Keep.keep6 m ρ c Cert.KernelIdeal.main_arg6 (by decide)).trans (kb_arg m ρ c Cert.KernelIdeal.main_arg6 (by decide))).trans H.a6.symm).trans
      (r1_arg m' c Cert.ReferenceIdeal.main_arg6 (by decide)).symm)
    ((((Cert.KernelIdeal.Keep.keep6 m ρ c Cert.KernelIdeal.main_arg7 (by decide)).trans (kb_arg m ρ c Cert.KernelIdeal.main_arg7 (by decide))).trans H.a7.symm).trans
      (r1_arg m' c Cert.ReferenceIdeal.main_arg7 (by decide)).symm)
    ((((Cert.KernelIdeal.Keep.keep6 m ρ c Cert.KernelIdeal.main_arg8 (by decide)).trans (kb_arg m ρ c Cert.KernelIdeal.main_arg8 (by decide))).trans H.a8.symm).trans
      (r1_arg m' c Cert.ReferenceIdeal.main_arg8 (by decide)).symm)
    (fun e => by rw [r1_src m' c]; exact src_range m ρ m' c H e)
    (fun i => by rw [f1 m' c]; exact (j0 m ρ m' c H).2 i)
    (fun i => by rw [show Cert.ReferenceIdeal.L1.w1At (R1 m' c) = _ from r1_arg m' c Cert.ReferenceIdeal.main_arg3 (by decide)]; exact real3 m ρ m' c H i)
    (fun i => by rw [show Cert.ReferenceIdeal.L1.b1At (R1 m' c) = _ from r1_arg m' c Cert.ReferenceIdeal.main_arg4 (by decide)]; exact real4 m ρ m' c H i)
    (fun i => by rw [show Cert.ReferenceIdeal.L1.w2At (R1 m' c) = _ from r1_arg m' c Cert.ReferenceIdeal.main_arg5 (by decide)]; exact real5 m ρ m' c H i)
    (fun i => by rw [show Cert.ReferenceIdeal.L1.b2At (R1 m' c) = _ from r1_arg m' c Cert.ReferenceIdeal.main_arg6 (by decide)]; exact real6 m ρ m' c H i)
    (fun i => by rw [show Cert.ReferenceIdeal.L1.gAt (R1 m' c) = _ from r1_arg m' c Cert.ReferenceIdeal.main_arg7 (by decide)]; exact real7 m ρ m' c H i)
    (fun i => by rw [show Cert.ReferenceIdeal.L1.bAt (R1 m' c) = _ from r1_arg m' c Cert.ReferenceIdeal.main_arg8 (by decide)]; exact real8 m ρ m' c H i)

include H in
theorem j2 : Cert.KernelIdeal.KLayer2.out m ρ c = Cert.ReferenceIdeal.L2.outOf (R2 m' c)
    ∧ ∀ i, IsReal (Cert.ReferenceIdeal.L2.outOf (R2 m' c) i) :=
  Cert.Join2.join m ρ c (R2 m' c)
    ((j1 m ρ m' c H).1.trans (f2 m' c).symm)
    (((Cert.KernelIdeal.Keep.keep11 m ρ c Cert.KernelIdeal.main_v1 (by decide)).trans (kb_src m ρ m' c H)).trans (r2_src m' c).symm)
    (((Cert.KernelIdeal.Keep.keep11 m ρ c Cert.KernelIdeal.main_v3 (by decide)).trans (kb_dst m ρ m' c H)).trans (r2_dst m' c).symm)
    (fun i => ((congrFun (Cert.KernelIdeal.Keep.keep11 m ρ c Cert.KernelIdeal.main_v4 (by decide)) i).trans (kb_w1 m ρ m' c H i)).trans
      (congrFun (r2_arg m' c Cert.ReferenceIdeal.main_arg3 (by decide)) i).symm)
    ((((Cert.KernelIdeal.Keep.keep11 m ρ c Cert.KernelIdeal.main_arg4 (by decide)).trans (kb_arg m ρ c Cert.KernelIdeal.main_arg4 (by decide))).trans H.a4.symm).trans
      (r2_arg m' c Cert.ReferenceIdeal.main_arg4 (by decide)).symm)
    (fun i => ((congrFun (Cert.KernelIdeal.Keep.keep11 m ρ c Cert.KernelIdeal.main_v5 (by decide)) i).trans (kb_w2 m ρ m' c H i)).trans
      (congrFun (r2_arg m' c Cert.ReferenceIdeal.main_arg5 (by decide)) i).symm)
    ((((Cert.KernelIdeal.Keep.keep11 m ρ c Cert.KernelIdeal.main_arg6 (by decide)).trans (kb_arg m ρ c Cert.KernelIdeal.main_arg6 (by decide))).trans H.a6.symm).trans
      (r2_arg m' c Cert.ReferenceIdeal.main_arg6 (by decide)).symm)
    ((((Cert.KernelIdeal.Keep.keep11 m ρ c Cert.KernelIdeal.main_arg7 (by decide)).trans (kb_arg m ρ c Cert.KernelIdeal.main_arg7 (by decide))).trans H.a7.symm).trans
      (r2_arg m' c Cert.ReferenceIdeal.main_arg7 (by decide)).symm)
    ((((Cert.KernelIdeal.Keep.keep11 m ρ c Cert.KernelIdeal.main_arg8 (by decide)).trans (kb_arg m ρ c Cert.KernelIdeal.main_arg8 (by decide))).trans H.a8.symm).trans
      (r2_arg m' c Cert.ReferenceIdeal.main_arg8 (by decide)).symm)
    (fun e => by rw [r2_src m' c]; exact src_range m ρ m' c H e)
    (fun i => by rw [f2 m' c]; exact (j1 m ρ m' c H).2 i)
    (fun i => by rw [show Cert.ReferenceIdeal.L2.w1At (R2 m' c) = _ from r2_arg m' c Cert.ReferenceIdeal.main_arg3 (by decide)]; exact real3 m ρ m' c H i)
    (fun i => by rw [show Cert.ReferenceIdeal.L2.b1At (R2 m' c) = _ from r2_arg m' c Cert.ReferenceIdeal.main_arg4 (by decide)]; exact real4 m ρ m' c H i)
    (fun i => by rw [show Cert.ReferenceIdeal.L2.w2At (R2 m' c) = _ from r2_arg m' c Cert.ReferenceIdeal.main_arg5 (by decide)]; exact real5 m ρ m' c H i)
    (fun i => by rw [show Cert.ReferenceIdeal.L2.b2At (R2 m' c) = _ from r2_arg m' c Cert.ReferenceIdeal.main_arg6 (by decide)]; exact real6 m ρ m' c H i)
    (fun i => by rw [show Cert.ReferenceIdeal.L2.gAt (R2 m' c) = _ from r2_arg m' c Cert.ReferenceIdeal.main_arg7 (by decide)]; exact real7 m ρ m' c H i)
    (fun i => by rw [show Cert.ReferenceIdeal.L2.bAt (R2 m' c) = _ from r2_arg m' c Cert.ReferenceIdeal.main_arg8 (by decide)]; exact real8 m ρ m' c H i)

include H in
theorem j3 : Cert.KernelIdeal.KLayer3.out m ρ c = Cert.ReferenceIdeal.L3.outOf (R3 m' c)
    ∧ ∀ i, IsReal (Cert.ReferenceIdeal.L3.outOf (R3 m' c) i) :=
  Cert.Join3.join m ρ c (R3 m' c)
    ((j2 m ρ m' c H).1.trans (f3 m' c).symm)
    (((Cert.KernelIdeal.Keep.keep16 m ρ c Cert.KernelIdeal.main_v1 (by decide)).trans (kb_src m ρ m' c H)).trans (r3_src m' c).symm)
    (((Cert.KernelIdeal.Keep.keep16 m ρ c Cert.KernelIdeal.main_v3 (by decide)).trans (kb_dst m ρ m' c H)).trans (r3_dst m' c).symm)
    (fun i => ((congrFun (Cert.KernelIdeal.Keep.keep16 m ρ c Cert.KernelIdeal.main_v4 (by decide)) i).trans (kb_w1 m ρ m' c H i)).trans
      (congrFun (r3_arg m' c Cert.ReferenceIdeal.main_arg3 (by decide)) i).symm)
    ((((Cert.KernelIdeal.Keep.keep16 m ρ c Cert.KernelIdeal.main_arg4 (by decide)).trans (kb_arg m ρ c Cert.KernelIdeal.main_arg4 (by decide))).trans H.a4.symm).trans
      (r3_arg m' c Cert.ReferenceIdeal.main_arg4 (by decide)).symm)
    (fun i => ((congrFun (Cert.KernelIdeal.Keep.keep16 m ρ c Cert.KernelIdeal.main_v5 (by decide)) i).trans (kb_w2 m ρ m' c H i)).trans
      (congrFun (r3_arg m' c Cert.ReferenceIdeal.main_arg5 (by decide)) i).symm)
    ((((Cert.KernelIdeal.Keep.keep16 m ρ c Cert.KernelIdeal.main_arg6 (by decide)).trans (kb_arg m ρ c Cert.KernelIdeal.main_arg6 (by decide))).trans H.a6.symm).trans
      (r3_arg m' c Cert.ReferenceIdeal.main_arg6 (by decide)).symm)
    ((((Cert.KernelIdeal.Keep.keep16 m ρ c Cert.KernelIdeal.main_arg7 (by decide)).trans (kb_arg m ρ c Cert.KernelIdeal.main_arg7 (by decide))).trans H.a7.symm).trans
      (r3_arg m' c Cert.ReferenceIdeal.main_arg7 (by decide)).symm)
    ((((Cert.KernelIdeal.Keep.keep16 m ρ c Cert.KernelIdeal.main_arg8 (by decide)).trans (kb_arg m ρ c Cert.KernelIdeal.main_arg8 (by decide))).trans H.a8.symm).trans
      (r3_arg m' c Cert.ReferenceIdeal.main_arg8 (by decide)).symm)
    (fun e => by rw [r3_src m' c]; exact src_range m ρ m' c H e)
    (fun i => by rw [f3 m' c]; exact (j2 m ρ m' c H).2 i)
    (fun i => by rw [show Cert.ReferenceIdeal.L3.w1At (R3 m' c) = _ from r3_arg m' c Cert.ReferenceIdeal.main_arg3 (by decide)]; exact real3 m ρ m' c H i)
    (fun i => by rw [show Cert.ReferenceIdeal.L3.b1At (R3 m' c) = _ from r3_arg m' c Cert.ReferenceIdeal.main_arg4 (by decide)]; exact real4 m ρ m' c H i)
    (fun i => by rw [show Cert.ReferenceIdeal.L3.w2At (R3 m' c) = _ from r3_arg m' c Cert.ReferenceIdeal.main_arg5 (by decide)]; exact real5 m ρ m' c H i)
    (fun i => by rw [show Cert.ReferenceIdeal.L3.b2At (R3 m' c) = _ from r3_arg m' c Cert.ReferenceIdeal.main_arg6 (by decide)]; exact real6 m ρ m' c H i)
    (fun i => by rw [show Cert.ReferenceIdeal.L3.gAt (R3 m' c) = _ from r3_arg m' c Cert.ReferenceIdeal.main_arg7 (by decide)]; exact real7 m ρ m' c H i)
    (fun i => by rw [show Cert.ReferenceIdeal.L3.bAt (R3 m' c) = _ from r3_arg m' c Cert.ReferenceIdeal.main_arg8 (by decide)]; exact real8 m ρ m' c H i)

/-! ### The pooled classifier, and the result -/

include H in
/-- THE RESULT: the kernel program's result buffer at its last boundary holds what the reference's holds after all its
    operations. -/
theorem result_eq :
    W24 m ρ c (Proc.devRef .tc Cert.KernelIdeal.main_v145)
      = after (Cert.ReferenceIdeal.Run.ops (F := Ideal)) (R0 m' c) (Proc.devRef .tc Cert.ReferenceIdeal.main_v223) := by
  have e0 : W21 m ρ c (Proc.devRef .tc Cert.KernelIdeal.main_v133) = R4 m' c (Proc.devRef .tc Cert.ReferenceIdeal.main_v211) :=
    (j3 m ρ m' c H).1.trans (f4 m' c).symm
  have e2 : W21 m ρ c (Proc.devRef .tc Cert.KernelIdeal.main_arg2) = R4 m' c (Proc.devRef .tc Cert.ReferenceIdeal.main_arg2) :=
    (((Cert.KernelIdeal.Keep.keep21 m ρ c Cert.KernelIdeal.main_arg2 (by decide)).trans (kb_arg m ρ c Cert.KernelIdeal.main_arg2 (by decide))).trans H.a2.symm).trans
      (r4_arg m' c Cert.ReferenceIdeal.main_arg2 (by decide)).symm
  have e9 : W21 m ρ c (Proc.devRef .tc Cert.KernelIdeal.main_arg9) = R4 m' c (Proc.devRef .tc Cert.ReferenceIdeal.main_arg9) :=
    (((Cert.KernelIdeal.Keep.keep21 m ρ c Cert.KernelIdeal.main_arg9 (by decide)).trans (kb_arg m ρ c Cert.KernelIdeal.main_arg9 (by decide))).trans H.a9.symm).trans
      (r4_arg m' c Cert.ReferenceIdeal.main_arg9 (by decide)).symm
  have e10 : W21 m ρ c (Proc.devRef .tc Cert.KernelIdeal.main_arg10) = R4 m' c (Proc.devRef .tc Cert.ReferenceIdeal.main_arg10) :=
    (((Cert.KernelIdeal.Keep.keep21 m ρ c Cert.KernelIdeal.main_arg10 (by decide)).trans (kb_arg m ρ c Cert.KernelIdeal.main_arg10 (by decide))).trans H.a10.symm).trans
      (r4_arg m' c Cert.ReferenceIdeal.main_arg10 (by decide)).symm
  have e11 : W21 m ρ c (Proc.devRef .tc Cert.KernelIdeal.main_arg11) = R4 m' c (Proc.devRef .tc Cert.ReferenceIdeal.main_arg11) :=
    (((Cert.KernelIdeal.Keep.keep21 m ρ c Cert.KernelIdeal.main_arg11 (by decide)).trans (kb_arg m ρ c Cert.KernelIdeal.main_arg11 (by decide))).trans H.a11.symm).trans
      (r4_arg m' c Cert.ReferenceIdeal.main_arg11 (by decide)).symm
  have e12 : W21 m ρ c (Proc.devRef .tc Cert.KernelIdeal.main_arg12) = R4 m' c (Proc.devRef .tc Cert.ReferenceIdeal.main_arg12) :=
    (((Cert.KernelIdeal.Keep.keep21 m ρ c Cert.KernelIdeal.main_arg12 (by decide)).trans (kb_arg m ρ c Cert.KernelIdeal.main_arg12 (by decide))).trans H.a12.symm).trans
      (r4_arg m' c Cert.ReferenceIdeal.main_arg12 (by decide)).symm
  refine (Cert.Tail.k_tail (W21 m ρ c)).trans ?_
  rw [Cert.Tail.tail_eq, e0, e2, e9, e10, e11, e12]
  refine (Cert.Tail.r_tail (R4 m' c)).symm.trans ?_
  exact (congrFun (Cert.ReferenceIdeal.Run.after_ops (R0 m' c)) (Proc.devRef .tc Cert.ReferenceIdeal.main_v223)).symm

end Cert.Proof.Assemble

end
-- ==== Proof.lean ====
/-
  The proof of the certificate's claim.

  The kernel program is four graph-isomorphism layers, each an aggregation on the host (a row take and a segment sum),
  a kernel computing z = relu((h + agg)·W₁ + b₁)·W₂ + b₂ with the column sums of z and z², the batch statistics on the
  host, and a kernel normalising z; then a pooled classifier on the host.  The reference is the same network in plain
  array operations, its variance taken from the centred entries.
  The three frames: the two kernel programs' are the generated frame certificates; the reference is a straight line of
  host operations none of which writes an argument.  The idealization rewrote nothing.  The results agree over the
  extended reals under the precondition — every float argument finite, every edge source in [0, 50000): the take's
  filling select is then the plain gather; on real columns the variance E z² − (E z)² is E (z − E z)²; realness passes
  from layer to layer; the classifier is the same operations in both programs.
-/
import proofs.«414384_j72937134621131_1_alg».proof.Defs
import proofs.«414384_j72937134621131_1_alg».proof.Proof.Gen.Kernel
import proofs.«414384_j72937134621131_1_alg».proof.Proof.Gen.Kernel.Frame
import proofs.«414384_j72937134621131_1_alg».proof.Proof.Gen.KernelIdeal
import proofs.«414384_j72937134621131_1_alg».proof.Proof.Gen.KernelIdeal.Frame
import proofs.«414384_j72937134621131_1_alg».proof.Proof.Gen.ReferenceIdeal
import proofs.«414384_j72937134621131_1_alg».proof.Proof.Gen.Pre_finite_inputs
import proofs.«414384_j72937134621131_1_alg».proof.Proof.Assemble
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.StableHlo (after launchContents)

/-- After all the reference's operations every argument buffer holds what it held at launch. -/
theorem ref_args (m : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc) (hb : b ∈ Cert.ReferenceIdeal.Chain.args) :
    after (Cert.ReferenceIdeal.Run.ops (F := Ideal)) (launchContents m c) (Proc.devRef .tc b)
      = m ((c.tc : Thread Cert.ReferenceIdeal.nD Cert.ReferenceIdeal.τ).loc b) :=
  Cert.ReferenceIdeal.Chain.args_kept (launchContents m c) b hb

/-- The kernel program as printed runs and leaves its arguments. -/
theorem frame_k : Cert.frame_Kernel := fun m ρ _ => Cert.Kernel.Gen.frame m ρ

/-- The idealized kernel program runs and leaves its arguments. -/
theorem frame_ki : Cert.frame_KernelIdeal := fun m ρ _ => Cert.KernelIdeal.Gen.frame m ρ

/-- The reference runs and leaves its arguments: a line of host operations, none writing an argument. -/
theorem frame_ri : Cert.frame_ReferenceIdeal := fun m ρ _ =>
  (θ_run Cert.ReferenceIdeal.defs _ _).mono (fun r h c =>
    ⟨(h c Cert.ReferenceIdeal.main_arg0).trans (ref_args m c _ (by decide)),
     (h c Cert.ReferenceIdeal.main_arg1).trans (ref_args m c _ (by decide)),
     (h c Cert.ReferenceIdeal.main_arg2).trans (ref_args m c _ (by decide)),
     (h c Cert.ReferenceIdeal.main_arg3).trans (ref_args m c _ (by decide)),
     (h c Cert.ReferenceIdeal.main_arg4).trans (ref_args m c _ (by decide)),
     (h c Cert.ReferenceIdeal.main_arg5).trans (ref_args m c _ (by decide)),
     (h c Cert.ReferenceIdeal.main_arg6).trans (ref_args m c _ (by decide)),
     (h c Cert.ReferenceIdeal.main_arg7).trans (ref_args m c _ (by decide)),
     (h c Cert.ReferenceIdeal.main_arg8).trans (ref_args m c _ (by decide)),
     (h c Cert.ReferenceIdeal.main_arg9).trans (ref_args m c _ (by decide)),
     (h c Cert.ReferenceIdeal.main_arg10).trans (ref_args m c _ (by decide)),
     (h c Cert.ReferenceIdeal.main_arg11).trans (ref_args m c _ (by decide)),
     (h c Cert.ReferenceIdeal.main_arg12).trans (ref_args m c _ (by decide))⟩)
    (Cert.ReferenceIdeal.Run.run_main (F := Ideal) m ρ)

/-- The idealization rewrote no operation. -/
theorem preserves : Cert.preserves_Kernel_KernelIdeal := trivial

/-- The two idealized programs end with equal results. -/
theorem algebraic : Cert.algebraic_KernelIdeal_ReferenceIdeal := by
  intro m ρ m' ρ' hpre hagree
  refine ⟨fun c => Cert.KernelIdeal.Gen.W24 m ρ c (Proc.devRef .tc Cert.KernelIdeal.main_v145),
    Cert.KernelIdeal.GenV.run_value m ρ, ?_⟩
  refine (θ_run Cert.ReferenceIdeal.defs _ _).mono (fun r h c => ?_) (Cert.ReferenceIdeal.Run.run_main (F := Ideal) m' ρ')
  have hc := hagree c
  have HH : Cert.Proof.Assemble.Hyp m ρ m' c :=
    ⟨hpre c, hc.1, hc.2.1, hc.2.2.1, hc.2.2.2.1, hc.2.2.2.2.1, hc.2.2.2.2.2.1, hc.2.2.2.2.2.2.1, hc.2.2.2.2.2.2.2.1,
      hc.2.2.2.2.2.2.2.2.1, hc.2.2.2.2.2.2.2.2.2.1, hc.2.2.2.2.2.2.2.2.2.2.1, hc.2.2.2.2.2.2.2.2.2.2.2.1,
      hc.2.2.2.2.2.2.2.2.2.2.2.2⟩
  exact
    ⟨(h c Cert.ReferenceIdeal.main_v223).trans (Cert.Proof.Assemble.result_eq m ρ m' c HH).symm,
     (h c Cert.ReferenceIdeal.main_arg0).trans (ref_args m' c _ (by decide)),
     (h c Cert.ReferenceIdeal.main_arg1).trans (ref_args m' c _ (by decide)),
     (h c Cert.ReferenceIdeal.main_arg2).trans (ref_args m' c _ (by decide)),
     (h c Cert.ReferenceIdeal.main_arg3).trans (ref_args m' c _ (by decide)),
     (h c Cert.ReferenceIdeal.main_arg4).trans (ref_args m' c _ (by decide)),
     (h c Cert.ReferenceIdeal.main_arg5).trans (ref_args m' c _ (by decide)),
     (h c Cert.ReferenceIdeal.main_arg6).trans (ref_args m' c _ (by decide)),
     (h c Cert.ReferenceIdeal.main_arg7).trans (ref_args m' c _ (by decide)),
     (h c Cert.ReferenceIdeal.main_arg8).trans (ref_args m' c _ (by decide)),
     (h c Cert.ReferenceIdeal.main_arg9).trans (ref_args m' c _ (by decide)),
     (h c Cert.ReferenceIdeal.main_arg10).trans (ref_args m' c _ (by decide)),
     (h c Cert.ReferenceIdeal.main_arg11).trans (ref_args m' c _ (by decide)),
     (h c Cert.ReferenceIdeal.main_arg12).trans (ref_args m' c _ (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
